-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64x128x200 : Shape := ⟨3, ![64, 128, 200]⟩
abbrev S200x768 : Shape := ⟨2, ![200, 768]⟩
abbrev S128x200 : Shape := ⟨2, ![128, 200]⟩
abbrev S1024x1536 : Shape := ⟨2, ![1024, 1536]⟩
abbrev S1024 : Shape := ⟨1, ![1024]⟩
abbrev S128x1024 : Shape := ⟨2, ![128, 1024]⟩
abbrev S128 : Shape := ⟨1, ![128]⟩
abbrev S128x256 : Shape := ⟨2, ![128, 256]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S64x128x200 : S_.BroadcastsInDim S64x128x200 (![] : Fin 0 → Fin S64x128x200.rank)
  reducesTo_S64x128x200_S_d0_1_2 : S64x128x200.ReducesTo [0, 1, 2] S_
  bcast_S_S200x768 : S_.BroadcastsInDim S200x768 (![] : Fin 0 → Fin S200x768.rank)
  reducesTo_S200x768_S_d0_1 : S200x768.ReducesTo [0, 1] S_
  bcast_S_S128x200 : S_.BroadcastsInDim S128x200 (![] : Fin 0 → Fin S128x200.rank)
  reducesTo_S128x200_S_d0_1 : S128x200.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S1024 : S_.BroadcastsInDim S1024 (![] : Fin 0 → Fin S1024.rank)
  reducesTo_S1024_S_d0 : S1024.ReducesTo [0] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  main_v53

def fn_part2 {F : FTy → Type} [FloatOps F] (main_arg7 : FVec F S1024 .f32) (main_arg8 : FVec F S128x1024 .f32) (main_arg9 : FVec F S128 .f32) (main_arg10 : FVec F S128x256 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S128x1024 .f32 := Host.absf main_arg8
  let main_cst_14 : FVec F S_ .f32 := constant S_ .f32 0x7F800000#32
  let main_v40 : FVec F S128x1024 .f32 := broadcastInDim S128x1024 ![] bcast_S_S128x1024 main_cst_14
  let main_v41 : IVec S128x1024 1 := cmpf .olt main_v39 main_v40
  let main_c_15 : IVec S_ 1 := constantI S_ 1 1#1
  let main_v42 : IVec S_ 1 := (fun x v => Host.reduce IntOp.andi x v reducesTo_S128x1024_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_v48 main_v49 main_v50

def fn_part1 {F : FTy → Type} [FloatOps F] (main_arg4 : FVec F S1024x1536 .f32) (main_arg5 : FVec F S1024 .f32) (main_arg6 : FVec F S1024 .f32) (main_arg7 : FVec F S1024 .f32) (main_arg8 : FVec F S128x1024 .f32) (main_arg9 : FVec F S128 .f32) (main_arg10 : FVec F S128x256 .f32) (main_v13 : IVec S_ 1) (main_v16 : IVec S128x200 1) : IVec S_ 1 :=
  let main_c_5 : IVec S_ 1 := constantI S_ 1 1#1
  let main_v17 : IVec S_ 1 := (fun x v => Host.reduce IntOp.andi x v reducesTo_S128x200_S_d0_1 h_S_) main_v16 main_c_5
  let main_v18 : IVec S_ 1 := andi main_v13 main_v17
  let main_v19 : FVec F S1024x1536 .f32 := Host.absf main_arg4
  let main_cst_6 : FVec F S_ .f32 := constant S_ .f32 0x7F800000#32
  let main_v20 : FVec F S1024x1536 .f32 := broadcastInDim S1024x1536 ![] bcast_S_S1024x1536 main_cst_6
  let main_v21 : IVec S1024x1536 1 := cmpf .olt main_v19 main_v20
  let main_c_7 : IVec S_ 1 := constantI S_ 1 1#1
  let main_v22 : IVec S_ 1 := (fun x v => Host.reduce IntOp.andi x v reducesTo_S1024x1536_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x512x768 .f32) (main_arg1 : FVec F S64x128x200 .f32) (main_arg2 : FVec F S200x768 .f32) (main_arg3 : FVec F S128x200 .f32) (main_arg4 : FVec F S1024x1536 .f32) (main_arg5 : FVec F S1024 .f32) (main_arg6 : FVec F S1024 .f32) (main_arg7 : FVec F S1024 .f32) (main_arg8 : FVec F S128x1024 .f32) (main_arg9 : FVec F S128 .f32) (main_arg10 : FVec F S128x256 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S64x128x200 .f32 := Host.absf main_arg1
  let main_cst_0 : FVec F S_ .f32 := constant S_ .f32 0x7F800000#32
  let main_v5 : FVec F S64x128x200 .f32 := broadcastInDim S64x128x200 ![] bcast_S_S64x128x200 main_cst_0
  let main_v6 : IVec S64x128x200 1 := cmpf .olt main_v4 main_v5
  let main_c_1 : IVec S_ 1 := constantI S_ 1 1#1
  let main_v7 : IVec S_ 1 := (fun x v => Host.reduce IntOp.andi x v reducesTo_S64x128x200_S_d0_1_2 h_S_) main_v6 main_c_1
  let main_v8 : IVec S_ 1 := andi main_v3 main_v7
  let main_v9 : FVec F S200x768 .f32 := Host.absf main_arg2
  let main_cst_2 : FVec F S_ .f32 := constant S_ .f32 0x7F800000#32
  let main_v10 : FVec F S200x768 .f32 := broadcastInDim S200x768 ![] bcast_S_S200x768 main_cst_2
  let main_v11 : IVec S200x768 1 := cmpf .olt main_v9 main_v10
  let main_c_3 : IVec S_ 1 := constantI S_ 1 1#1
  let main_v12 : IVec S_ 1 := (fun x v => Host.reduce IntOp.andi x v reducesTo_S200x768_S_d0_1 h_S_) main_v11 main_c_3
  let main_v13 : IVec S_ 1 := andi main_v8 main_v12
  let main_v14 : FVec F S128x200 .f32 := Host.absf main_arg3
  let main_cst_4 : FVec F S_ .f32 := constant S_ .f32 0x7F800000#32
  let main_v15 : FVec F S128x200 .f32 := broadcastInDim S128x200 ![] bcast_S_S128x200 main_cst_4
  let main_v16 : IVec S128x200 1 := cmpf .olt main_v14 main_v15
  fn_part1 (F := F) main_arg4 main_arg5 main_arg6 main_arg7 main_arg8 main_arg9 main_arg10 main_v13 main_v16
-- ==== Kernel.lean ====
abbrev S64x512x768 : Shape := ⟨3, ![64, 512, 768]⟩
abbrev S64x128x200 : Shape := ⟨3, ![64, 128, 200]⟩
abbrev S200x768 : Shape := ⟨2, ![200, 768]⟩
abbrev S128x200 : Shape := ⟨2, ![128, 200]⟩
abbrev S1024x1536 : Shape := ⟨2, ![1024, 1536]⟩
abbrev S1024 : Shape := ⟨1, ![1024]⟩
abbrev S128x1024 : Shape := ⟨2, ![128, 1024]⟩
abbrev S128 : Shape := ⟨1, ![128]⟩
abbrev S128x256 : Shape := ⟨2, ![128, 256]⟩
abbrev S_ : Shape := ⟨0, ![]⟩
abbrev S256x768 : Shape := ⟨2, ![256, 768]⟩
abbrev S64x1536 : Shape := ⟨2, ![64, 1536]⟩
abbrev S8x512x768 : Shape := ⟨3, ![8, 512, 768]⟩
abbrev S8x128x200 : Shape := ⟨3, ![8, 128, 200]⟩
abbrev S8x1536 : Shape := ⟨2, ![8, 1536]⟩
abbrev S8x128x56 : Shape := ⟨3, ![8, 128, 56]⟩
abbrev S8x128x256 : Shape := ⟨3, ![8, 128, 256]⟩
abbrev S4096x768 : Shape := ⟨2, ![4096, 768]⟩
abbrev S4096x256 : Shape := ⟨2, ![4096, 256]⟩
abbrev S8x512x256 : Shape := ⟨3, ![8, 512, 256]⟩
abbrev S1x128x256 : Shape := ⟨3, ![1, 128, 256]⟩
abbrev S8x128x512 : Shape := ⟨3, ![8, 128, 512]⟩
abbrev S8x512 : Shape := ⟨2, ![8, 512]⟩
abbrev S8x1x512 : Shape := ⟨3, ![8, 1, 512]⟩
abbrev S8x512x1 : Shape := ⟨3, ![8, 512, 1]⟩
abbrev S8x768 : Shape := ⟨2, ![8, 768]⟩
abbrev S1x1024 : Shape := ⟨2, ![1, 1024]⟩
abbrev S1x128 : Shape := ⟨2, ![1, 128]⟩
abbrev S64x128 : Shape := ⟨2, ![64, 128]⟩
abbrev S64x1024 : Shape := ⟨2, ![64, 1024]⟩
abbrev S64x256 : Shape := ⟨2, ![64, 256]⟩
abbrev S1536x1024 : Shape := ⟨2, ![1536, 1024]⟩
abbrev S1024x128 : Shape := ⟨2, ![1024, 128]⟩
abbrev S64x256x1 : Shape := ⟨3, ![64, 256, 1]⟩
abbrev S64x256x200 : Shape := ⟨3, ![64, 256, 200]⟩

abbrev nBuf : Space → Nat
  | .hbm => 27
  | .vmem => 19
  | .smem => 0
  | _ => 0

abbrev bufTy : (tb : Table) → Fin (tcTables nBuf tb) → BufTy
  | .hbm, ⟨0, _⟩ => ⟨S64x512x768, .f32⟩
  | .hbm, ⟨1, _⟩ => ⟨S64x128x200, .f32⟩
  | .hbm, ⟨2, _⟩ => ⟨S200x768, .f32⟩
  | .hbm, ⟨3, _⟩ => ⟨S128x200, .f32⟩
  | .hbm, ⟨4, _⟩ => ⟨S1024x1536, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S128x1024, .f32⟩
  | .hbm, ⟨9, _⟩ => ⟨S128, .f32⟩
  | .hbm, ⟨10, _⟩ => ⟨S128x256, .f32⟩
  | .hbm, ⟨11, _⟩ => ⟨S_, .i32⟩
  | .hbm, ⟨12, _⟩ => ⟨S_, .f32⟩
  | .hbm, ⟨13, _⟩ => ⟨S256x768, .f32⟩
  | .hbm, ⟨14, _⟩ => ⟨S_, .i32⟩
  | .hbm, ⟨15, _⟩ => ⟨S_, .f32⟩
  | .hbm, ⟨16, _⟩ => ⟨S128x256, .f32⟩
  | .hbm, ⟨17, _⟩ => ⟨S64x1536, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x128, .f32⟩
  | .hbm, ⟨22, _⟩ => ⟨S64x128, .f32⟩
  | .hbm, ⟨23, _⟩ => ⟨S64x1024, .f32⟩
  | .hbm, ⟨24, _⟩ => ⟨S64x256, .f32⟩
  | .hbm, ⟨25, _⟩ => ⟨S64x256x1, .f32⟩
  | .hbm, ⟨26, _⟩ => ⟨S64x256x200, .f32⟩
  | .local _ .vmem, ⟨0, _⟩ => ⟨S8x512x768, .f32⟩
  | .local _ .vmem, ⟨1, _⟩ => ⟨S8x512x768, .f32⟩
  | .local _ .vmem, ⟨2, _⟩ => ⟨S8x128x200, .f32⟩
  | .local _ .vmem, ⟨3, _⟩ => ⟨S8x128x200, .f32⟩
  | .local _ .vmem, ⟨4, _⟩ => ⟨S256x768, .f32⟩
  | .local _ .vmem, ⟨5, _⟩ => ⟨S128x256, .f32⟩
  | .local _ .vmem, ⟨6, _⟩ => ⟨S8x1536, .f32⟩
  | .local _ .vmem, ⟨7, _⟩ => ⟨S8x1536, .f32⟩
  | .local _ .vmem, ⟨8, _⟩ => ⟨S64x1536, .f32⟩
  | .local _ .vmem, ⟨9, _⟩ => ⟨S1024x1536, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S128x1024, .f32⟩
  | .local _ .vmem, ⟨14, _⟩ => ⟨S1x128, .f32⟩
  | .local _ .vmem, ⟨15, _⟩ => ⟨S128x256, .f32⟩
  | .local _ .vmem, ⟨16, _⟩ => ⟨S64x128, .f32⟩
  | .local _ .vmem, ⟨17, _⟩ => ⟨S64x1024, .f32⟩
  | .local _ .vmem, ⟨18, _⟩ => ⟨S64x256, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x1536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  pads_S200x768_S256x768_0560_000 : S200x768.Pads (![0, 0] : Fin 2 → Nat) ![56, 0] ![0, 0] S256x768
  h_S_ : 0 < S_.numel
  pads_S128x200_S128x256_000_0560 : S128x200.Pads (![0, 0] : Fin 2 → Nat) ![0, 56] ![0, 0] S128x256
  inb_S8x512x768_S8x512x768_0_0_0 : ∀ a, (![0, 0, 0] : Fin 3 → Nat) a + S8x512x768.size a ≤ S8x512x768.size a
  h_S8x512x768 : 0 < S8x512x768.numel
  inb_S8x128x200_S8x128x200_0_0_0 : ∀ a, (![0, 0, 0] : Fin 3 → Nat) a + S8x128x200.size a ≤ S8x128x200.size a
  h_S8x128x200 : 0 < S8x128x200.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S128x256_S128x256_0_0 : ∀ a, (![0, 0] : Fin 2 → Nat) a + S128x256.size a ≤ S128x256.size a
  h_S128x256 : 0 < S128x256.numel
  shapeCasts_S128x256_S128x256 : S128x256.ShapeCasts S128x256
  concatenates_S8x128x200_S8x128x56_S8x128x256_d2 : Shape.Concatenates [S8x128x200, S8x128x56] S8x128x256 2
  shapeCasts_S8x512x768_S4096x768 : S8x512x768.ShapeCasts S4096x768
  shapeCasts_S4096x256_S8x512x256 : S4096x256.ShapeCasts S8x512x256
  shapeCasts_S128x256_S1x128x256 : S128x256.ShapeCasts S1x128x256
  broadcasts_S1x128x256_S8x128x256 : S1x128x256.Broadcasts S8x128x256
  reduces_S8x128x512_S8x512 : S8x128x512.Reduces [1] S8x512
  shapeCasts_S8x512_S8x1x512 : S8x512.ShapeCasts S8x1x512
  broadcasts_S8x1x512_S8x128x512 : S8x1x512.Broadcasts S8x128x512
  shapeCasts_S8x512_S8x512x1 : S8x512.ShapeCasts S8x512x1
  broadcasts_S8x512x1_S8x512x768 : S8x512x1.Broadcasts S8x512x768
  reduces_S8x512x768_S8x768 : S8x512x768.Reduces [1] S8x768
  concatenates_S8x768_S8x768_S8x1536_d1 : Shape.Concatenates [S8x768, S8x768] S8x1536 1
  inb_S8x1536_S8x1536_0_0 : ∀ a, (![0, 0] : Fin 2 → Nat) a + S8x1536.size a ≤ S8x1536.size a
  h_S8x1536 : 0 < S8x1536.numel
  shapeCasts_S1024_S1x1024 : S1024.ShapeCasts S1x1024
  shapeCasts_S128_S1x128 : S128.ShapeCasts S1x128
  inb_S64x1536_S64x1536_0_0 : ∀ a, (![0, 0] : Fin 2 → Nat) a + S64x1536.size a ≤ S64x1536.size a
  h_S64x1536 : 0 < S64x1536.numel
  shapeCasts_S64x1536_S64x1536 : S64x1536.ShapeCasts S64x1536
  inb_S1024x1536_S1024x1536_0_0 : ∀ a, (![0, 0] : Fin 2 → Nat) a + S1024x1536.size a ≤ S1024x1536.size a
  h_S1024x1536 : 0 < S1024x1536.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S128x1024_S128x1024_0_0 : ∀ a, (![0, 0] : Fin 2 → Nat) a + S128x1024.size a ≤ S128x1024.size a
  h_S128x1024 : 0 < S128x1024.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S1024x1536_p1_0_S1536x1024 : S1024x1536.Transposes [1, 0] S1536x1024
  broadcasts_S1x1024_S64x1024 : S1x1024.Broadcasts S64x1024
  reduces_S64x1024_S1024 : S64x1024.Reduces [0] S1024
  transposes_S128x1024_p1_0_S1024x128 : S128x1024.Transposes [1, 0] S1024x128
  broadcasts_S1x128_S64x128 : S1x128.Broadcasts S64x128
  inb_S64x128_S64x128_0_0 : ∀ a, (![0, 0] : Fin 2 → Nat) a + S64x128.size a ≤ S64x128.size a
  h_S64x128 : 0 < S64x128.numel
  inb_S64x1024_S64x1024_0_0 : ∀ a, (![0, 0] : Fin 2 → Nat) a + S64x1024.size a ≤ S64x1024.size a
  h_S64x1024 : 0 < S64x1024.numel
  inb_S64x256_S64x256_0_0 : ∀ a, (![0, 0] : Fin 2 → Nat) a + S64x256.size a ≤ S64x256.size a
  h_S64x256 : 0 < S64x256.numel
  bcast_S64x256_S64x256x1_0_1 : S64x256.BroadcastsInDim S64x256x1 (![0, 1] : Fin 2 → Fin S64x256x1.rank)
  bcast_S64x256x1_S64x256x200_0_1_2 : S64x256x1.BroadcastsInDim S64x256x200 (![0, 1, 2] : Fin 3 → Fin S64x256x200.rank)
  dot_S4096x768_S256x768_S4096x256_1_1_0_0_n_n_wf : DotDims.WF S4096x768 S256x768 S4096x256 [1] [1] [0] [0] [] []
  dot_S8x128x256_S8x512x256_S8x128x512_2_2_1_1_0_0_wf : DotDims.WF S8x128x256 S8x512x256 S8x128x512 [2] [2] [1] [1] [0] [0]
  dot_S64x1536_S1536x1024_S64x1024_1_0_0_1_n_n_wf : DotDims.WF S64x1536 S1536x1024 S64x1024 [1] [0] [0] [1] [] []
  dot_S64x1024_S1024x128_S64x128_1_0_0_1_n_n_wf : DotDims.WF S64x1024 S1024x128 S64x128 [1] [0] [0] [1] [] []
  dot_S64x128_S128x256_S64x256_1_0_0_1_n_n_wf : DotDims.WF S64x128 S128x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x768.size a ≤ S64x512x768.size a
  hwx0_0 : ∀ i : grid0.Coords, EltTy.bits .f32 = 32 ∨ (Rect.block (s := S64x512x768) S8x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x200.size a ≤ S64x128x200.size a
  hwx0_1 : ∀ i : grid0.Coords, EltTy.bits .f32 = 32 ∨ (Rect.block (s := S64x128x200) S8x128x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .f32 = 32 ∨ (Rect.block (s := S256x768) S256x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1536.size a ≤ S64x1536.size a
  hwx0_4 : ∀ i : grid0.Coords, EltTy.bits .f32 = 32 ∨ (Rect.block (s := S64x1536) S8x1536.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1536.size a ≤ S64x1536.size a
  hwx1_0 : ∀ i : grid1.Coords, EltTy.bits .f32 = 32 ∨ (Rect.block (s := S64x1536) S64x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1536.size a ≤ S1024x1536.size a
  hwx1_1 : ∀ i : grid1.Coords, EltTy.bits .f32 = 32 ∨ (Rect.block (s := S1024x1536) S1024x1536.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1024.size a ≤ S128x1024.size a
  hwx1_5 : ∀ i : grid1.Coords, EltTy.bits .f32 = 32 ∨ (Rect.block (s := S128x1024) S128x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .f32 = 32 ∨ (Rect.block (s := S128x256) S128x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x128.size a ≤ S64x128.size a
  hwx1_8 : ∀ i : grid1.Coords, EltTy.bits .f32 = 32 ∨ (Rect.block (s := S64x128) S64x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x1024.size a ≤ S64x1024.size a
  hwx1_9 : ∀ i : grid1.Coords, EltTy.bits .f32 = 32 ∨ (Rect.block (s := S64x1024) S64x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x256.size a ≤ S64x256.size a
  hwx1_10 : ∀ i : grid1.Coords, EltTy.bits .f32 = 32 ∨ (Rect.block (s := S64x256) S64x256.size (cc1_transform_10 i) (hinb1_10 i)).WholeWords (EltTy.packing .f32)

variable [Facts₀]

def dot_S4096x768_S256x768_S4096x256_1_1_0_0_n_n : DotDims S4096x768 S256x768 S4096x256 where
  lhsContracting := [1]
  rhsContracting := [1]
  lhsNonContracting := [0]
  rhsNonContracting := [0]
  lhsBatch := []
  rhsBatch := []
  wf := dot_S4096x768_S256x768_S4096x256_1_1_0_0_n_n_wf
def dot_S8x128x256_S8x512x256_S8x128x512_2_2_1_1_0_0 : DotDims S8x128x256 S8x512x256 S8x128x512 where
  lhsContracting := [2]
  rhsContracting := [2]
  lhsNonContracting := [1]
  rhsNonContracting := [1]
  lhsBatch := [0]
  rhsBatch := [0]
  wf := dot_S8x128x256_S8x512x256_S8x128x512_2_2_1_1_0_0_wf
def dot_S64x1536_S1536x1024_S64x1024_1_0_0_1_n_n : DotDims S64x1536 S1536x1024 S64x1024 where
  lhsContracting := [1]
  rhsContracting := [0]
  lhsNonContracting := [0]
  rhsNonContracting := [1]
  lhsBatch := []
  rhsBatch := []
  wf := dot_S64x1536_S1536x1024_S64x1024_1_0_0_1_n_n_wf
def dot_S64x1024_S1024x128_S64x128_1_0_0_1_n_n : DotDims S64x1024 S1024x128 S64x128 where
  lhsContracting := [1]
  rhsContracting := [0]
  lhsNonContracting := [0]
  rhsNonContracting := [1]
  lhsBatch := []
  rhsBatch := []
  wf := dot_S64x1024_S1024x128_S64x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf

abbrev win0_0 : Pipeline.Window sig grid0 :=
  Pipeline.Window.ofSpec (Memref.whole main_arg0) S8x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x1536.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S64x1536.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7_0) S64x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v7_1) S64x1024.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v7_2) S64x256.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S64x512x768 : Shape := ⟨3, ![64, 512, 768]⟩
abbrev S64x128x200 : Shape := ⟨3, ![64, 128, 200]⟩
abbrev S200x768 : Shape := ⟨2, ![200, 768]⟩
abbrev S128x200 : Shape := ⟨2, ![128, 200]⟩
abbrev S1024x1536 : Shape := ⟨2, ![1024, 1536]⟩
abbrev S1024 : Shape := ⟨1, ![1024]⟩
abbrev S128x1024 : Shape := ⟨2, ![128, 1024]⟩
abbrev S128 : Shape := ⟨1, ![128]⟩
abbrev S128x256 : Shape := ⟨2, ![128, 256]⟩
abbrev S64x512x200 : Shape := ⟨3, ![64, 512, 200]⟩
abbrev S64x200x512 : Shape := ⟨3, ![64, 200, 512]⟩
abbrev S1x128x200 : Shape := ⟨3, ![1, 128, 200]⟩
abbrev S64x128x512 : Shape := ⟨3, ![64, 128, 512]⟩
abbrev S_ : Shape := ⟨0, ![]⟩
abbrev S64x512 : Shape := ⟨2, ![64, 512]⟩
abbrev S64x1x512 : Shape := ⟨3, ![64, 1, 512]⟩
abbrev S64x128x768 : Shape := ⟨3, ![64, 128, 768]⟩
abbrev S64x768 : Shape := ⟨2, ![64, 768]⟩
abbrev S64x1536 : Shape := ⟨2, ![64, 1536]⟩
abbrev S1536x1024 : Shape := ⟨2, ![1536, 1024]⟩
abbrev S64x1024 : Shape := ⟨2, ![64, 1024]⟩
abbrev S1x1024 : Shape := ⟨2, ![1, 1024]⟩
abbrev S1024x128 : Shape := ⟨2, ![1024, 128]⟩
abbrev S64x128 : Shape := ⟨2, ![64, 128]⟩
abbrev S1x128 : Shape := ⟨2, ![1, 128]⟩
abbrev S64x256 : Shape := ⟨2, ![64, 256]⟩
abbrev S64x256x1 : Shape := ⟨3, ![64, 256, 1]⟩
abbrev S64x256x200 : Shape := ⟨3, ![64, 256, 200]⟩

abbrev nBuf : Space → Nat
  | .hbm => 98
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x128x200, .f32⟩
  | .hbm, ⟨2, _⟩ => ⟨S200x768, .f32⟩
  | .hbm, ⟨3, _⟩ => ⟨S128x200, .f32⟩
  | .hbm, ⟨4, _⟩ => ⟨S1024x1536, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S128x1024, .f32⟩
  | .hbm, ⟨9, _⟩ => ⟨S128, .f32⟩
  | .hbm, ⟨10, _⟩ => ⟨S128x256, .f32⟩
  | .hbm, ⟨11, _⟩ => ⟨S64x512x200, .f32⟩
  | .hbm, ⟨12, _⟩ => ⟨S64x200x512, .f32⟩
  | .hbm, ⟨13, _⟩ => ⟨S64x200x512, .f32⟩
  | .hbm, ⟨14, _⟩ => ⟨S1x128x200, .f32⟩
  | .hbm, ⟨15, _⟩ => ⟨S64x128x200, .f32⟩
  | .hbm, ⟨16, _⟩ => ⟨S64x128x200, .f32⟩
  | .hbm, ⟨17, _⟩ => ⟨S64x128x512, .f32⟩
  | .hbm, ⟨18, _⟩ => ⟨S_, .f32⟩
  | .hbm, ⟨19, _⟩ => ⟨S64x512, .f32⟩
  | .hbm, ⟨20, _⟩ => ⟨S_, .f32⟩
  | .hbm, ⟨21, _⟩ => ⟨S64x512, .f32⟩
  | .hbm, ⟨22, _⟩ => ⟨S64x512, .f32⟩
  | .hbm, ⟨23, _⟩ => ⟨S64x1x512, .f32⟩
  | .hbm, ⟨24, _⟩ => ⟨S64x128x512, .f32⟩
  | .hbm, ⟨25, _⟩ => ⟨S64x128x512, .f32⟩
  | .hbm, ⟨26, _⟩ => ⟨S64x128x512, .f32⟩
  | .hbm, ⟨27, _⟩ => ⟨S_, .f32⟩
  | .hbm, ⟨28, _⟩ => ⟨S64x512, .f32⟩
  | .hbm, ⟨29, _⟩ => ⟨S64x1x512, .f32⟩
  | .hbm, ⟨30, _⟩ => ⟨S64x128x512, .f32⟩
  | .hbm, ⟨31, _⟩ => ⟨S64x128x512, .f32⟩
  | .hbm, ⟨32, _⟩ => ⟨S64x128x768, .f32⟩
  | .hbm, ⟨33, _⟩ => ⟨S_, .f32⟩
  | .hbm, ⟨34, _⟩ => ⟨S64x768, .f32⟩
  | .hbm, ⟨35, _⟩ => ⟨S_, .f32⟩
  | .hbm, ⟨36, _⟩ => ⟨S64x768, .f32⟩
  | .hbm, ⟨37, _⟩ => ⟨S64x768, .f32⟩
  | .hbm, ⟨38, _⟩ => ⟨S_, .f32⟩
  | .hbm, ⟨39, _⟩ => ⟨S64x768, .f32⟩
  | .hbm, ⟨40, _⟩ => ⟨S_, .f32⟩
  | .hbm, ⟨41, _⟩ => ⟨S64x768, .f32⟩
  | .hbm, ⟨42, _⟩ => ⟨S64x768, .f32⟩
  | .hbm, ⟨43, _⟩ => ⟨S64x1536, .f32⟩
  | .hbm, ⟨44, _⟩ => ⟨S1536x1024, .f32⟩
  | .hbm, ⟨45, _⟩ => ⟨S64x1024, .f32⟩
  | .hbm, ⟨46, _⟩ => ⟨S1x1024, .f32⟩
  | .hbm, ⟨47, _⟩ => ⟨S64x1024, .f32⟩
  | .hbm, ⟨48, _⟩ => ⟨S64x1024, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1x1024, .f32⟩
  | .hbm, ⟨55, _⟩ => ⟨S64x1024, .f32⟩
  | .hbm, ⟨56, _⟩ => ⟨S64x1024, .f32⟩
  | .hbm, ⟨57, _⟩ => ⟨S64x1024, .f32⟩
  | .hbm, ⟨58, _⟩ => ⟨S_, .f32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S1x1024, .f32⟩
  | .hbm, ⟨64, _⟩ => ⟨S64x1024, .f32⟩
  | .hbm, ⟨65, _⟩ => ⟨S64x1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S1x1024, .f32⟩
  | .hbm, ⟨71, _⟩ => ⟨S64x1024, .f32⟩
  | .hbm, ⟨72, _⟩ => ⟨S64x1024, .f32⟩
  | .hbm, ⟨73, _⟩ => ⟨S1x1024, .f32⟩
  | .hbm, ⟨74, _⟩ => ⟨S64x1024, .f32⟩
  | .hbm, ⟨75, _⟩ => ⟨S64x1024, .f32⟩
  | .hbm, ⟨76, _⟩ => ⟨S1x1024, .f32⟩
  | .hbm, ⟨77, _⟩ => ⟨S64x1024, .f32⟩
  | .hbm, ⟨78, _⟩ => ⟨S64x1024, .f32⟩
  | .hbm, ⟨79, _⟩ => ⟨S_, .f32⟩
  | .hbm, ⟨80, _⟩ => ⟨S64x1024, .f32⟩
  | .hbm, ⟨81, _⟩ => ⟨S64x1024, .f32⟩
  | .hbm, ⟨82, _⟩ => ⟨S1024x128, .f32⟩
  | .hbm, ⟨83, _⟩ => ⟨S64x128, .f32⟩
  | .hbm, ⟨84, _⟩ => ⟨S1x128, .f32⟩
  | .hbm, ⟨85, _⟩ => ⟨S64x128, .f32⟩
  | .hbm, ⟨86, _⟩ => ⟨S64x128, .f32⟩
  | .hbm, ⟨87, _⟩ => ⟨S64x128, .f32⟩
  | .hbm, ⟨88, _⟩ => ⟨S64x128, .f32⟩
  | .hbm, ⟨89, _⟩ => ⟨S_, .f32⟩
  | .hbm, ⟨90, _⟩ => ⟨S64x128, .f32⟩
  | .hbm, ⟨91, _⟩ => ⟨S64x128, .f32⟩
  | .hbm, ⟨92, _⟩ => ⟨S_, .f32⟩
  | .hbm, ⟨93, _⟩ => ⟨S64x128, .f32⟩
  | .hbm, ⟨94, _⟩ => ⟨S64x128, .f32⟩
  | .hbm, ⟨95, _⟩ => ⟨S64x256, .f32⟩
  | .hbm, ⟨96, _⟩ => ⟨S64x256x1, .f32⟩
  | .hbm, ⟨97, _⟩ => ⟨S64x256x200, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_cst : Ref sig .tc := ⟨.hbm, 79, rfl⟩
abbrev main_call0_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_11 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  transposes_S64x512x200_S64x200x512_0_2_1 : S64x512x200.Transposes [0, 2, 1] S64x200x512
  bcast_S128x200_S1x128x200_1_2 : S128x200.BroadcastsInDim S1x128x200 (![1, 2] : Fin 2 → Fin S1x128x200.rank)
  bcast_S1x128x200_S64x128x200_0_1_2 : S1x128x200.BroadcastsInDim S64x128x200 (![0, 1, 2] : Fin 3 → Fin S64x128x200.rank)
  reducesTo_S64x128x512_S64x512_d1 : S64x128x512.ReducesTo [1] S64x512
  h_S_ : 0 < S_.numel
  bcast_S_S64x512 : S_.BroadcastsInDim S64x512 (![] : Fin 0 → Fin S64x512.rank)
  bcast_S64x512_S64x1x512_0_2 : S64x512.BroadcastsInDim S64x1x512 (![0, 2] : Fin 2 → Fin S64x1x512.rank)
  bcast_S64x1x512_S64x128x512_0_1_2 : S64x1x512.BroadcastsInDim S64x128x512 (![0, 1, 2] : Fin 3 → Fin S64x128x512.rank)
  reducesTo_S64x128x768_S64x768_d1 : S64x128x768.ReducesTo [1] S64x768
  bcast_S_S64x768 : S_.BroadcastsInDim S64x768 (![] : Fin 0 → Fin S64x768.rank)
  reducesTo_S64x512x768_S64x768_d1 : S64x512x768.ReducesTo [1] S64x768
  concatenates_S64x768_S64x768_S64x1536_d1 : Shape.Concatenates [S64x768, S64x768] S64x1536 1
  transposes_S1024x1536_S1536x1024_1_0 : S1024x1536.Transposes [1, 0] S1536x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  reducesTo_S64x1024_S1024_d0 : S64x1024.ReducesTo [0] S1024
  bcast_S_S1024 : S_.BroadcastsInDim S1024 (![] : Fin 0 → Fin S1024.rank)
  bcast_S_S64x1024 : S_.BroadcastsInDim S64x1024 (![] : Fin 0 → Fin S64x1024.rank)
  transposes_S128x1024_S1024x128_1_0 : S128x1024.Transposes [1, 0] S1024x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64x256_S64x256x1_0_1 : S64x256.BroadcastsInDim S64x256x1 (![0, 1] : Fin 2 → Fin S64x256x1.rank)
  bcast_S64x256x1_S64x256x200_0_1_2 : S64x256x1.BroadcastsInDim S64x256x200 (![0, 1, 2] : Fin 3 → Fin S64x256x200.rank)
  dot_S64x512x768_S200x768_S64x512x200_2_1_01_0_n_n_wf : DotDims.WF S64x512x768 S200x768 S64x512x200 [2] [1] [0, 1] [0] [] []
  dot_S64x128x200_S64x200x512_S64x128x512_2_1_1_2_0_0_wf : DotDims.WF S64x128x200 S64x200x512 S64x128x512 [2] [1] [1] [2] [0] [0]
  dot_S64x128x512_S64x512x768_S64x128x768_2_1_1_2_0_0_wf : DotDims.WF S64x128x512 S64x512x768 S64x128x768 [2] [1] [1] [2] [0] [0]
  dot_S64x1536_S1536x1024_S64x1024_1_0_0_1_n_n_wf : DotDims.WF S64x1536 S1536x1024 S64x1024 [1] [0] [0] [1] [] []
  dot_S64x1024_S1024x128_S64x128_1_0_0_1_n_n_wf : DotDims.WF S64x1024 S1024x128 S64x128 [1] [0] [0] [1] [] []
  dot_S64x128_S128x256_S64x256_1_0_0_1_n_n_wf : DotDims.WF S64x128 S128x256 S64x256 [1] [0] [0] [1] [] []

variable [Facts₀]

def dot_S64x512x768_S200x768_S64x512x200_2_1_01_0_n_n : DotDims S64x512x768 S200x768 S64x512x200 where
  lhsContracting := [2]
  rhsContracting := [1]
  lhsNonContracting := [0, 1]
  rhsNonContracting := [0]
  lhsBatch := []
  rhsBatch := []
  wf := dot_S64x512x768_S200x768_S64x512x200_2_1_01_0_n_n_wf
def dot_S64x128x200_S64x200x512_S64x128x512_2_1_1_2_0_0 : DotDims S64x128x200 S64x200x512 S64x128x512 where
  lhsContracting := [2]
  rhsContracting := [1]
  lhsNonContracting := [1]
  rhsNonContracting := [2]
  lhsBatch := [0]
  rhsBatch := [0]
  wf := dot_S64x128x200_S64x200x512_S64x128x512_2_1_1_2_0_0_wf
def dot_S64x128x512_S64x512x768_S64x128x768_2_1_1_2_0_0 : DotDims S64x128x512 S64x512x768 S64x128x768 where
  lhsContracting := [2]
  rhsContracting := [1]
  lhsNonContracting := [1]
  rhsNonContracting := [2]
  lhsBatch := [0]
  rhsBatch := [0]
  wf := dot_S64x128x512_S64x512x768_S64x128x768_2_1_1_2_0_0_wf
def dot_S64x1536_S1536x1024_S64x1024_1_0_0_1_n_n : DotDims S64x1536 S1536x1024 S64x1024 where
  lhsContracting := [1]
  rhsContracting := [0]
  lhsNonContracting := [0]
  rhsNonContracting := [1]
  lhsBatch := []
  rhsBatch := []
  wf := dot_S64x1536_S1536x1024_S64x1024_1_0_0_1_n_n_wf
def dot_S64x1024_S1024x128_S64x128_1_0_0_1_n_n : DotDims S64x1024 S1024x128 S64x128 where
  lhsContracting := [1]
  rhsContracting := [0]
  lhsNonContracting := [0]
  rhsNonContracting := [1]
  lhsBatch := []
  rhsBatch := []
  wf := dot_S64x1024_S1024x128_S64x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf

class Facts : Prop extends Facts₀ where

variable [Facts]
-- ==== Proof.TccaSplit.lean ====
/-
  The attention body's arithmetic in two halves: the class scores (the projection, its tanh, the weighted class
  matrix and their batched product), and what is computed from the scores (the softmax over the classes, its class
  average, the weighted sum over the positions, the mean over the positions and the two halves laid side by side).
  The body's value is the second half applied to the first.
-/
import proofs.«428937_j74302934221523_3_alg».proof.Proof.Gen.KernelIdeal.Skeleton

noncomputable section

namespace Cert.KernelIdeal.Tcca

open Cert.KernelIdeal Cert.KernelIdeal.Gen Idealize.ShloMosaic Idealize.SL.Sem

variable {F : FTy → Type} [FloatOps F]

/-- The class scores of the eight rows of a block: `scores[b,k,c] = Σ_a (W2p[k,a]·ωp[b,k,a]) · tanh(Σ_s x[b,c,s]·W1p[a,s])`,
    with `ωp` the block's class weights extended by zeros from 200 to 256 attention units. -/
def scores (v0 : Vec F S8x512x768 .f32) (v1 : Vec F S8x128x200 .f32) (v2 : Vec F S256x768 .f32) (v4 : Vec F S128x256 .f32) : FVec F S8x128x512 .f32 :=
  have v3 : FVec F S256x768 .f32 := shapeCast S256x768 v2 shapeCasts_S256x768_S256x768
  have v5 : FVec F S128x256 .f32 := shapeCast S128x256 v4 shapeCasts_S128x256_S128x256
  have cst : F .f32 := Scalar.ofBits .f32 0x00000000#32
  have v6 : FVec F S8x128x56 .f32 := broadcast S8x128x56 cst
  have v7 : FVec F S8x128x256 .f32 := concatenate S8x128x256 2 [⟨S8x128x200, v1⟩, ⟨S8x128x56, v6⟩] concatenates_S8x128x200_S8x128x56_S8x128x256_d2
  have v8 : FVec F S4096x768 .f32 := shapeCast S4096x768 v0 shapeCasts_S8x512x768_S4096x768
  have cst_9 : FVec F S4096x256 .f32 := constant S4096x256 .f32 0x00000000#32
  have v9 : FVec F S4096x256 .f32 := matmul dot_S4096x768_S256x768_S4096x256_1_1_0_0_n_n none v8 v3 cst_9
  have v10 : FVec F S4096x256 .f32 := tanh v9
  have v11 : FVec F S8x512x256 .f32 := shapeCast S8x512x256 v10 shapeCasts_S4096x256_S8x512x256
  have v12 : FVec F S1x128x256 .f32 := shapeCast S1x128x256 v5 shapeCasts_S128x256_S1x128x256
  have v13 : FVec F S8x128x256 .f32 := broadcastTo S8x128x256 v12 broadcasts_S1x128x256_S8x128x256
  have v14 : FVec F S8x128x256 .f32 := mulf v13 v7
  have cst_10 : FVec F S8x128x512 .f32 := constant S8x128x512 .f32 0x00000000#32
  have v15 : FVec F S8x128x512 .f32 := matmul dot_S8x128x256_S8x512x256_S8x128x512_2_2_1_1_0_0 none v14 v11 cst_10
  v15

/-- From the scores to the block of the classifier's input. -/
def fromScores (v0 : Vec F S8x512x768 .f32) (v15 : FVec F S8x128x512 .f32) : FVec F S8x1536 .f32 :=
  have v16 : FVec F S8x512 .f32 := multiReduction .maximumf [1] S8x512 v15 0xFF800000#32 reduces_S8x128x512_S8x512 (.inl rfl) rfl
  have v17 : FVec F S8x1x512 .f32 := shapeCast S8x1x512 v16 shapeCasts_S8x512_S8x1x512
  have v18 : FVec F S8x128x512 .f32 := broadcastTo S8x128x512 v17 broadcasts_S8x1x512_S8x128x512
  have v19 : FVec F S8x128x512 .f32 := subf v15 v18
  have v20 : FVec F S8x128x512 .f32 := exp v19
  have v21 : FVec F S8x512 .f32 := multiReduction .add [1] S8x512 v20 0x00000000#32 reduces_S8x128x512_S8x512 (.inl rfl) rfl
  have v22 : FVec F S8x1x512 .f32 := shapeCast S8x1x512 v21 shapeCasts_S8x512_S8x1x512
  have v23 : FVec F S8x128x512 .f32 := broadcastTo S8x128x512 v22 broadcasts_S8x1x512_S8x128x512
  have v24 : FVec F S8x128x512 .f32 := divf v20 v23
  have v25 : FVec F S8x512 .f32 := multiReduction .add [1] S8x512 v24 0x00000000#32 reduces_S8x128x512_S8x512 (.inl rfl) rfl
  have cst_14 : F .f32 := Scalar.ofBits .f32 0x43000000#32
  have v26 : FVec F S8x512 .f32 := broadcast S8x512 cst_14
  have v27 : FVec F S8x512 .f32 := divf v25 v26
  have v28 : FVec F S8x512x1 .f32 := shapeCast S8x512x1 v27 shapeCasts_S8x512_S8x512x1
  have v29 : FVec F S8x512x768 .f32 := broadcastTo S8x512x768 v28 broadcasts_S8x512x1_S8x512x768
  have v30 : FVec F S8x512x768 .f32 := mulf v0 v29
  have v31 : FVec F S8x768 .f32 := multiReduction .add [1] S8x768 v30 0x00000000#32 reduces_S8x512x768_S8x768 (.inl rfl) rfl
  have v32 : FVec F S8x768 .f32 := multiReduction .add [1] S8x768 v0 0x00000000#32 reduces_S8x512x768_S8x768 (.inl rfl) rfl
  have cst_17 : F .f32 := Scalar.ofBits .f32 0x44000000#32
  have v33 : FVec F S8x768 .f32 := broadcast S8x768 cst_17
  have v34 : FVec F S8x768 .f32 := divf v32 v33
  have v35 : FVec F S8x1536 .f32 := concatenate S8x1536 1 [⟨S8x768, v34⟩, ⟨S8x768, v31⟩] concatenates_S8x768_S8x768_S8x1536_d1
  v35

/-- The body's stored value is the second half applied to the first. -/
theorem k0_pay1_eq (v0 : Vec F S8x512x768 .f32) (v1 : Vec F S8x128x200 .f32) (v2 : Vec F S256x768 .f32) (v4 : Vec F S128x256 .f32) :
    Gen.k0_pay1 v0 v1 v2 v4 = fromScores v0 (scores v0 v1 v2 v4) := rfl

end Cert.KernelIdeal.Tcca

end
-- ==== Proof.Spec.lean ====
/-
  The mathematics both programs compute, written once over plain coordinates.

  One batch row of the attention stage: from a row's slab `xr` (512 positions by 768 features), its class weights
  `ωr`, and the two projection matrices, the scores `attn k c = Σ_a (W2 k a · ωr k a) · tanh (Σ_s xr c s · W1 a s)`;
  a softmax of the scores over the class axis `k`; and the row of the classifier's input: the mean of `xr` over the
  positions, followed by the class-averaged attention output. The two programs differ in WHERE they average over
  the classes: one averages the softmax weights first and then contracts with `xr` (`aoKer`), the other contracts
  first and averages afterwards (`aoRef`).

  The classifier: an affine map, a batch normalisation over the 64 rows followed by a rectifier, a second affine
  map with a logistic, and a last matrix product.

  Float words that both programs spell are kept as the words they are (`Ideal.ofBits .f32 …`): 0xFF800000 is the
  maximum's starting value, 0x43000000, 0x44000000 and 0x42800000 the three divisors (128, 512, 64) and 0x3727C5AC the
  normalisation's epsilon.
-/
import Idealize.ShloMosaic.PureOps.Ideal
import Idealize.ShloMosaic.PureOps.Ideal.Laws

noncomputable section

namespace Cert.Spec

open Idealize.ShloMosaic

variable {na : Nat}

/-! ## One batch row of the attention stage -/

/-- The tanh projection of position `c` onto attention unit `a`. -/
def tproj (xr : Fin 512 → Fin 768 → EReal) (W1 : Fin na → Fin 768 → EReal) (c : Fin 512) (a : Fin na) : EReal :=
  Ideal.tanh (∑ s : Fin 768, xr c s * W1 a s)

/-- The score of class `k` at position `c`. -/
def attn (xr : Fin 512 → Fin 768 → EReal) (ωr : Fin 128 → Fin na → EReal) (W1 : Fin na → Fin 768 → EReal)
    (W2 : Fin 128 → Fin na → EReal) (k : Fin 128) (c : Fin 512) : EReal :=
  ∑ a : Fin na, (W2 k a * ωr k a) * tproj xr W1 c a

/-- The largest score over the classes at position `c` (a fold of `max` from the programs' starting word). -/
def amax (A : Fin 128 → Fin 512 → EReal) (c : Fin 512) : EReal :=
  (Finset.univ : Finset (Fin 128)).fold max (Ideal.ofBits .f32 0xFF800000#32) (fun k => A k c)

/-- The shifted exponential of a score. -/
def ew (A : Fin 128 → Fin 512 → EReal) (k : Fin 128) (c : Fin 512) : EReal :=
  Ideal.exp (A k c - amax A c)

/-- The softmax's denominator at position `c`. -/
def esum (A : Fin 128 → Fin 512 → EReal) (c : Fin 512) : EReal :=
  ∑ k : Fin 128, ew A k c

/-- The softmax weight of class `k` at position `c`. -/
def aw (A : Fin 128 → Fin 512 → EReal) (k : Fin 128) (c : Fin 512) : EReal :=
  Ideal.div (ew A k c) (esum A c)

/-- The class-averaged attention output, weights averaged first. -/
def aoKer (xr : Fin 512 → Fin 768 → EReal) (A : Fin 128 → Fin 512 → EReal) (s : Fin 768) : EReal :=
  ∑ c : Fin 512, xr c s * Ideal.div (∑ k : Fin 128, aw A k c) (Ideal.ofBits .f32 0x43000000#32)

/-- The class-averaged attention output, contracted first. -/
def aoRef (xr : Fin 512 → Fin 768 → EReal) (A : Fin 128 → Fin 512 → EReal) (s : Fin 768) : EReal :=
  Ideal.div (∑ k : Fin 128, ∑ c : Fin 512, aw A k c * xr c s) (Ideal.ofBits .f32 0x43000000#32)

/-- The mean of the row's slab over the positions. -/
def xmean (xr : Fin 512 → Fin 768 → EReal) (s : Fin 768) : EReal :=
  Ideal.div (∑ c : Fin 512, xr c s) (Ideal.ofBits .f32 0x44000000#32)

/-- The classifier's input row: the mean, then the attention output (weights averaged first). -/
def liKer (xr : Fin 512 → Fin 768 → EReal) (A : Fin 128 → Fin 512 → EReal) (j : Fin 1536) : EReal :=
  if h : j.val < 768 then xmean xr ⟨j.val, h⟩ else aoKer xr A ⟨j.val - 768, by omega⟩

/-- The classifier's input row: the mean, then the attention output (contracted first). -/
def liRef (xr : Fin 512 → Fin 768 → EReal) (A : Fin 128 → Fin 512 → EReal) (j : Fin 1536) : EReal :=
  if h : j.val < 768 then xmean xr ⟨j.val, h⟩ else aoRef xr A ⟨j.val - 768, by omega⟩

/-! ## The classifier -/

/-- The first affine map. -/
def fc (L : Fin 64 → Fin 1536 → EReal) (Wt : Fin 1024 → Fin 1536 → EReal) (bt : Fin 1024 → EReal)
    (b : Fin 64) (h : Fin 1024) : EReal :=
  (∑ j : Fin 1536, L b j * Wt h j) + bt h

/-- The batch mean of a hidden unit. -/
def mu (Z : Fin 64 → Fin 1024 → EReal) (h : Fin 1024) : EReal :=
  Ideal.div (∑ b : Fin 64, Z b h) (Ideal.ofBits .f32 0x42800000#32)

/-- The (biased) batch variance of a hidden unit. -/
def var (Z : Fin 64 → Fin 1024 → EReal) (h : Fin 1024) : EReal :=
  Ideal.div (∑ b : Fin 64, (Z b h - mu Z h) * (Z b h - mu Z h)) (Ideal.ofBits .f32 0x42800000#32)

/-- Batch normalisation, scale, shift and rectifier. -/
def relu (Z : Fin 64 → Fin 1024 → EReal) (gamma beta : Fin 1024 → EReal) (b : Fin 64) (h : Fin 1024) : EReal :=
  max ((Z b h - mu Z h) * Ideal.rsqrt (var Z h + Ideal.ofBits .f32 0x3727C5AC#32) * gamma h + beta h) 0

/-- The second affine map and the logistic. -/
def score (R : Fin 64 → Fin 1024 → EReal) (Wl : Fin 128 → Fin 1024 → EReal) (bl : Fin 128 → EReal)
    (b : Fin 64) (k : Fin 128) : EReal :=
  Ideal.logistic ((∑ h : Fin 1024, R b h * Wl k h) + bl k)

/-- The last matrix product. -/
def qh (Sc : Fin 64 → Fin 128 → EReal) (Gh : Fin 128 → Fin 256 → EReal) (b : Fin 64) (n : Fin 256) : EReal :=
  ∑ k : Fin 128, Sc b k * Gh k n

end Cert.Spec

end
-- ==== Proof.TccaScores.lean ====
/-
  The class scores of a block's row, read at an index.
-/
import proofs.«428937_j74302934221523_3_alg».proof.Proof.TccaSplit
import proofs.«428937_j74302934221523_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tcca

open Cert.KernelIdeal Cert.KernelIdeal.Gen Idealize.ShloMosaic Idealize.ShloMosaic.ValueIdx Idealize.SL.Sem

/-! ## The batched product `[8,128,256] × [8,512,256] → [8,128,512]`: its operand indices, axis by axis -/

private theorem lhsB_0 (i : S8x128x512.Idx) (q : dot_S8x128x256_S8x512x256_S8x128x512_2_2_1_1_0_0.contr.Idx) :
    (dot_S8x128x256_S8x512x256_S8x128x512_2_2_1_1_0_0.lhsIdx i q 0).val = (i 0).val := by
  unfold DotDims.lhsIdx
  rw [dif_pos (show (0 : Fin S8x128x256.rank) ∈ dot_S8x128x256_S8x512x256_S8x128x512_2_2_1_1_0_0.lhsBatch by decide)]
  rfl
private theorem lhsB_1 (i : S8x128x512.Idx) (q : dot_S8x128x256_S8x512x256_S8x128x512_2_2_1_1_0_0.contr.Idx) :
    (dot_S8x128x256_S8x512x256_S8x128x512_2_2_1_1_0_0.lhsIdx i q 1).val = (i 1).val := by
  unfold DotDims.lhsIdx
  rw [dif_neg (show ¬(1 : Fin S8x128x256.rank) ∈ dot_S8x128x256_S8x512x256_S8x128x512_2_2_1_1_0_0.lhsBatch by decide), dif_pos (show (1 : Fin S8x128x256.rank) ∈ dot_S8x128x256_S8x512x256_S8x128x512_2_2_1_1_0_0.lhsNonContracting by decide)]
  rfl
private theorem lhsB_2 (i : S8x128x512.Idx) (q : dot_S8x128x256_S8x512x256_S8x128x512_2_2_1_1_0_0.contr.Idx) :
    (dot_S8x128x256_S8x512x256_S8x128x512_2_2_1_1_0_0.lhsIdx i q 2).val = (q ⟨0, by decide⟩).val :=
  dot_S8x128x256_S8x512x256_S8x128x512_2_2_1_1_0_0.lhsIdx_val_of_single rfl i q
private theorem rhsB_0 (i : S8x128x512.Idx) (q : dot_S8x128x256_S8x512x256_S8x128x512_2_2_1_1_0_0.contr.Idx) :
    (dot_S8x128x256_S8x512x256_S8x128x512_2_2_1_1_0_0.rhsIdx i q 0).val = (i 0).val := by
  unfold DotDims.rhsIdx
  rw [dif_pos (show (0 : Fin S8x512x256.rank) ∈ dot_S8x128x256_S8x512x256_S8x128x512_2_2_1_1_0_0.rhsBatch by decide)]
  rfl
private theorem rhsB_1 (i : S8x128x512.Idx) (q : dot_S8x128x256_S8x512x256_S8x128x512_2_2_1_1_0_0.contr.Idx) :
    (dot_S8x128x256_S8x512x256_S8x128x512_2_2_1_1_0_0.rhsIdx i q 1).val = (i 2).val := by
  unfold DotDims.rhsIdx
  rw [dif_neg (show ¬(1 : Fin S8x512x256.rank) ∈ dot_S8x128x256_S8x512x256_S8x128x512_2_2_1_1_0_0.rhsBatch by decide), dif_pos (show (1 : Fin S8x512x256.rank) ∈ dot_S8x128x256_S8x512x256_S8x128x512_2_2_1_1_0_0.rhsNonContracting by decide)]
  rfl
private theorem rhsB_2 (i : S8x128x512.Idx) (q : dot_S8x128x256_S8x512x256_S8x128x512_2_2_1_1_0_0.contr.Idx) :
    (dot_S8x128x256_S8x512x256_S8x128x512_2_2_1_1_0_0.rhsIdx i q 2).val = (q ⟨0, by decide⟩).val :=
  dot_S8x128x256_S8x512x256_S8x128x512_2_2_1_1_0_0.rhsIdx_val_of_single rfl i q

/-- The batched product read at `(r, k, c)`: the sum over the 256 attention units of the left operand at `(r, k, a)`
    times the right operand at `(r, c, a)`. -/
private theorem bmm_apply (L : FVec Ideal S8x128x256 .f32) (R : FVec Ideal S8x512x256 .f32) (r : Fin 8) (k : Fin 128) (c : Fin 512) :
    matmul dot_S8x128x256_S8x512x256_S8x128x512_2_2_1_1_0_0 none L R (constant (F := Ideal) S8x128x512 .f32 0x00000000#32) (ix3 r k c)
      = ∑ a : Fin 256, L (ix3 r k a) * R (ix3 r c a) := by
  simp only [matmul]
  rw [Ideal.matmul_constant_zero_apply, ← Equiv.sum_comp (ValueIdx.contrEquiv1 dot_S8x128x256_S8x512x256_S8x128x512_2_2_1_1_0_0 256 rfl rfl).symm]
  refine Finset.sum_congr rfl fun a _ => ?_
  have hk := ValueIdx.contrEquiv1_symm_val dot_S8x128x256_S8x512x256_S8x128x512_2_2_1_1_0_0 256 rfl rfl a
  have el : dot_S8x128x256_S8x512x256_S8x128x512_2_2_1_1_0_0.lhsIdx (ix3 r k c) ((ValueIdx.contrEquiv1 dot_S8x128x256_S8x512x256_S8x128x512_2_2_1_1_0_0 256 rfl rfl).symm a) = ix3 r k a := funext fun d => Fin.ext (by
    match d with
    | ⟨0, _⟩ => exact lhsB_0 _ _
    | ⟨1, _⟩ => exact lhsB_1 _ _
    | ⟨2, _⟩ => exact (lhsB_2 _ _).trans hk)
  have er : dot_S8x128x256_S8x512x256_S8x128x512_2_2_1_1_0_0.rhsIdx (ix3 r k c) ((ValueIdx.contrEquiv1 dot_S8x128x256_S8x512x256_S8x128x512_2_2_1_1_0_0 256 rfl rfl).symm a) = ix3 r c a := funext fun d => Fin.ext (by
    match d with
    | ⟨0, _⟩ => exact rhsB_0 _ _
    | ⟨1, _⟩ => exact rhsB_1 _ _
    | ⟨2, _⟩ => exact (rhsB_2 _ _).trans hk)
  rw [el, er]

/-! ## The projection `[4096,768] × [256,768] → [4096,256]`: its operand indices, axis by axis -/

private theorem lhsP_0 (i : S4096x256.Idx) (q : dot_S4096x768_S256x768_S4096x256_1_1_0_0_n_n.contr.Idx) :
    (dot_S4096x768_S256x768_S4096x256_1_1_0_0_n_n.lhsIdx i q 0).val = (i 0).val := by
  unfold DotDims.lhsIdx
  rw [dif_neg (show ¬(0 : Fin S4096x768.rank) ∈ dot_S4096x768_S256x768_S4096x256_1_1_0_0_n_n.lhsBatch by decide), dif_pos (show (0 : Fin S4096x768.rank) ∈ dot_S4096x768_S256x768_S4096x256_1_1_0_0_n_n.lhsNonContracting by decide)]
  rfl
private theorem lhsP_1 (i : S4096x256.Idx) (q : dot_S4096x768_S256x768_S4096x256_1_1_0_0_n_n.contr.Idx) :
    (dot_S4096x768_S256x768_S4096x256_1_1_0_0_n_n.lhsIdx i q 1).val = (q ⟨0, by decide⟩).val :=
  dot_S4096x768_S256x768_S4096x256_1_1_0_0_n_n.lhsIdx_val_of_single rfl i q
private theorem rhsP_0 (i : S4096x256.Idx) (q : dot_S4096x768_S256x768_S4096x256_1_1_0_0_n_n.contr.Idx) :
    (dot_S4096x768_S256x768_S4096x256_1_1_0_0_n_n.rhsIdx i q 0).val = (i 1).val := by
  unfold DotDims.rhsIdx
  rw [dif_neg (show ¬(0 : Fin S256x768.rank) ∈ dot_S4096x768_S256x768_S4096x256_1_1_0_0_n_n.rhsBatch by decide), dif_pos (show (0 : Fin S256x768.rank) ∈ dot_S4096x768_S256x768_S4096x256_1_1_0_0_n_n.rhsNonContracting by decide)]
  rfl
private theorem rhsP_1 (i : S4096x256.Idx) (q : dot_S4096x768_S256x768_S4096x256_1_1_0_0_n_n.contr.Idx) :
    (dot_S4096x768_S256x768_S4096x256_1_1_0_0_n_n.rhsIdx i q 1).val = (q ⟨0, by decide⟩).val :=
  dot_S4096x768_S256x768_S4096x256_1_1_0_0_n_n.rhsIdx_val_of_single rfl i q

/-- The projection read at `(p, a)`: the sum over the 768 features of the left operand at `(p, s)` times the right
    operand at `(a, s)`. -/
private theorem proj_apply (X : FVec Ideal S4096x768 .f32) (W : FVec Ideal S256x768 .f32) (p : Fin 4096) (a : Fin 256) :
    matmul dot_S4096x768_S256x768_S4096x256_1_1_0_0_n_n none X W (constant (F := Ideal) S4096x256 .f32 0x00000000#32) (ix2 p a)
      = ∑ s : Fin 768, X (ix2 p s) * W (ix2 a s) := by
  simp only [matmul]
  rw [Ideal.matmul_constant_zero_apply, ← Equiv.sum_comp (ValueIdx.contrEquiv1 dot_S4096x768_S256x768_S4096x256_1_1_0_0_n_n 768 rfl rfl).symm]
  refine Finset.sum_congr rfl fun s _ => ?_
  have hk := ValueIdx.contrEquiv1_symm_val dot_S4096x768_S256x768_S4096x256_1_1_0_0_n_n 768 rfl rfl s
  have el : dot_S4096x768_S256x768_S4096x256_1_1_0_0_n_n.lhsIdx (ix2 p a) ((ValueIdx.contrEquiv1 dot_S4096x768_S256x768_S4096x256_1_1_0_0_n_n 768 rfl rfl).symm s) = ix2 p s := funext fun d => Fin.ext (by
    match d with
    | ⟨0, _⟩ => exact lhsP_0 _ _
    | ⟨1, _⟩ => exact (lhsP_1 _ _).trans hk)
  have er : dot_S4096x768_S256x768_S4096x256_1_1_0_0_n_n.rhsIdx (ix2 p a) ((ValueIdx.contrEquiv1 dot_S4096x768_S256x768_S4096x256_1_1_0_0_n_n 768 rfl rfl).symm s) = ix2 a s := funext fun d => Fin.ext (by
    match d with
    | ⟨0, _⟩ => exact rhsP_0 _ _
    | ⟨1, _⟩ => exact (rhsP_1 _ _).trans hk)
  rw [el, er]

/-! ## The layout operations read at coordinates -/

/-- The slab `[8,512,768]` flattened to `[4096,768]`: row `512·r + c` is position `c` of row `r`. -/
private theorem flat_apply {α : Type} (x : S8x512x768.Idx → α) (h : S8x512x768.ShapeCasts S4096x768) (r : Fin 8) (c : Fin 512) (s : Fin 768)
    (p : Fin 4096) (hp : p.val = 512 * r.val + c.val) :
    shapeCast S4096x768 x h (ix2 p s) = x (ix3 r c s) :=
  shapeCast_apply x h _ _ (by
    rw [Shape.rowMajor_val_three, Shape.rowMajor_val_two]
    show (r.val * 512 + c.val) * 768 + s.val = p.val * 768 + s.val
    rw [hp, Nat.mul_comm 512 r.val])

/-- The matrix `[4096,256]` unflattened to `[8,512,256]`: position `c` of row `r` is row `512·r + c`. -/
private theorem unflat_apply {α : Type} (y : S4096x256.Idx → α) (h : S4096x256.ShapeCasts S8x512x256) (r : Fin 8) (c : Fin 512) (a : Fin 256)
    (p : Fin 4096) (hp : p.val = 512 * r.val + c.val) :
    shapeCast S8x512x256 y h (ix3 r c a) = y (ix2 p a) :=
  shapeCast_apply y h _ _ (by
    rw [Shape.rowMajor_val_three, Shape.rowMajor_val_two]
    show p.val * 256 + a.val = (r.val * 512 + c.val) * 256 + a.val
    rw [hp, Nat.mul_comm 512 r.val])

/-- The class matrix `[128,256]` given a leading unit axis and repeated over the eight rows. -/
private theorem rep_apply {α : Type} (w : S128x256.Idx → α) (h1 : S128x256.ShapeCasts S1x128x256) (h2 : S1x128x256.Broadcasts S8x128x256)
    (r : Fin 8) (k : Fin 128) (a : Fin 256) :
    broadcastTo S8x128x256 (shapeCast S1x128x256 w h1) h2 (ix3 r k a) = w (ix2 k a) := by
  refine (broadcastTo_apply _ h2 (ix3 r k a) (ix3 (0 : Fin 1) k a) (fun d => ?_)).trans (shapeCast_ab_1ab_apply w h1 0 k a)
  match d with
  | ⟨0, _⟩ => show 0 = if (1 : Nat) = 1 then 0 else r.val; rw [if_pos rfl]
  | ⟨1, _⟩ => show k.val = if (128 : Nat) = 1 then 0 else k.val; rw [if_neg (by decide)]
  | ⟨2, _⟩ => show a.val = if (256 : Nat) = 1 then 0 else a.val; rw [if_neg (by decide)]

/-- The class weights `[8,128,200]` extended along the last axis by a `[8,128,56]` block: below 200 the weights, from
    200 on the block. -/
private theorem pad_apply {α : Type} (w : S8x128x200.Idx → α) (z : S8x128x56.Idx → α)
    (h : Shape.Concatenates [S8x128x200, S8x128x56] S8x128x256 2) (r : Fin 8) (k : Fin 128) (a : Fin 256) :
    concatenate S8x128x256 2 [⟨S8x128x200, w⟩, ⟨S8x128x56, z⟩] h (ix3 r k a)
      = if ha : a.val < 200 then w (ix3 r k ⟨a.val, ha⟩) else z (ix3 r k ⟨a.val - 200, by have := a.isLt; omega⟩) := by
  by_cases ha : a.val < 200
  · rw [dif_pos ha]
    exact concatenate_pair_apply_left 2 w z h (ix3 r k a) rfl (ix3 r k ⟨a.val, ha⟩) (fun b => match b with
      | ⟨0, _⟩ => rfl
      | ⟨1, _⟩ => rfl
      | ⟨2, _⟩ => rfl)
  · rw [dif_neg ha]
    exact concatenate_pair_apply_right 2 w z h (ix3 r k a) rfl rfl (ix3 r k ⟨a.val - 200, by have := a.isLt; omega⟩) (fun b hb => match b, hb with
      | ⟨0, _⟩, _ => rfl
      | ⟨1, _⟩, _ => rfl
      | ⟨2, _⟩, hb => absurd rfl hb)
      (by show (a.val - 200) + 200 = a.val; omega)

/-! ## The two operands of the batched product, read at coordinates -/

/-- The left operand at `(r, k, a)`: the class matrix at `(k, a)` times the row's class weight at `(k, a)`, zero from
    attention unit 200 on. -/
private theorem wgt_apply (v1 : FVec Ideal S8x128x200 .f32) (v4 : FVec Ideal S128x256 .f32) (r : Fin 8) (k : Fin 128) (a : Fin 256) :
    mulf (broadcastTo S8x128x256 (shapeCast S1x128x256 (shapeCast S128x256 v4 shapeCasts_S128x256_S128x256) shapeCasts_S128x256_S1x128x256) broadcasts_S1x128x256_S8x128x256)
        (concatenate S8x128x256 2 [⟨S8x128x200, v1⟩, ⟨S8x128x56, broadcast S8x128x56 (Scalar.ofBits (F := Ideal) .f32 0x00000000#32)⟩] concatenates_S8x128x200_S8x128x56_S8x128x256_d2)
        (ix3 r k a)
      = v4 (ix2 k a) * (if h : a.val < 200 then v1 (ix3 r k ⟨a.val, h⟩) else 0) := by
  rw [mulf_apply, shapeCast_self, rep_apply, pad_apply]
  congr 1
  by_cases ha : a.val < 200
  · rw [dif_pos ha, dif_pos ha]
  · rw [dif_neg ha, dif_neg ha]
    exact Ideal.ofBits_zero_f32

/-- The right operand at `(r, c, a)`: the tanh of the projection of position `c` of row `r` onto attention unit `a`. -/
private theorem act_apply (v0 : FVec Ideal S8x512x768 .f32) (v2 : FVec Ideal S256x768 .f32) (r : Fin 8) (c : Fin 512) (a : Fin 256) :
    shapeCast S8x512x256
        (tanh (matmul dot_S4096x768_S256x768_S4096x256_1_1_0_0_n_n none (shapeCast S4096x768 v0 shapeCasts_S8x512x768_S4096x768)
          (shapeCast S256x768 v2 shapeCasts_S256x768_S256x768) (constant (F := Ideal) S4096x256 .f32 0x00000000#32)))
        shapeCasts_S4096x256_S8x512x256 (ix3 r c a)
      = Ideal.tanh (∑ s : Fin 768, v0 (ix3 r c s) * v2 (ix2 a s)) := by
  have hp : 512 * r.val + c.val < 4096 := by omega
  rw [unflat_apply _ _ r c a ⟨512 * r.val + c.val, hp⟩ rfl]
  show Ideal.tanh (matmul dot_S4096x768_S256x768_S4096x256_1_1_0_0_n_n none _ _ (constant (F := Ideal) S4096x256 .f32 0x00000000#32) (ix2 _ a)) = _
  rw [proj_apply, shapeCast_self]
  congr 1
  refine Finset.sum_congr rfl fun s _ => ?_
  rw [flat_apply v0 _ r c s _ rfl]

/-! ## The scores -/

/-- Row `r` of the block: the score of class `k` at position `c` is the specification's score of that row's slab, of its
    class weights extended by zeros to 256 attention units, and of the two (padded) projection matrices. -/
theorem scores_apply (v0 : Vec Ideal S8x512x768 .f32) (v1 : Vec Ideal S8x128x200 .f32) (v2 : Vec Ideal S256x768 .f32)
    (v4 : Vec Ideal S128x256 .f32) (r : Fin 8) (k : Fin 128) (c : Fin 512) :
    scores (F := Ideal) v0 v1 v2 v4 (ix3 r k c)
      = Spec.attn (na := 256) (fun c s => v0 (ix3 r c s))
          (fun k a => if h : a.val < 200 then v1 (ix3 r k ⟨a.val, h⟩) else 0)
          (fun a s => v2 (ix2 a s)) (fun k a => v4 (ix2 k a)) k c := by
  refine (bmm_apply _ _ r k c).trans ?_
  unfold Spec.attn Spec.tproj
  refine Finset.sum_congr rfl fun a _ => ?_
  exact congrArg₂ (· * ·) (wgt_apply v1 v4 r k a) (act_apply v0 v2 r c a)

end Cert.KernelIdeal.Tcca

end
-- ==== Proof.TccaTail.lean ====
/-
  From the class scores of a block's row to that row of the classifier's input, read at an index.

  The block has two halves laid side by side. Columns below 768 hold the mean of the row's slab over its 512
  positions. Columns from 768 on hold the positions' sum weighted by the class-averaged softmax: the scores are
  shifted by their maximum over the 128 classes, exponentiated, divided by their sum over the classes, averaged
  over the classes, and the slab is contracted with that average over the positions. Each sum or maximum over one
  axis is read as a sum or a fold over that axis's coordinate, each value repeated along a new axis is read at the
  coordinates it came from, and the pointwise operations read through.
-/
import proofs.«428937_j74302934221523_3_alg».proof.Proof.TccaSplit
import proofs.«428937_j74302934221523_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tcca

open Cert.KernelIdeal Cert.KernelIdeal.Gen Idealize.ShloMosaic Idealize.ShloMosaic.ValueIdx Idealize.SL.Sem

/-! ## Sums and the maximum over one axis, at coordinates -/

/-- The index over `(r, c)` with class coordinate `k`. -/
private theorem lift_cls (h : S8x128x512.Reduces [1] S8x512) (r : Fin 8) (c : Fin 512) (k : Fin 128) :
    h.lift (ix2 r c) k = ix3 r k c := by
  funext d
  match d with
  | ⟨0, _⟩ => exact Fin.ext rfl
  | ⟨1, _⟩ => exact Fin.ext rfl
  | ⟨2, _⟩ => exact Fin.ext rfl

private theorem lift_pos (h : S8x512x768.Reduces [1] S8x768) (r : Fin 8) (s : Fin 768) (c : Fin 512) :
    h.lift (ix2 r s) c = ix3 r c s := by
  funext d
  match d with
  | ⟨0, _⟩ => exact Fin.ext rfl
  | ⟨1, _⟩ => exact Fin.ext rfl
  | ⟨2, _⟩ => exact Fin.ext rfl

private theorem sum_cls (A : FVec Ideal S8x128x512 .f32) (r : Fin 8) (c : Fin 512) :
    multiReduction .add [1] S8x512 A 0x00000000#32 reduces_S8x128x512_S8x512 (.inl rfl) rfl (ix2 r c)
      = ∑ k : Fin 128, A (ix3 r k c) := by
  refine (Ideal.multiReduction_add_single A 0x00000000#32 reduces_S8x128x512_S8x512 (.inl rfl) rfl (ix2 r c)).trans ?_
  exact Finset.sum_congr rfl fun k _ => congrArg A (lift_cls _ r c k)

private theorem sum_pos (X : FVec Ideal S8x512x768 .f32) (r : Fin 8) (s : Fin 768) :
    multiReduction .add [1] S8x768 X 0x00000000#32 reduces_S8x512x768_S8x768 (.inl rfl) rfl (ix2 r s)
      = ∑ c : Fin 512, X (ix3 r c s) := by
  refine (Ideal.multiReduction_add_single X 0x00000000#32 reduces_S8x512x768_S8x768 (.inl rfl) rfl (ix2 r s)).trans ?_
  exact Finset.sum_congr rfl fun c _ => congrArg X (lift_pos _ r s c)

private theorem max_cls (A : FVec Ideal S8x128x512 .f32) (r : Fin 8) (c : Fin 512) :
    multiReduction .maximumf [1] S8x512 A 0xFF800000#32 reduces_S8x128x512_S8x512 (.inl rfl) rfl (ix2 r c)
      = Spec.amax (fun k c => A (ix3 r k c)) c := by
  refine (Ideal.multiReduction_maximumf_single A 0xFF800000#32 reduces_S8x128x512_S8x512 (.inl rfl) rfl (ix2 r c)).trans ?_
  unfold Spec.amax
  refine congrArg (fun f => (Finset.univ : Finset (Fin 128)).fold max (Ideal.ofBits .f32 0xFF800000#32) f) ?_
  funext k
  exact congrArg A (lift_cls _ r c k)

/-! ## A value repeated along a new axis, and the two halves side by side -/

/-- A per-`(r, c)` value laid along a new unit class axis and repeated over the 128 classes. -/
private theorem keep_cls {α : Type} (v : S8x512.Idx → α) (r : Fin 8) (k : Fin 128) (c : Fin 512) :
    broadcastTo S8x128x512 (shapeCast S8x1x512 v shapeCasts_S8x512_S8x1x512) broadcasts_S8x1x512_S8x128x512 (ix3 r k c)
      = v (ix2 r c) := by
  refine (broadcastTo_apply _ broadcasts_S8x1x512_S8x128x512 (ix3 r k c) (ix3 r (0 : Fin 1) c) fun a => ?_).trans ?_
  · match a with
    | ⟨0, _⟩ => rfl
    | ⟨1, _⟩ => rfl
    | ⟨2, _⟩ => rfl
  · exact shapeCast_apply v shapeCasts_S8x512_S8x1x512 (ix3 r (0 : Fin 1) c) (ix2 r c) (by
      rw [Shape.rowMajor_val_two, Shape.rowMajor_val_three]
      show r.val * 512 + c.val = (r.val * 1 + 0) * 512 + c.val
      omega)

/-- A per-`(r, c)` value laid along a new unit feature axis and repeated over the 768 features. -/
private theorem keep_feat {α : Type} (v : S8x512.Idx → α) (r : Fin 8) (c : Fin 512) (s : Fin 768) :
    broadcastTo S8x512x768 (shapeCast S8x512x1 v shapeCasts_S8x512_S8x512x1) broadcasts_S8x512x1_S8x512x768 (ix3 r c s)
      = v (ix2 r c) := by
  refine (broadcastTo_apply _ broadcasts_S8x512x1_S8x512x768 (ix3 r c s) (ix3 r c (0 : Fin 1)) fun a => ?_).trans ?_
  · match a with
    | ⟨0, _⟩ => rfl
    | ⟨1, _⟩ => rfl
    | ⟨2, _⟩ => rfl
  · exact shapeCast_apply v shapeCasts_S8x512_S8x512x1 (ix3 r c (0 : Fin 1)) (ix2 r c) (by
      rw [Shape.rowMajor_val_two, Shape.rowMajor_val_three]
      show r.val * 512 + c.val = (r.val * 512 + c.val) * 1 + 0
      omega)

/-- The two halves side by side, read in the first half. -/
private theorem cat_fst {α : Type} (x₁ x₂ : S8x768.Idx → α) (r : Fin 8) (j : Fin 1536) (h : j.val < 768) :
    concatenate S8x1536 1 [⟨S8x768, x₁⟩, ⟨S8x768, x₂⟩] concatenates_S8x768_S8x768_S8x1536_d1 (ix2 r j)
      = x₁ (ix2 r (⟨j.val, h⟩ : Fin 768)) :=
  concatenate_pair_apply_left (t := S8x1536) (s₁ := S8x768) (s₂ := S8x768) 1 x₁ x₂ _ _ rfl (ix2 r (⟨j.val, h⟩ : Fin 768)) (by
    intro b
    match b with
    | ⟨0, _⟩ => rfl
    | ⟨1, _⟩ => rfl)

/-- The two halves side by side, read in the second half. -/
private theorem cat_snd {α : Type} (x₁ x₂ : S8x768.Idx → α) (r : Fin 8) (j : Fin 1536) (h : ¬ j.val < 768) :
    concatenate S8x1536 1 [⟨S8x768, x₁⟩, ⟨S8x768, x₂⟩] concatenates_S8x768_S8x768_S8x1536_d1 (ix2 r j)
      = x₂ (ix2 r (⟨j.val - 768, by omega⟩ : Fin 768)) :=
  concatenate_pair_apply_right (t := S8x1536) (s₁ := S8x768) (s₂ := S8x768) 1 x₁ x₂ _ _ rfl rfl
    (ix2 r (⟨j.val - 768, by omega⟩ : Fin 768)) (by
      intro b hb
      match b with
      | ⟨0, _⟩ => rfl
      | ⟨1, _⟩ => exact absurd rfl hb) (by show j.val - 768 + 768 = j.val; omega)

/-! ## The steps from the scores to the two halves -/

/-- The shifted exponentials of the scores. -/
private theorem ew_at (A : FVec Ideal S8x128x512 .f32) (r : Fin 8) (k : Fin 128) (c : Fin 512) :
    exp (subf A (broadcastTo S8x128x512 (shapeCast S8x1x512
        (multiReduction .maximumf [1] S8x512 A 0xFF800000#32 reduces_S8x128x512_S8x512 (.inl rfl) rfl)
        shapeCasts_S8x512_S8x1x512) broadcasts_S8x1x512_S8x128x512)) (ix3 r k c)
      = Spec.ew (fun k c => A (ix3 r k c)) k c := by
  show Ideal.exp (A (ix3 r k c) - broadcastTo S8x128x512 _ broadcasts_S8x1x512_S8x128x512 (ix3 r k c)) = _
  rw [keep_cls, max_cls]
  rfl

/-- The softmax weights from the exponentials. -/
private theorem aw_at (E : FVec Ideal S8x128x512 .f32) (r : Fin 8) (k : Fin 128) (c : Fin 512) :
    divf E (broadcastTo S8x128x512 (shapeCast S8x1x512
        (multiReduction .add [1] S8x512 E 0x00000000#32 reduces_S8x128x512_S8x512 (.inl rfl) rfl)
        shapeCasts_S8x512_S8x1x512) broadcasts_S8x1x512_S8x128x512) (ix3 r k c)
      = Ideal.div (E (ix3 r k c)) (∑ k' : Fin 128, E (ix3 r k' c)) := by
  show Ideal.div (E (ix3 r k c)) (broadcastTo S8x128x512 _ broadcasts_S8x1x512_S8x128x512 (ix3 r k c)) = _
  rw [keep_cls, sum_cls]

/-- The class average of the weights. -/
private theorem wavg_at (W : FVec Ideal S8x128x512 .f32) (r : Fin 8) (c : Fin 512) :
    divf (multiReduction .add [1] S8x512 W 0x00000000#32 reduces_S8x128x512_S8x512 (.inl rfl) rfl)
        (broadcast S8x512 (Scalar.ofBits .f32 0x43000000#32)) (ix2 r c)
      = Ideal.div (∑ k : Fin 128, W (ix3 r k c)) (Ideal.ofBits .f32 0x43000000#32) := by
  show Ideal.div (multiReduction .add [1] S8x512 W 0x00000000#32 reduces_S8x128x512_S8x512 (.inl rfl) rfl (ix2 r c))
    (Ideal.ofBits .f32 0x43000000#32) = _
  rw [sum_cls]

/-- The weighted sum over the positions. -/
private theorem wsum_at (X : FVec Ideal S8x512x768 .f32) (w : FVec Ideal S8x512 .f32) (r : Fin 8) (s : Fin 768) :
    multiReduction .add [1] S8x768 (mulf X (broadcastTo S8x512x768 (shapeCast S8x512x1 w shapeCasts_S8x512_S8x512x1)
        broadcasts_S8x512x1_S8x512x768)) 0x00000000#32 reduces_S8x512x768_S8x768 (.inl rfl) rfl (ix2 r s)
      = ∑ c : Fin 512, X (ix3 r c s) * w (ix2 r c) := by
  rw [sum_pos]
  refine Finset.sum_congr rfl fun c _ => ?_
  show X (ix3 r c s) * broadcastTo S8x512x768 _ broadcasts_S8x512x1_S8x512x768 (ix3 r c s) = _
  rw [keep_feat]

/-- The mean over the positions. -/
private theorem mean_at (X : FVec Ideal S8x512x768 .f32) (r : Fin 8) (s : Fin 768) :
    divf (multiReduction .add [1] S8x768 X 0x00000000#32 reduces_S8x512x768_S8x768 (.inl rfl) rfl)
        (broadcast S8x768 (Scalar.ofBits .f32 0x44000000#32)) (ix2 r s)
      = Spec.xmean (fun c s => X (ix3 r c s)) s := by
  show Ideal.div (multiReduction .add [1] S8x768 X 0x00000000#32 reduces_S8x512x768_S8x768 (.inl rfl) rfl (ix2 r s))
    (Ideal.ofBits .f32 0x44000000#32) = _
  rw [sum_pos]
  rfl

/-! ## The block at an index -/

/-- Row `r`, column `j` of the block computed from the scores is the specification's input row (weights averaged
    first) of that row's slab and that row's scores. -/
theorem fromScores_apply (v0 : Vec Ideal S8x512x768 .f32) (v15 : FVec Ideal S8x128x512 .f32) (r : Fin 8) (j : Fin 1536) :
    fromScores (F := Ideal) v0 v15 (ix2 r j)
      = Spec.liKer (fun c s => v0 (ix3 r c s)) (fun k c => v15 (ix3 r k c)) j := by
  unfold fromScores
  by_cases h : j.val < 768
  · -- the first half: the mean over the positions
    refine (cat_fst _ _ r j h).trans ?_
    refine (mean_at v0 r ⟨j.val, h⟩).trans ?_
    unfold Spec.liKer
    rw [dif_pos h]
  · -- the second half: the positions weighted by the class-averaged softmax
    refine (cat_snd _ _ r j h).trans ?_
    refine (wsum_at v0 _ r ⟨j.val - 768, by omega⟩).trans ?_
    unfold Spec.liKer
    rw [dif_neg h]
    unfold Spec.aoKer
    refine Finset.sum_congr rfl fun c _ => ?_
    refine congrArg (fun w => v0 (ix3 r c (⟨j.val - 768, by omega⟩ : Fin 768)) * w) ?_
    refine (wavg_at _ r c).trans ?_
    refine congrArg (fun t => Ideal.div t (Ideal.ofBits .f32 0x43000000#32)) ?_
    refine Finset.sum_congr rfl fun k _ => ?_
    refine (aw_at _ r k c).trans ?_
    unfold Spec.aw Spec.esum
    rw [ew_at]
    refine congrArg (fun t => Ideal.div (Spec.ew (fun k c => v15 (ix3 r k c)) k c) t) ?_
    exact Finset.sum_congr rfl fun k' _ => ew_at v15 r k' c

end Cert.KernelIdeal.Tcca

end
-- ==== Proof.Region0.lean ====
/-
  Region 0 (the attention stage) as a whole-array function. At grid point `t` the body reads rows `8t … 8t+7` of the slab
  and of the class weights and the two padded projection matrices whole, and writes rows `8t … 8t+7` of the
  classifier's input; each row depends only on its own row of the slab and of the class weights. The eight points'
  blocks tile the 64 rows, so after the region the array holds, row by row, the specification's input row
  (softmax weights averaged over the classes before the contraction with the slab).
-/
import proofs.«428937_j74302934221523_3_alg».proof.Proof.Gen.KernelIdeal.Frame
import proofs.«428937_j74302934221523_3_alg».proof.Proof.TccaSplit
import proofs.«428937_j74302934221523_3_alg».proof.Proof.TccaScores
import proofs.«428937_j74302934221523_3_alg».proof.Proof.TccaTail
import proofs.«428937_j74302934221523_3_alg».proof.Proof.Spec
import Idealize.ShloMosaic.Lib.ValueIdx
import Idealize.ShloMosaic.Lib.Pipeline.Value

set_option maxRecDepth 16384

noncomputable section

namespace Cert.KernelIdeal.Region0

open Cert.KernelIdeal Cert.KernelIdeal.Gen Idealize.ShloMosaic Idealize.ShloMosaic.ValueIdx Idealize.ShloMosaic.TcCoe Idealize.SL.Sem
open Idealize.ShloMosaic.Pipeline (Dat)

/-- Row `b`, column `j` of the classifier's input, from the whole slab, the whole class weights and the two padded
    projection matrices. -/
def Grow (X : FVec Ideal S64x512x768 .f32) (Ω : FVec Ideal S64x128x200 .f32) (W1p : FVec Ideal S256x768 .f32)
    (W2p : FVec Ideal S128x256 .f32) (b : Fin 64) (j : Fin 1536) : EReal :=
  Spec.liKer (fun c s => X (ix3 b c s))
    (Spec.attn (na := 256) (fun c s => X (ix3 b c s))
      (fun k a => if h : a.val < 200 then Ω (ix3 b k ⟨a.val, h⟩) else 0)
      (fun a s => W1p (ix2 a s)) (fun k a => W2p (ix2 k a))) j

/-- The classifier's input as one array. -/
def G (X : FVec Ideal S64x512x768 .f32) (Ω : FVec Ideal S64x128x200 .f32) (W1p : FVec Ideal S256x768 .f32)
    (W2p : FVec Ideal S128x256 .f32) : FVec Ideal S64x1536 .f32 :=
  fun i => Grow X Ω W1p W2p ⟨(i 0).val, (i 0).isLt⟩ ⟨(i 1).val, (i 1).isLt⟩

theorem G_apply (X : FVec Ideal S64x512x768 .f32) (Ω : FVec Ideal S64x128x200 .f32) (W1p : FVec Ideal S256x768 .f32)
    (W2p : FVec Ideal S128x256 .f32) (b : Fin 64) (j : Fin 1536) : G X Ω W1p W2p (ix2 b j) = Grow X Ω W1p W2p b j := rfl

/-- One row of one block: if row `r` of the slab's and of the class weights' block is row `b` of the whole arrays, the
    body's value at row `r` is row `b` of `G`. -/
theorem point_eq (xb : Vec Ideal S8x512x768 .f32) (ωb : Vec Ideal S8x128x200 .f32) (w1 : Vec Ideal S256x768 .f32)
    (w2 : Vec Ideal S128x256 .f32) (X : FVec Ideal S64x512x768 .f32) (Ω : FVec Ideal S64x128x200 .f32)
    (W1p : FVec Ideal S256x768 .f32) (W2p : FVec Ideal S128x256 .f32) (r : Fin 8) (j : Fin 1536) (b : Fin 64)
    (hx : ∀ c s, xb (ix3 r c s) = X (ix3 b c s)) (hω : ∀ k a, ωb (ix3 r k a) = Ω (ix3 b k a))
    (hw1 : ∀ a s, w1 (ix2 a s) = W1p (ix2 a s)) (hw2 : ∀ k a, w2 (ix2 k a) = W2p (ix2 k a)) :
    k0_pay1 (F := Ideal) xb ωb w1 w2 (ix2 r j) = Grow X Ω W1p W2p b j := by
  have e1 : (fun (c : Fin 512) (s : Fin 768) => xb (ix3 r c s)) = (fun c s => X (ix3 b c s)) :=
    funext fun c => funext fun s => hx c s
  have eω : (fun (k : Fin 128) (a : Fin 256) => if h : a.val < 200 then ωb (ix3 r k ⟨a.val, h⟩) else (0 : EReal))
      = (fun k a => if h : a.val < 200 then Ω (ix3 b k ⟨a.val, h⟩) else 0) :=
    funext fun k => funext fun a => by
      by_cases h : a.val < 200
      · rw [dif_pos h, dif_pos h]; exact hω k _
      · rw [dif_neg h, dif_neg h]
  have ew1 : (fun (a : Fin 256) (s : Fin 768) => w1 (ix2 a s)) = (fun a s => W1p (ix2 a s)) :=
    funext fun a => funext fun s => hw1 a s
  have ew2 : (fun (k : Fin 128) (a : Fin 256) => w2 (ix2 k a)) = (fun k a => W2p (ix2 k a)) :=
    funext fun k => funext fun a => hw2 k a
  have e2 : (fun (k : Fin 128) (c : Fin 512) => Tcca.scores (F := Ideal) xb ωb w1 w2 (ix3 r k c))
      = Spec.attn (na := 256) (fun c s => X (ix3 b c s))
          (fun k a => if h : a.val < 200 then Ω (ix3 b k ⟨a.val, h⟩) else 0)
          (fun a s => W1p (ix2 a s)) (fun k a => W2p (ix2 k a)) := by
    funext k c
    rw [Tcca.scores_apply, e1, eω, ew1, ew2]
  rw [Tcca.k0_pay1_eq, Tcca.fromScores_apply, e1, e2]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the slab's, the class weights' and the output's blocks move along the rows
    with the point; the two projection matrices are read whole at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of `G` of the arrays as the region finds them. -/
theorem flushed_eq (c : Dev nD) (t : Fin cfg0.N) :
    (dat0 V c).flushed 4 t = ((cfg0.win 4).blk t).view.read (Elt Ideal)
      (G (V c main_arg0) (V c main_arg1) (V c main_v0) (V c main_v1)) := by
  show (cfg0.win 4).cut (grid0.coords t) ((dat0 V c).after 4 t) = _
  rw [after0_4]
  unfold out0_4
  rw [View.canon_unit_zero hz2]
  simp only [View.ld_unit_zero (S := S8x512x768) hz3, View.ld_unit_zero (S := S8x128x200) hz3,
    View.ld_unit_zero (S := S256x768) hz2, View.ld_unit_zero (S := S128x256) hz2]
  obtain ⟨e00, e01, e02, e10, e11, e12, e20, e21, e30, e31, e40, e41⟩ := idx_facts t
  have hN : cfg0.N = 8 := N_0
  refine funext fun (y : S8x1536.Idx) => ?_
  obtain ⟨r, j, rfl⟩ : ∃ (r : Fin 8) (j : Fin 1536), y = ix2 r j := ⟨y 0, y 1, eq_ix2 y⟩
  have hb : t.val * 8 + r.val < 64 := by have := t.isLt; have := r.isLt; omega
  refine (point_eq (iblk0 V c 0 t) (iblk0 V c 1 t) (iblk0 V c 2 t) (iblk0 V c 3 t)
    (V c main_arg0) (V c main_arg1) (V c main_v0) (V c main_v1) r j ⟨t.val * 8 + r.val, hb⟩ ?_ ?_ ?_ ?_).trans ?_
  · intro c' s
    show V c main_arg0 (((cfg0.win 0).blk t).view.emb (ix3 r c' s)) = V c main_arg0 (ix3 ⟨t.val * 8 + r.val, hb⟩ c' s)
    refine congrArg _ (funext fun a => Fin.ext ?_)
    match a with
    | ⟨0, _⟩ => show win0_0.index t (0 : Fin 3) * 8 + 1 * r.val = t.val * 8 + r.val; rw [e00]; omega
    | ⟨1, _⟩ => show win0_0.index t (1 : Fin 3) * 512 + 1 * c'.val = c'.val; rw [e01]; omega
    | ⟨2, _⟩ => show win0_0.index t (2 : Fin 3) * 768 + 1 * s.val = s.val; rw [e02]; omega
  · intro k a
    show V c main_arg1 (((cfg0.win 1).blk t).view.emb (ix3 r k a)) = V c main_arg1 (ix3 ⟨t.val * 8 + r.val, hb⟩ k a)
    refine congrArg _ (funext fun d => Fin.ext ?_)
    match d with
    | ⟨0, _⟩ => show win0_1.index t (0 : Fin 3) * 8 + 1 * r.val = t.val * 8 + r.val; rw [e10]; omega
    | ⟨1, _⟩ => show win0_1.index t (1 : Fin 3) * 128 + 1 * k.val = k.val; rw [e11]; omega
    | ⟨2, _⟩ => show win0_1.index t (2 : Fin 3) * 200 + 1 * a.val = a.val; rw [e12]; omega
  · intro a s
    show V c main_v0 (((cfg0.win 2).blk t).view.emb (ix2 a s)) = V c main_v0 (ix2 a s)
    refine congrArg _ (funext fun d => Fin.ext ?_)
    match d with
    | ⟨0, _⟩ => show win0_2.index t (0 : Fin 2) * 256 + 1 * a.val = a.val; rw [e20]; omega
    | ⟨1, _⟩ => show win0_2.index t (1 : Fin 2) * 768 + 1 * s.val = s.val; rw [e21]; omega
  · intro k a
    show V c main_v1 (((cfg0.win 3).blk t).view.emb (ix2 k a)) = V c main_v1 (ix2 k a)
    refine congrArg _ (funext fun d => Fin.ext ?_)
    match d with
    | ⟨0, _⟩ => show win0_3.index t (0 : Fin 2) * 128 + 1 * k.val = k.val; rw [e30]; omega
    | ⟨1, _⟩ => show win0_3.index t (1 : Fin 2) * 256 + 1 * a.val = a.val; rw [e31]; omega
  · show Grow _ _ _ _ _ _ = G (V c main_arg0) (V c main_arg1) (V c main_v0) (V c main_v1) (((cfg0.win 4).blk t).view.emb (ix2 r j))
    rw [← G_apply]
    refine congrArg _ (funext fun d => Fin.ext ?_)
    match d with
    | ⟨0, _⟩ => show t.val * 8 + r.val = win0_4.index t (0 : Fin 2) * 8 + 1 * r.val; rw [e40]; omega
    | ⟨1, _⟩ => show j.val = win0_4.index t (1 : Fin 2) * 1536 + 1 * j.val; rw [e41]; omega

/-- An index of the array is in point `t`'s block iff each coordinate is in the block's range on its axis. -/
theorem mem_blk (t : Fin cfg0.N) (i : S64x1536.Idx) :
    i ∈ ((cfg0.win 4).blk t).view.set ↔ ∀ a : Fin 2, win0_4.index t a * S8x1536.size a ≤ (i a).val ∧ (i a).val < win0_4.index t a * S8x1536.size a + S8x1536.size a := by
  show i ∈ ((View.whole main_v2).slice (win0_4.rect t)).set ↔ _
  rw [View.set_slice_whole, Rect.mem_set_unit]
  exact Iff.rfl

/-- THE ARRAY after the region: `G` of the arrays as the region finds them. -/
theorem final (c : Dev nD) : (dat0 V c).arrAt 4 cfg0.N = G (V c main_arg0) (V c main_arg1) (V c main_v0) (V c main_v1) :=
  (dat0 V c).arrAt_eq_of_cover 4 _ (fun t _ => flushed_eq V c t) fun i => by
    have hi0 : (i 0).val < 64 := (i 0).isLt
    have hi1 : (i 1).val < 1536 := (i 1).isLt
    have hN : cfg0.N = 8 := N_0
    refine ⟨⟨(i 0).val / 8, by rw [hN]; omega⟩, flush0_4 _, ?_⟩
    rw [mem_blk]
    obtain ⟨-, -, -, -, -, -, -, -, -, -, e40, e41⟩ := idx_facts ⟨(i 0).val / 8, by rw [hN]; omega⟩
    intro a
    match a with
    | ⟨0, _⟩ => show win0_4.index _ (0 : Fin 2) * 8 ≤ (i 0).val ∧ (i 0).val < win0_4.index _ (0 : Fin 2) * 8 + 8; rw [e40]; show (i 0).val / 8 * 8 ≤ _ ∧ _ < (i 0).val / 8 * 8 + 8; omega
    | ⟨1, _⟩ => show win0_4.index _ (1 : Fin 2) * 1536 ≤ (i 1).val ∧ (i 1).val < win0_4.index _ (1 : Fin 2) * 1536 + 1536; rw [e41]; omega

end Cert.KernelIdeal.Region0

end
-- ==== Proof.ClsNorm.lean ====
/-
  The classifier body's first affine map, batch normalisation and rectifier, read at an index.
-/
import proofs.«428937_j74302934221523_3_alg».proof.Proof.Gen.KernelIdeal.Skeleton
import proofs.«428937_j74302934221523_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Cls

open Cert.KernelIdeal Cert.KernelIdeal.Gen Idealize.ShloMosaic Idealize.ShloMosaic.ValueIdx Idealize.SL.Sem

/-! ## The matrix product at explicit coordinates

The product's dimension numbers contract axis 1 of the left operand with axis 0 of the right one and keep the other two
axes in order, so at output index `(b, h)` and contraction coordinate `k` the operand indices are `(b, k)` and `(k, h)`. -/

private theorem lhs_fc_0 (i : S64x1024.Idx) (q : dot_S64x1536_S1536x1024_S64x1024_1_0_0_1_n_n.contr.Idx) :
    (dot_S64x1536_S1536x1024_S64x1024_1_0_0_1_n_n.lhsIdx i q 0).val = (i 0).val := by
  unfold DotDims.lhsIdx
  rw [dif_neg (show ¬(0 : Fin S64x1536.rank) ∈ dot_S64x1536_S1536x1024_S64x1024_1_0_0_1_n_n.lhsBatch by decide), dif_pos (show (0 : Fin S64x1536.rank) ∈ dot_S64x1536_S1536x1024_S64x1024_1_0_0_1_n_n.lhsNonContracting by decide)]
  rfl
private theorem lhs_fc_1 (i : S64x1024.Idx) (q : dot_S64x1536_S1536x1024_S64x1024_1_0_0_1_n_n.contr.Idx) :
    (dot_S64x1536_S1536x1024_S64x1024_1_0_0_1_n_n.lhsIdx i q 1).val = (q ⟨0, by decide⟩).val :=
  dot_S64x1536_S1536x1024_S64x1024_1_0_0_1_n_n.lhsIdx_val_of_single rfl i q
private theorem rhs_fc_0 (i : S64x1024.Idx) (q : dot_S64x1536_S1536x1024_S64x1024_1_0_0_1_n_n.contr.Idx) :
    (dot_S64x1536_S1536x1024_S64x1024_1_0_0_1_n_n.rhsIdx i q 0).val = (q ⟨0, by decide⟩).val :=
  dot_S64x1536_S1536x1024_S64x1024_1_0_0_1_n_n.rhsIdx_val_of_single rfl i q
private theorem rhs_fc_1 (i : S64x1024.Idx) (q : dot_S64x1536_S1536x1024_S64x1024_1_0_0_1_n_n.contr.Idx) :
    (dot_S64x1536_S1536x1024_S64x1024_1_0_0_1_n_n.rhsIdx i q 1).val = (i 1).val := by
  unfold DotDims.rhsIdx
  rw [dif_neg (show ¬(1 : Fin S1536x1024.rank) ∈ dot_S64x1536_S1536x1024_S64x1024_1_0_0_1_n_n.rhsBatch by decide), dif_pos (show (1 : Fin S1536x1024.rank) ∈ dot_S64x1536_S1536x1024_S64x1024_1_0_0_1_n_n.rhsNonContracting by decide)]
  rfl

/-- Into the zero accumulator the product at `(b, h)` is `Σ_k x (b, k) · w (k, h)`. -/
private theorem fc_matmul_apply (x : FVec Ideal S64x1536 .f32) (w : FVec Ideal S1536x1024 .f32) (b : Fin 64) (h : Fin 1024) :
    matmul dot_S64x1536_S1536x1024_S64x1024_1_0_0_1_n_n none x w (constant (F := Ideal) S64x1024 .f32 0x00000000#32) (ix2 b h)
      = ∑ k : Fin 1536, x (ix2 b k) * w (ix2 k h) := by
  refine (Ideal.matmul_constant_zero_apply dot_S64x1536_S1536x1024_S64x1024_1_0_0_1_n_n none x w (ix2 b h)).trans ?_
  rw [← Equiv.sum_comp (ValueIdx.contrEquiv1 dot_S64x1536_S1536x1024_S64x1024_1_0_0_1_n_n 1536 rfl rfl).symm]
  refine Finset.sum_congr rfl fun k _ => ?_
  have hk := ValueIdx.contrEquiv1_symm_val dot_S64x1536_S1536x1024_S64x1024_1_0_0_1_n_n 1536 rfl rfl k
  have el : dot_S64x1536_S1536x1024_S64x1024_1_0_0_1_n_n.lhsIdx (ix2 b h) ((ValueIdx.contrEquiv1 dot_S64x1536_S1536x1024_S64x1024_1_0_0_1_n_n 1536 rfl rfl).symm k) = ix2 b k := funext fun a => Fin.ext (by
    match a with
    | ⟨0, _⟩ => exact lhs_fc_0 _ _
    | ⟨1, _⟩ => exact (lhs_fc_1 _ _).trans hk)
  have er : dot_S64x1536_S1536x1024_S64x1024_1_0_0_1_n_n.rhsIdx (ix2 b h) ((ValueIdx.contrEquiv1 dot_S64x1536_S1536x1024_S64x1024_1_0_0_1_n_n 1536 rfl rfl).symm k) = ix2 k h := funext fun a => Fin.ext (by
    match a with
    | ⟨0, _⟩ => exact (rhs_fc_0 _ _).trans hk
    | ⟨1, _⟩ => exact rhs_fc_1 _ _)
  rw [el, er]

/-! ## The column sums, the unit-axis casts and the row broadcasts -/

/-- The reduced index `h` with row `k` put back is `(k, h)`. -/
private theorem lift_col (h : Fin 1024) (k : Fin (S64x1024.size 0)) :
    reduces_S64x1024_S1024.lift (ix1 h) k = ix2 (⟨k.val, k.isLt⟩ : Fin 64) h := by
  funext c; apply Fin.ext
  match c with
  | ⟨0, _⟩ => rfl
  | ⟨1, _⟩ => rfl

/-- The sum over the 64 rows, read at column `h`. -/
private theorem colsum_apply (x : FVec Ideal S64x1024 .f32) (hφ : FTy.f32 = FTy.f32 ∨ FTy.f32 = FTy.bf16)
    (hacc : (0x00000000#32 : BitVec 32) = 0x00000000#32) (h : Fin 1024) :
    multiReduction .add [0] S1024 x 0x00000000#32 reduces_S64x1024_S1024 hφ hacc (ix1 h)
      = ∑ b : Fin 64, x (ix2 b h) := by
  refine (Ideal.multiReduction_add_single x 0x00000000#32 reduces_S64x1024_S1024 hφ hacc (ix1 h)).trans ?_
  exact Finset.sum_congr rfl fun k _ => congrArg x (lift_col h k)

/-- The reciprocal square root read at an index. -/
private theorem rsqrt_apply {s : Shape} {φ : FTy} (a : FVec Ideal s φ) (i : s.Idx) : rsqrt a i = Ideal.rsqrt (a i) := rfl

/-- The rectified, normalised hidden activations at row `b`, unit `h`. -/
theorem pay1_pay6_apply (v0 : Vec Ideal S64x1536 .f32) (v2 : Vec Ideal S1024x1536 .f32) (v3 v5 : Vec Ideal S1x1024 .f32)
    (v8 : FVec Ideal S1x1024 .f32) (b : Fin 64) (h : Fin 1024) :
    k1_pay1 (F := Ideal) v8 (k1_pay6 (F := Ideal) v0 v2 v3 v5) (ix2 b h)
      = Spec.relu (Spec.fc (fun b j => v0 (ix2 b j)) (fun h j => v2 (ix2 h j)) (fun h => v3 (ix2 0 h)))
          (fun h => v5 (ix2 0 h)) (fun h => v8 (ix2 0 h)) b h := by
  -- the transposed weight at `(k, h)` is the weight at `(h, k)`
  have e : ∀ k : Fin 1536, transpose S1536x1024 [1, 0] v2 transposes_S1024x1536_p1_0_S1536x1024 (ix2 k h) = v2 (ix2 h k) := fun k =>
    transpose_ix2_apply v2 transposes_S1024x1536_p1_0_S1536x1024 k h
  unfold k1_pay1 k1_pay6 Spec.relu Spec.var Spec.mu Spec.fc
  -- the identity casts drop out
  simp only [shapeCast_self]
  -- the index goes through the pointwise operations, the row broadcasts and the unit-axis casts; the product at
  -- `(b, h)` becomes its sum over the contraction coordinate
  simp only [maximumf_apply, addf_apply, mulf_apply, subf_apply, divf_apply, rsqrt_apply, broadcast_apply,
    broadcastTo_1b_ab_apply, shapeCast_a_1a_apply, fc_matmul_apply, Ideal.ofBits_def, Ideal.ofBits_zero_f32]
  -- the two sums over the 64 rows at column `h`: the mean's and the variance's
  rw [colsum_apply, colsum_apply]
  simp only [maximumf_apply, addf_apply, mulf_apply, subf_apply, divf_apply, rsqrt_apply, broadcast_apply,
    broadcastTo_1b_ab_apply, shapeCast_a_1a_apply, fc_matmul_apply, Ideal.ofBits_def, Ideal.ofBits_zero_f32]
  -- inside the variance's summand, the mean's sum over the rows once more
  rw [colsum_apply]
  simp only [maximumf_apply, addf_apply, mulf_apply, subf_apply, divf_apply, rsqrt_apply, broadcast_apply,
    broadcastTo_1b_ab_apply, shapeCast_a_1a_apply, fc_matmul_apply, Ideal.ofBits_def, Ideal.ofBits_zero_f32, e]

end Cert.KernelIdeal.Cls

end
-- ==== Proof.ClsHead.lean ====
/-
  The classifier body's second affine map with its logistic, and the last matrix product, read at an index.
-/
import proofs.«428937_j74302934221523_3_alg».proof.Proof.Gen.KernelIdeal.Skeleton
import proofs.«428937_j74302934221523_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Cls

open Cert.KernelIdeal Cert.KernelIdeal.Gen Idealize.ShloMosaic Idealize.ShloMosaic.ValueIdx Idealize.SL.Sem

/-! ## The two products' operand indices, axis by axis -/

/-- The left operand's index of `dot_S64x1024_S1024x128_S64x128_1_0_0_1_n_n`: its row is the result's row. -/
private theorem d2_lhs_0 (i : S64x128.Idx) (q : dot_S64x1024_S1024x128_S64x128_1_0_0_1_n_n.contr.Idx) :
    (dot_S64x1024_S1024x128_S64x128_1_0_0_1_n_n.lhsIdx i q 0).val = (i 0).val := by
  unfold DotDims.lhsIdx
  rw [dif_neg (show ¬(0 : Fin S64x1024.rank) ∈ dot_S64x1024_S1024x128_S64x128_1_0_0_1_n_n.lhsBatch by decide), dif_pos (show (0 : Fin S64x1024.rank) ∈ dot_S64x1024_S1024x128_S64x128_1_0_0_1_n_n.lhsNonContracting by decide)]
  rfl
/-- The left operand's index: its column is the contracted coordinate. -/
private theorem d2_lhs_1 (i : S64x128.Idx) (q : dot_S64x1024_S1024x128_S64x128_1_0_0_1_n_n.contr.Idx) :
    (dot_S64x1024_S1024x128_S64x128_1_0_0_1_n_n.lhsIdx i q 1).val = (q ⟨0, by decide⟩).val :=
  dot_S64x1024_S1024x128_S64x128_1_0_0_1_n_n.lhsIdx_val_of_single rfl i q
/-- The right operand's index: its row is the contracted coordinate. -/
private theorem d2_rhs_0 (i : S64x128.Idx) (q : dot_S64x1024_S1024x128_S64x128_1_0_0_1_n_n.contr.Idx) :
    (dot_S64x1024_S1024x128_S64x128_1_0_0_1_n_n.rhsIdx i q 0).val = (q ⟨0, by decide⟩).val :=
  dot_S64x1024_S1024x128_S64x128_1_0_0_1_n_n.rhsIdx_val_of_single rfl i q
/-- The right operand's index: its column is the result's column. -/
private theorem d2_rhs_1 (i : S64x128.Idx) (q : dot_S64x1024_S1024x128_S64x128_1_0_0_1_n_n.contr.Idx) :
    (dot_S64x1024_S1024x128_S64x128_1_0_0_1_n_n.rhsIdx i q 1).val = (i 1).val := by
  unfold DotDims.rhsIdx
  rw [dif_neg (show ¬(1 : Fin S1024x128.rank) ∈ dot_S64x1024_S1024x128_S64x128_1_0_0_1_n_n.rhsBatch by decide), dif_pos (show (1 : Fin S1024x128.rank) ∈ dot_S64x1024_S1024x128_S64x128_1_0_0_1_n_n.rhsNonContracting by decide)]
  rfl

/-- The left operand's index of `dot_S64x128_S128x256_S64x256_1_0_0_1_n_n`: its row is the result's row. -/
private theorem d3_lhs_0 (i : S64x256.Idx) (q : dot_S64x128_S128x256_S64x256_1_0_0_1_n_n.contr.Idx) :
    (dot_S64x128_S128x256_S64x256_1_0_0_1_n_n.lhsIdx i q 0).val = (i 0).val := by
  unfold DotDims.lhsIdx
  rw [dif_neg (show ¬(0 : Fin S64x128.rank) ∈ dot_S64x128_S128x256_S64x256_1_0_0_1_n_n.lhsBatch by decide), dif_pos (show (0 : Fin S64x128.rank) ∈ dot_S64x128_S128x256_S64x256_1_0_0_1_n_n.lhsNonContracting by decide)]
  rfl
/-- The left operand's index: its column is the contracted coordinate. -/
private theorem d3_lhs_1 (i : S64x256.Idx) (q : dot_S64x128_S128x256_S64x256_1_0_0_1_n_n.contr.Idx) :
    (dot_S64x128_S128x256_S64x256_1_0_0_1_n_n.lhsIdx i q 1).val = (q ⟨0, by decide⟩).val :=
  dot_S64x128_S128x256_S64x256_1_0_0_1_n_n.lhsIdx_val_of_single rfl i q
/-- The right operand's index: its row is the contracted coordinate. -/
private theorem d3_rhs_0 (i : S64x256.Idx) (q : dot_S64x128_S128x256_S64x256_1_0_0_1_n_n.contr.Idx) :
    (dot_S64x128_S128x256_S64x256_1_0_0_1_n_n.rhsIdx i q 0).val = (q ⟨0, by decide⟩).val :=
  dot_S64x128_S128x256_S64x256_1_0_0_1_n_n.rhsIdx_val_of_single rfl i q
/-- The right operand's index: its column is the result's column. -/
private theorem d3_rhs_1 (i : S64x256.Idx) (q : dot_S64x128_S128x256_S64x256_1_0_0_1_n_n.contr.Idx) :
    (dot_S64x128_S128x256_S64x256_1_0_0_1_n_n.rhsIdx i q 1).val = (i 1).val := by
  unfold DotDims.rhsIdx
  rw [dif_neg (show ¬(1 : Fin S128x256.rank) ∈ dot_S64x128_S128x256_S64x256_1_0_0_1_n_n.rhsBatch by decide), dif_pos (show (1 : Fin S128x256.rank) ∈ dot_S64x128_S128x256_S64x256_1_0_0_1_n_n.rhsNonContracting by decide)]
  rfl

/-! ## The two products read at an index -/

/-- The product `dot_S64x1024_S1024x128_S64x128_1_0_0_1_n_n` with a zero accumulator, read at `(b, c)`: the sum over the contracted coordinate. -/
private theorem d2_matmul_apply (x : FVec Ideal S64x1024 .f32) (y : FVec Ideal S1024x128 .f32) (b : Fin 64) (c : Fin 128) :
    matmul dot_S64x1024_S1024x128_S64x128_1_0_0_1_n_n none x y (constant S64x128 .f32 0x00000000#32) (ix2 b c)
      = ∑ h : Fin 1024, x (ix2 b h) * y (ix2 h c) := by
  show FloatOps.matmul dot_S64x1024_S1024x128_S64x128_1_0_0_1_n_n none x y (constant S64x128 .f32 0x00000000#32) (ix2 b c) = _
  rw [Ideal.matmul_constant_zero_apply, ← Equiv.sum_comp (ValueIdx.contrEquiv1 dot_S64x1024_S1024x128_S64x128_1_0_0_1_n_n 1024 rfl rfl).symm]
  refine Finset.sum_congr rfl fun k _ => ?_
  have hk := ValueIdx.contrEquiv1_symm_val dot_S64x1024_S1024x128_S64x128_1_0_0_1_n_n 1024 rfl rfl k
  have el : dot_S64x1024_S1024x128_S64x128_1_0_0_1_n_n.lhsIdx (ix2 b c) ((ValueIdx.contrEquiv1 dot_S64x1024_S1024x128_S64x128_1_0_0_1_n_n 1024 rfl rfl).symm k) = ix2 b k := funext fun a => Fin.ext (by
    match a with
    | ⟨0, _⟩ => exact d2_lhs_0 _ _
    | ⟨1, _⟩ => exact (d2_lhs_1 _ _).trans hk)
  have er : dot_S64x1024_S1024x128_S64x128_1_0_0_1_n_n.rhsIdx (ix2 b c) ((ValueIdx.contrEquiv1 dot_S64x1024_S1024x128_S64x128_1_0_0_1_n_n 1024 rfl rfl).symm k) = ix2 k c := funext fun a => Fin.ext (by
    match a with
    | ⟨0, _⟩ => exact (d2_rhs_0 _ _).trans hk
    | ⟨1, _⟩ => exact d2_rhs_1 _ _)
  rw [el, er]

/-- The product `dot_S64x128_S128x256_S64x256_1_0_0_1_n_n` with a zero accumulator, read at `(b, c)`: the sum over the contracted coordinate. -/
private theorem d3_matmul_apply (x : FVec Ideal S64x128 .f32) (y : FVec Ideal S128x256 .f32) (b : Fin 64) (c : Fin 256) :
    matmul dot_S64x128_S128x256_S64x256_1_0_0_1_n_n none x y (constant S64x256 .f32 0x00000000#32) (ix2 b c)
      = ∑ h : Fin 128, x (ix2 b h) * y (ix2 h c) := by
  show FloatOps.matmul dot_S64x128_S128x256_S64x256_1_0_0_1_n_n none x y (constant S64x256 .f32 0x00000000#32) (ix2 b c) = _
  rw [Ideal.matmul_constant_zero_apply, ← Equiv.sum_comp (ValueIdx.contrEquiv1 dot_S64x128_S128x256_S64x256_1_0_0_1_n_n 128 rfl rfl).symm]
  refine Finset.sum_congr rfl fun k _ => ?_
  have hk := ValueIdx.contrEquiv1_symm_val dot_S64x128_S128x256_S64x256_1_0_0_1_n_n 128 rfl rfl k
  have el : dot_S64x128_S128x256_S64x256_1_0_0_1_n_n.lhsIdx (ix2 b c) ((ValueIdx.contrEquiv1 dot_S64x128_S128x256_S64x256_1_0_0_1_n_n 128 rfl rfl).symm k) = ix2 b k := funext fun a => Fin.ext (by
    match a with
    | ⟨0, _⟩ => exact d3_lhs_0 _ _
    | ⟨1, _⟩ => exact (d3_lhs_1 _ _).trans hk)
  have er : dot_S64x128_S128x256_S64x256_1_0_0_1_n_n.rhsIdx (ix2 b c) ((ValueIdx.contrEquiv1 dot_S64x128_S128x256_S64x256_1_0_0_1_n_n 128 rfl rfl).symm k) = ix2 k c := funext fun a => Fin.ext (by
    match a with
    | ⟨0, _⟩ => exact (d3_rhs_0 _ _).trans hk
    | ⟨1, _⟩ => exact d3_rhs_1 _ _)
  rw [el, er]

/-! ## The payloads -/

/-- The class score at row `b`, class `k`, over the rectified activations. -/
theorem pay2_apply (v8 : FVec Ideal S1x1024 .f32) (v9 : Vec Ideal S128x1024 .f32) (v11 : FVec Ideal S1x128 .f32)
    (v36 : FVec Ideal S64x1024 .f32) (b : Fin 64) (k : Fin 128) :
    k1_pay2 (F := Ideal) v8 v9 v11 v36 (ix2 b k)
      = Spec.score (fun b h => k1_pay1 (F := Ideal) v8 v36 (ix2 b h)) (fun k h => v9 (ix2 k h)) (fun k => v11 (ix2 0 k)) b k := by
  unfold k1_pay2
  generalize k1_pay1 (F := Ideal) v8 v36 = R
  show Ideal.logistic (matmul dot_S64x1024_S1024x128_S64x128_1_0_0_1_n_n none R (transpose S1024x128 [1, 0] v9 transposes_S128x1024_p1_0_S1024x128) (constant S64x128 .f32 0x00000000#32) (ix2 b k)
      + broadcastTo S64x128 v11 broadcasts_S1x128_S64x128 (ix2 b k)) = _
  -- the product is the sum over the hidden units; the bias row is read at its one row
  rw [d2_matmul_apply, broadcastTo_1b_ab_apply]
  unfold Spec.score
  refine congrArg Ideal.logistic (congrArg (· + _) (Finset.sum_congr rfl fun h _ => ?_))
  -- the transposed weights at `(h, k)` are the weights at `(k, h)`
  rw [transpose_ix2_apply]

/-- The last product at row `b`, column `n`, over the class scores. -/
theorem pay3_apply (v8 : FVec Ideal S1x1024 .f32) (v9 : Vec Ideal S128x1024 .f32) (v11 : FVec Ideal S1x128 .f32)
    (v12 : Vec Ideal S128x256 .f32) (v36 : FVec Ideal S64x1024 .f32) (b : Fin 64) (n : Fin 256) :
    k1_pay3 (F := Ideal) v8 v9 v11 v12 v36 (ix2 b n)
      = Spec.qh (fun b k => k1_pay2 (F := Ideal) v8 v9 v11 v36 (ix2 b k)) (fun k n => v12 (ix2 k n)) b n := by
  unfold k1_pay3
  generalize k1_pay2 (F := Ideal) v8 v9 v11 v36 = Sc
  show matmul dot_S64x128_S128x256_S64x256_1_0_0_1_n_n none Sc v12 (constant S64x256 .f32 0x00000000#32) (ix2 b n) = _
  rw [d3_matmul_apply]
  rfl

end Cert.KernelIdeal.Cls

end
-- ==== Proof.Region1.lean ====
/-
  Region 1 (the classifier) as whole-array functions. The grid has one point; every window's block is its whole
  array, so after the region each output array holds the body's value of the arrays as the region finds them.
-/
import proofs.«428937_j74302934221523_3_alg».proof.Proof.Gen.KernelIdeal.Frame
import proofs.«428937_j74302934221523_3_alg».proof.Proof.ClsNorm
import proofs.«428937_j74302934221523_3_alg».proof.Proof.ClsHead
import proofs.«428937_j74302934221523_3_alg».proof.Proof.Spec
import Idealize.ShloMosaic.Lib.ValueIdx
import Idealize.ShloMosaic.Lib.Pipeline.Value

set_option maxRecDepth 16384

noncomputable section

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat)

/-- The rectified, normalised hidden activations as one array. -/
def Relu (L : FVec Ideal S64x1536 .f32) (Wt : FVec Ideal S1024x1536 .f32) (bt ga be : FVec Ideal S1x1024 .f32) :
    FVec Ideal S64x1024 .f32 :=
  fun i => Spec.relu (Spec.fc (fun b j => L (ix2 b j)) (fun h j => Wt (ix2 h j)) (fun h => bt (ix2 0 h)))
    (fun h => ga (ix2 0 h)) (fun h => be (ix2 0 h)) ⟨(i 0).val, (i 0).isLt⟩ ⟨(i 1).val, (i 1).isLt⟩

/-- The class scores as one array. -/
def Score (R : FVec Ideal S64x1024 .f32) (Wl : FVec Ideal S128x1024 .f32) (bl : FVec Ideal S1x128 .f32) :
    FVec Ideal S64x128 .f32 :=
  fun i => Spec.score (fun b h => R (ix2 b h)) (fun k h => Wl (ix2 k h)) (fun k => bl (ix2 0 k))
    ⟨(i 0).val, (i 0).isLt⟩ ⟨(i 1).val, (i 1).isLt⟩

/-- The last product as one array. -/
def Q (Sc : FVec Ideal S64x128 .f32) (Gh : FVec Ideal S128x256 .f32) : FVec Ideal S64x256 .f32 :=
  fun i => Spec.qh (fun b k => Sc (ix2 b k)) (fun k n => Gh (ix2 k n)) ⟨(i 0).val, (i 0).isLt⟩ ⟨(i 1).val, (i 1).isLt⟩

variable (V : (c : Dev nD) → (b : Ref sig .tc) → Buf (Elt Ideal) ((c : Thread nD τ).loc b))

/-! ## The body's three stored values over whole arrays -/

private theorem Relu_apply (L : FVec Ideal S64x1536 .f32) (Wt : FVec Ideal S1024x1536 .f32) (bt ga be : FVec Ideal S1x1024 .f32)
    (b : Fin 64) (h : Fin 1024) :
    Relu L Wt bt ga be (ix2 b h)
      = Spec.relu (Spec.fc (fun b j => L (ix2 b j)) (fun h j => Wt (ix2 h j)) (fun h => bt (ix2 0 h)))
          (fun h => ga (ix2 0 h)) (fun h => be (ix2 0 h)) b h := rfl

private theorem Score_apply (R : FVec Ideal S64x1024 .f32) (Wl : FVec Ideal S128x1024 .f32) (bl : FVec Ideal S1x128 .f32)
    (b : Fin 64) (k : Fin 128) :
    Score R Wl bl (ix2 b k) = Spec.score (fun b h => R (ix2 b h)) (fun k h => Wl (ix2 k h)) (fun k => bl (ix2 0 k)) b k := rfl

private theorem Q_apply (Sc : FVec Ideal S64x128 .f32) (Gh : FVec Ideal S128x256 .f32) (b : Fin 64) (n : Fin 256) :
    Q Sc Gh (ix2 b n) = Spec.qh (fun b k => Sc (ix2 b k)) (fun k n => Gh (ix2 k n)) b n := rfl

/-- The cast of a one-row vector to its own shape changes nothing. -/
private theorem pay4_eq (v : Vec Ideal S1x1024 .f32) : k1_pay4 (F := Ideal) v = v := by
  unfold k1_pay4
  exact shapeCast_self _ _

private theorem pay5_eq (v : Vec Ideal S1x128 .f32) : k1_pay5 (F := Ideal) v = v := by
  unfold k1_pay5
  exact shapeCast_self _ _

/-- The hidden activations: where the five input blocks are the arrays `L`, `Wt`, `bt`, `ga`, `be`, the stored value is
    `Relu` of them. -/
private theorem point9 (x0 : Vec Ideal S64x1536 .f32) (x1 : Vec Ideal S1024x1536 .f32) (x2 x3 x4 : Vec Ideal S1x1024 .f32)
    (L : FVec Ideal S64x1536 .f32) (Wt : FVec Ideal S1024x1536 .f32) (bt ga be : FVec Ideal S1x1024 .f32)
    (h0 : ∀ y, x0 y = L y) (h1 : ∀ y, x1 y = Wt y) (h2 : ∀ y, x2 y = bt y) (h3 : ∀ y, x3 y = ga y) (h4 : ∀ y, x4 y = be y) :
    k1_pay1 (F := Ideal) (k1_pay4 (F := Ideal) x4) (k1_pay6 (F := Ideal) x0 x1 x2 x3) = Relu L Wt bt ga be := by
  obtain rfl : x0 = L := funext h0
  obtain rfl : x1 = Wt := funext h1
  obtain rfl : x2 = bt := funext h2
  obtain rfl : x3 = ga := funext h3
  obtain rfl : x4 = be := funext h4
  funext y
  obtain ⟨b, h, rfl⟩ : ∃ (b : Fin 64) (h : Fin 1024), y = ix2 b h := ⟨y 0, y 1, eq_ix2 y⟩
  rw [pay4_eq, Relu_apply]
  exact Cls.pay1_pay6_apply x0 x1 x2 x3 x4 b h

/-- The class scores over the same blocks and the second affine map's two. -/
private theorem point8 (x0 : Vec Ideal S64x1536 .f32) (x1 : Vec Ideal S1024x1536 .f32) (x2 x3 x4 : Vec Ideal S1x1024 .f32)
    (x5 : Vec Ideal S128x1024 .f32) (x6 : Vec Ideal S1x128 .f32)
    (L : FVec Ideal S64x1536 .f32) (Wt : FVec Ideal S1024x1536 .f32) (bt ga be : FVec Ideal S1x1024 .f32)
    (Wl : FVec Ideal S128x1024 .f32) (bl : FVec Ideal S1x128 .f32)
    (h0 : ∀ y, x0 y = L y) (h1 : ∀ y, x1 y = Wt y) (h2 : ∀ y, x2 y = bt y) (h3 : ∀ y, x3 y = ga y) (h4 : ∀ y, x4 y = be y)
    (h5 : ∀ y, x5 y = Wl y) (h6 : ∀ y, x6 y = bl y) :
    k1_pay2 (F := Ideal) (k1_pay4 (F := Ideal) x4) x5 (k1_pay5 (F := Ideal) x6) (k1_pay6 (F := Ideal) x0 x1 x2 x3)
      = Score (Relu L Wt bt ga be) Wl bl := by
  have e9 := point9 x0 x1 x2 x3 x4 L Wt bt ga be h0 h1 h2 h3 h4
  obtain rfl : x5 = Wl := funext h5
  obtain rfl : x6 = bl := funext h6
  funext y
  obtain ⟨b, k, rfl⟩ : ∃ (b : Fin 64) (k : Fin 128), y = ix2 b k := ⟨y 0, y 1, eq_ix2 y⟩
  rw [Cls.pay2_apply (k1_pay4 (F := Ideal) x4) x5 (k1_pay5 (F := Ideal) x6) (k1_pay6 (F := Ideal) x0 x1 x2 x3) b k, e9,
    pay5_eq, Score_apply]

/-- The last product over the same blocks and the last matrix's. -/
private theorem point10 (x0 : Vec Ideal S64x1536 .f32) (x1 : Vec Ideal S1024x1536 .f32) (x2 x3 x4 : Vec Ideal S1x1024 .f32)
    (x5 : Vec Ideal S128x1024 .f32) (x6 : Vec Ideal S1x128 .f32) (x7 : Vec Ideal S128x256 .f32)
    (L : FVec Ideal S64x1536 .f32) (Wt : FVec Ideal S1024x1536 .f32) (bt ga be : FVec Ideal S1x1024 .f32)
    (Wl : FVec Ideal S128x1024 .f32) (bl : FVec Ideal S1x128 .f32) (Gh : FVec Ideal S128x256 .f32)
    (h0 : ∀ y, x0 y = L y) (h1 : ∀ y, x1 y = Wt y) (h2 : ∀ y, x2 y = bt y) (h3 : ∀ y, x3 y = ga y) (h4 : ∀ y, x4 y = be y)
    (h5 : ∀ y, x5 y = Wl y) (h6 : ∀ y, x6 y = bl y) (h7 : ∀ y, x7 y = Gh y) :
    k1_pay3 (F := Ideal) (k1_pay4 (F := Ideal) x4) x5 (k1_pay5 (F := Ideal) x6) x7 (k1_pay6 (F := Ideal) x0 x1 x2 x3)
      = Q (Score (Relu L Wt bt ga be) Wl bl) Gh := by
  have e8 := point8 x0 x1 x2 x3 x4 x5 x6 L Wt bt ga be Wl bl h0 h1 h2 h3 h4 h5 h6
  obtain rfl : x7 = Gh := funext h7
  funext y
  obtain ⟨b, n, rfl⟩ : ∃ (b : Fin 64) (n : Fin 256), y = ix2 b n := ⟨y 0, y 1, eq_ix2 y⟩
  rw [Cls.pay3_apply (k1_pay4 (F := Ideal) x4) x5 (k1_pay5 (F := Ideal) x6) x7 (k1_pay6 (F := Ideal) x0 x1 x2 x3) b n, e8,
    Q_apply]

private theorem hz2 : (![0, 0] : Fin 2 → Nat) = fun _ => 0 := funext fun a => by fin_cases a <;> rfl

/-- The printed index maps over the one-point grid: every window's block index is zero on both axes. -/
private theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-! ## Each window's block is its whole array: a block index is the array index -/

private theorem emb1_0 (t : Fin cfg1.N) (y : S64x1536.Idx) : ((cfg1.win 0).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_0.index t (0 : Fin 2) * 64 + 1 * (y 0).val = (y 0).val; rw [e0_0]; omega
  | ⟨1, _⟩ => show win1_0.index t (1 : Fin 2) * 1536 + 1 * (y 1).val = (y 1).val; rw [e0_1]; omega

private theorem emb1_1 (t : Fin cfg1.N) (y : S1024x1536.Idx) : ((cfg1.win 1).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_1.index t (0 : Fin 2) * 1024 + 1 * (y 0).val = (y 0).val; rw [e1_0]; omega
  | ⟨1, _⟩ => show win1_1.index t (1 : Fin 2) * 1536 + 1 * (y 1).val = (y 1).val; rw [e1_1]; omega

private theorem emb1_2 (t : Fin cfg1.N) (y : S1x1024.Idx) : ((cfg1.win 2).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_2.index t (0 : Fin 2) * 1 + 1 * (y 0).val = (y 0).val; rw [e2_0]; omega
  | ⟨1, _⟩ => show win1_2.index t (1 : Fin 2) * 1024 + 1 * (y 1).val = (y 1).val; rw [e2_1]; omega

private theorem emb1_3 (t : Fin cfg1.N) (y : S1x1024.Idx) : ((cfg1.win 3).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_3.index t (0 : Fin 2) * 1 + 1 * (y 0).val = (y 0).val; rw [e3_0]; omega
  | ⟨1, _⟩ => show win1_3.index t (1 : Fin 2) * 1024 + 1 * (y 1).val = (y 1).val; rw [e3_1]; omega

private theorem emb1_4 (t : Fin cfg1.N) (y : S1x1024.Idx) : ((cfg1.win 4).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_4.index t (0 : Fin 2) * 1 + 1 * (y 0).val = (y 0).val; rw [e4_0]; omega
  | ⟨1, _⟩ => show win1_4.index t (1 : Fin 2) * 1024 + 1 * (y 1).val = (y 1).val; rw [e4_1]; omega

private theorem emb1_5 (t : Fin cfg1.N) (y : S128x1024.Idx) : ((cfg1.win 5).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_5.index t (0 : Fin 2) * 128 + 1 * (y 0).val = (y 0).val; rw [e5_0]; omega
  | ⟨1, _⟩ => show win1_5.index t (1 : Fin 2) * 1024 + 1 * (y 1).val = (y 1).val; rw [e5_1]; omega

private theorem emb1_6 (t : Fin cfg1.N) (y : S1x128.Idx) : ((cfg1.win 6).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_6.index t (0 : Fin 2) * 1 + 1 * (y 0).val = (y 0).val; rw [e6_0]; omega
  | ⟨1, _⟩ => show win1_6.index t (1 : Fin 2) * 128 + 1 * (y 1).val = (y 1).val; rw [e6_1]; omega

private theorem emb1_7 (t : Fin cfg1.N) (y : S128x256.Idx) : ((cfg1.win 7).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_7.index t (0 : Fin 2) * 128 + 1 * (y 0).val = (y 0).val; rw [e7_0]; omega
  | ⟨1, _⟩ => show win1_7.index t (1 : Fin 2) * 256 + 1 * (y 1).val = (y 1).val; rw [e7_1]; omega

private theorem emb1_8 (t : Fin cfg1.N) (y : S64x128.Idx) : ((cfg1.win 8).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_8.index t (0 : Fin 2) * 64 + 1 * (y 0).val = (y 0).val; rw [e8_0]; omega
  | ⟨1, _⟩ => show win1_8.index t (1 : Fin 2) * 128 + 1 * (y 1).val = (y 1).val; rw [e8_1]; omega

private theorem emb1_9 (t : Fin cfg1.N) (y : S64x1024.Idx) : ((cfg1.win 9).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_9.index t (0 : Fin 2) * 64 + 1 * (y 0).val = (y 0).val; rw [e9_0]; omega
  | ⟨1, _⟩ => show win1_9.index t (1 : Fin 2) * 1024 + 1 * (y 1).val = (y 1).val; rw [e9_1]; omega

private theorem emb1_10 (t : Fin cfg1.N) (y : S64x256.Idx) : ((cfg1.win 10).blk t).view.emb y = y := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine funext fun a => Fin.ext ?_
  match a with
  | ⟨0, _⟩ => show win1_10.index t (0 : Fin 2) * 64 + 1 * (y 0).val = (y 0).val; rw [e10_0]; omega
  | ⟨1, _⟩ => show win1_10.index t (1 : Fin 2) * 256 + 1 * (y 1).val = (y 1).val; rw [e10_1]; omega

/-! ## An input window's block, read at an index, is its array there -/

private theorem blk1_0 (c : Dev nD) (t : Fin cfg1.N) (y : S64x1536.Idx) : iblk1 V c 0 t y = V c main_v2 y := by
  show V c main_v2 (((cfg1.win 0).blk t).view.emb y) = V c main_v2 y
  rw [emb1_0]

private theorem blk1_1 (c : Dev nD) (t : Fin cfg1.N) (y : S1024x1536.Idx) : iblk1 V c 1 t y = V c main_arg4 y := by
  show V c main_arg4 (((cfg1.win 1).blk t).view.emb y) = V c main_arg4 y
  rw [emb1_1]

private theorem blk1_2 (c : Dev nD) (t : Fin cfg1.N) (y : S1x1024.Idx) : iblk1 V c 2 t y = V c main_v3 y := by
  show V c main_v3 (((cfg1.win 2).blk t).view.emb y) = V c main_v3 y
  rw [emb1_2]

private theorem blk1_3 (c : Dev nD) (t : Fin cfg1.N) (y : S1x1024.Idx) : iblk1 V c 3 t y = V c main_v4 y := by
  show V c main_v4 (((cfg1.win 3).blk t).view.emb y) = V c main_v4 y
  rw [emb1_3]

private theorem blk1_4 (c : Dev nD) (t : Fin cfg1.N) (y : S1x1024.Idx) : iblk1 V c 4 t y = V c main_v5 y := by
  show V c main_v5 (((cfg1.win 4).blk t).view.emb y) = V c main_v5 y
  rw [emb1_4]

private theorem blk1_5 (c : Dev nD) (t : Fin cfg1.N) (y : S128x1024.Idx) : iblk1 V c 5 t y = V c main_arg8 y := by
  show V c main_arg8 (((cfg1.win 5).blk t).view.emb y) = V c main_arg8 y
  rw [emb1_5]

private theorem blk1_6 (c : Dev nD) (t : Fin cfg1.N) (y : S1x128.Idx) : iblk1 V c 6 t y = V c main_v6 y := by
  show V c main_v6 (((cfg1.win 6).blk t).view.emb y) = V c main_v6 y
  rw [emb1_6]

private theorem blk1_7 (c : Dev nD) (t : Fin cfg1.N) (y : S128x256.Idx) : iblk1 V c 7 t y = V c main_arg10 y := by
  show V c main_arg10 (((cfg1.win 7).blk t).view.emb y) = V c main_arg10 y
  rw [emb1_7]

/-! ## What the one point writes back -/

/-- The hidden activations' block written back is the block of `Relu` of the arrays as the region finds them. -/
private theorem flushed_eq9 (c : Dev nD) (t : Fin cfg1.N) :
    (dat1 V c).flushed 9 t = ((cfg1.win 9).blk t).view.read (Elt Ideal)
      (Relu (V c main_v2) (V c main_arg4) (V c main_v3) (V c main_v4) (V c main_v5)) := by
  show (cfg1.win 9).cut (grid1.coords t) ((dat1 V c).after 9 t) = _
  rw [after1_9]
  unfold out1_9
  rw [View.canon_unit_zero hz2]
  simp only [View.ld_unit_zero (S := S64x1536) hz2, View.ld_unit_zero (S := S1024x1536) hz2, View.ld_unit_zero (S := S1x1024) hz2]
  refine funext fun (y : S64x1024.Idx) => ?_
  refine (congrFun (point9 (iblk1 V c 0 t) (iblk1 V c 1 t) (iblk1 V c 2 t) (iblk1 V c 3 t) (iblk1 V c 4 t)
    (V c main_v2) (V c main_arg4) (V c main_v3) (V c main_v4) (V c main_v5) (blk1_0 V c t) (blk1_1 V c t) (blk1_2 V c t) (blk1_3 V c t) (blk1_4 V c t)) y).trans ?_
  show Relu (V c main_v2) (V c main_arg4) (V c main_v3) (V c main_v4) (V c main_v5) y = Relu (V c main_v2) (V c main_arg4) (V c main_v3) (V c main_v4) (V c main_v5) (((cfg1.win 9).blk t).view.emb y)
  rw [emb1_9]

/-- The class scores' block written back is the block of `Score`. -/
private theorem flushed_eq8 (c : Dev nD) (t : Fin cfg1.N) :
    (dat1 V c).flushed 8 t = ((cfg1.win 8).blk t).view.read (Elt Ideal)
      (Score (Relu (V c main_v2) (V c main_arg4) (V c main_v3) (V c main_v4) (V c main_v5)) (V c main_arg8) (V c main_v6)) := by
  show (cfg1.win 8).cut (grid1.coords t) ((dat1 V c).after 8 t) = _
  rw [after1_8]
  unfold out1_8
  rw [View.canon_unit_zero hz2]
  simp only [View.ld_unit_zero (S := S64x1536) hz2, View.ld_unit_zero (S := S1024x1536) hz2, View.ld_unit_zero (S := S1x1024) hz2, View.ld_unit_zero (S := S128x1024) hz2, View.ld_unit_zero (S := S1x128) hz2]
  refine funext fun (y : S64x128.Idx) => ?_
  refine (congrFun (point8 (iblk1 V c 0 t) (iblk1 V c 1 t) (iblk1 V c 2 t) (iblk1 V c 3 t) (iblk1 V c 4 t) (iblk1 V c 5 t) (iblk1 V c 6 t)
    (V c main_v2) (V c main_arg4) (V c main_v3) (V c main_v4) (V c main_v5) (V c main_arg8) (V c main_v6) (blk1_0 V c t) (blk1_1 V c t) (blk1_2 V c t) (blk1_3 V c t) (blk1_4 V c t) (blk1_5 V c t) (blk1_6 V c t)) y).trans ?_
  show Score (Relu (V c main_v2) (V c main_arg4) (V c main_v3) (V c main_v4) (V c main_v5)) (V c main_arg8) (V c main_v6) y = Score (Relu (V c main_v2) (V c main_arg4) (V c main_v3) (V c main_v4) (V c main_v5)) (V c main_arg8) (V c main_v6) (((cfg1.win 8).blk t).view.emb y)
  rw [emb1_8]

/-- The last product's block written back is the block of `Q`. -/
private theorem flushed_eq10 (c : Dev nD) (t : Fin cfg1.N) :
    (dat1 V c).flushed 10 t = ((cfg1.win 10).blk t).view.read (Elt Ideal)
      (Q (Score (Relu (V c main_v2) (V c main_arg4) (V c main_v3) (V c main_v4) (V c main_v5)) (V c main_arg8) (V c main_v6)) (V c main_arg10)) := by
  show (cfg1.win 10).cut (grid1.coords t) ((dat1 V c).after 10 t) = _
  rw [after1_10]
  unfold out1_10
  rw [View.canon_unit_zero hz2]
  simp only [View.ld_unit_zero (S := S64x1536) hz2, View.ld_unit_zero (S := S1024x1536) hz2, View.ld_unit_zero (S := S1x1024) hz2, View.ld_unit_zero (S := S128x1024) hz2, View.ld_unit_zero (S := S1x128) hz2, View.ld_unit_zero (S := S128x256) hz2]
  refine funext fun (y : S64x256.Idx) => ?_
  refine (congrFun (point10 (iblk1 V c 0 t) (iblk1 V c 1 t) (iblk1 V c 2 t) (iblk1 V c 3 t) (iblk1 V c 4 t) (iblk1 V c 5 t) (iblk1 V c 6 t) (iblk1 V c 7 t)
    (V c main_v2) (V c main_arg4) (V c main_v3) (V c main_v4) (V c main_v5) (V c main_arg8) (V c main_v6) (V c main_arg10) (blk1_0 V c t) (blk1_1 V c t) (blk1_2 V c t) (blk1_3 V c t) (blk1_4 V c t) (blk1_5 V c t) (blk1_6 V c t) (blk1_7 V c t)) y).trans ?_
  show Q (Score (Relu (V c main_v2) (V c main_arg4) (V c main_v3) (V c main_v4) (V c main_v5)) (V c main_arg8) (V c main_v6)) (V c main_arg10) y = Q (Score (Relu (V c main_v2) (V c main_arg4) (V c main_v3) (V c main_v4) (V c main_v5)) (V c main_arg8) (V c main_v6)) (V c main_arg10) (((cfg1.win 10).blk t).view.emb y)
  rw [emb1_10]

/-! ## The one point's block covers the array -/

private theorem mem_blk8 (t : Fin cfg1.N) (i : S64x128.Idx) : i ∈ ((cfg1.win 8).blk t).view.set := by
  show i ∈ ((View.whole main_v7_0).slice (win1_8.rect t)).set
  rw [View.set_slice_whole, Rect.mem_set_unit]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  have hi0 : (i 0).val < 64 := (i 0).isLt
  have hi1 : (i 1).val < 128 := (i 1).isLt
  intro a
  match a with
  | ⟨0, _⟩ => show win1_8.index t (0 : Fin 2) * 64 ≤ (i 0).val ∧ (i 0).val < win1_8.index t (0 : Fin 2) * 64 + 64; rw [e8_0]; omega
  | ⟨1, _⟩ => show win1_8.index t (1 : Fin 2) * 128 ≤ (i 1).val ∧ (i 1).val < win1_8.index t (1 : Fin 2) * 128 + 128; rw [e8_1]; omega

private theorem mem_blk9 (t : Fin cfg1.N) (i : S64x1024.Idx) : i ∈ ((cfg1.win 9).blk t).view.set := by
  show i ∈ ((View.whole main_v7_1).slice (win1_9.rect t)).set
  rw [View.set_slice_whole, Rect.mem_set_unit]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  have hi0 : (i 0).val < 64 := (i 0).isLt
  have hi1 : (i 1).val < 1024 := (i 1).isLt
  intro a
  match a with
  | ⟨0, _⟩ => show win1_9.index t (0 : Fin 2) * 64 ≤ (i 0).val ∧ (i 0).val < win1_9.index t (0 : Fin 2) * 64 + 64; rw [e9_0]; omega
  | ⟨1, _⟩ => show win1_9.index t (1 : Fin 2) * 1024 ≤ (i 1).val ∧ (i 1).val < win1_9.index t (1 : Fin 2) * 1024 + 1024; rw [e9_1]; omega

private theorem mem_blk10 (t : Fin cfg1.N) (i : S64x256.Idx) : i ∈ ((cfg1.win 10).blk t).view.set := by
  show i ∈ ((View.whole main_v7_2).slice (win1_10.rect t)).set
  rw [View.set_slice_whole, Rect.mem_set_unit]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  have hi0 : (i 0).val < 64 := (i 0).isLt
  have hi1 : (i 1).val < 256 := (i 1).isLt
  intro a
  match a with
  | ⟨0, _⟩ => show win1_10.index t (0 : Fin 2) * 64 ≤ (i 0).val ∧ (i 0).val < win1_10.index t (0 : Fin 2) * 64 + 64; rw [e10_0]; omega
  | ⟨1, _⟩ => show win1_10.index t (1 : Fin 2) * 256 ≤ (i 1).val ∧ (i 1).val < win1_10.index t (1 : Fin 2) * 256 + 256; rw [e10_1]; omega

/-- The hidden activations' array after the region. -/
theorem final9 (c : Dev nD) : (dat1 V c).arrAt 9 cfg1.N
    = Relu (V c main_v2) (V c main_arg4) (V c main_v3) (V c main_v4) (V c main_v5) :=
  (dat1 V c).arrAt_eq_of_cover 9 _ (fun t _ => flushed_eq9 V c t) fun i => ⟨t1_0, flush1_9 _, mem_blk9 t1_0 i⟩

/-- The class scores' array after the region. -/
theorem final8 (c : Dev nD) : (dat1 V c).arrAt 8 cfg1.N
    = Score (Relu (V c main_v2) (V c main_arg4) (V c main_v3) (V c main_v4) (V c main_v5)) (V c main_arg8) (V c main_v6) :=
  (dat1 V c).arrAt_eq_of_cover 8 _ (fun t _ => flushed_eq8 V c t) fun i => ⟨t1_0, flush1_8 _, mem_blk8 t1_0 i⟩

/-- The last product's array after the region. -/
theorem final10 (c : Dev nD) : (dat1 V c).arrAt 10 cfg1.N
    = Q (Score (Relu (V c main_v2) (V c main_arg4) (V c main_v3) (V c main_v4) (V c main_v5)) (V c main_arg8) (V c main_v6))
        (V c main_arg10) :=
  (dat1 V c).arrAt_eq_of_cover 10 _ (fun t _ => flushed_eq10 V c t) fun i => ⟨t1_0, flush1_10 _, mem_blk10 t1_0 i⟩

end Cert.KernelIdeal.Region1

end
-- ==== Proof.Glue.lean ====
/-
  The host operations around the two regions, read through the fold of buffer contents from the launch: the two
  projection matrices padded with zeros to 256 attention units before region 0; the four vectors reshaped to one-row
  matrices before region 1, which finds region 0's output array in place; and after region 1 the last product repeated
  along a new axis of 200.
-/
import proofs.«428937_j74302934221523_3_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost

set_option maxRecDepth 16384

noncomputable section

namespace Cert.KernelIdeal.Glue

open Cert.KernelIdeal Cert.KernelIdeal.Gen Idealize.ShloMosaic Idealize.ShloMosaic.ValueIdx Idealize.ShloMosaic.TcCoe Idealize.SL.Sem
open Idealize.ShloMosaic.StableHlo

variable (m : (ℓ : Loc nD τ sig) → Buf (Elt Ideal) ℓ) (ρ : Dev nD → PrngReg)

/-! ## Each stretch of host operations leaves alone what it does not write -/

private theorem W1_of_ne (c : Dev nD) (b : Ref sig .tc) (h : b ≠ main_c) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, Finset.mem_singleton]
    exact StableHlo.devRef_ne_of_ne h))

private theorem W2_of_ne (c : Dev nD) (b : Ref sig .tc) (h1 : b ≠ main_call0_v0) (h2 : b ≠ main_v0) :
    W2 m ρ c (Proc.devRef .tc b) = W1 m ρ c (Proc.devRef .tc b) :=
  StableHlo.after_of_forall_not_mem (b := Proc.devRef .tc b) _ _ (List.forall_iff_forall_mem.mp (by
    simp only [hostOps0_1, List.Forall, StableHlo.unary_writes, StableHlo.binary_writes, Finset.mem_singleton]
    exact ⟨StableHlo.devRef_ne_of_ne h1, StableHlo.devRef_ne_of_ne h2⟩))

private theorem W3_of_ne (c : Dev nD) (b : Ref sig .tc) (h : b ≠ main_c_0) :
    W3 m ρ c (Proc.devRef .tc b) = W2 m ρ c (Proc.devRef .tc b) :=
  StableHlo.after_of_forall_not_mem (b := Proc.devRef .tc b) _ _ (List.forall_iff_forall_mem.mp (by
    simp only [hostOps0_2, List.Forall, StableHlo.nullary_writes, Finset.mem_singleton]
    exact StableHlo.devRef_ne_of_ne h))

private theorem W4_of_ne (c : Dev nD) (b : Ref sig .tc) (h1 : b ≠ main_call1_v0) (h2 : b ≠ main_v1) :
    W4 m ρ c (Proc.devRef .tc b) = W3 m ρ c (Proc.devRef .tc b) :=
  StableHlo.after_of_forall_not_mem (b := Proc.devRef .tc b) _ _ (List.forall_iff_forall_mem.mp (by
    simp only [hostOps0_3, List.Forall, StableHlo.unary_writes, StableHlo.binary_writes, Finset.mem_singleton]
    exact ⟨StableHlo.devRef_ne_of_ne h1, StableHlo.devRef_ne_of_ne h2⟩))

private theorem W6_of_ne (c : Dev nD) (b : Ref sig .tc) (h3 : b ≠ main_v3) (h4 : b ≠ main_v4) (h5 : b ≠ main_v5)
    (h6 : b ≠ main_v6) : W6 m ρ c (Proc.devRef .tc b) = W5 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h3, StableHlo.devRef_ne_of_ne h4, StableHlo.devRef_ne_of_ne h5,
      StableHlo.devRef_ne_of_ne h6⟩))

private theorem W8_of_ne (c : Dev nD) (b : Ref sig .tc) (h8 : b ≠ main_v8) (h9 : b ≠ main_v9) :
    W8 m ρ c (Proc.devRef .tc b) = W7 m ρ c (Proc.devRef .tc b) :=
  StableHlo.after_of_forall_not_mem (b := Proc.devRef .tc b) _ _ (List.forall_iff_forall_mem.mp (by
    simp only [hostOps2, List.Forall, StableHlo.unary_writes, Finset.mem_singleton]
    exact ⟨StableHlo.devRef_ne_of_ne h8, StableHlo.devRef_ne_of_ne h9⟩))

/-- A buffer none of the four stretches before region 0 writes is as launched at region 0's entry. -/
private theorem W4_launch (c : Dev nD) (b : Ref sig .tc) (h0 : b ≠ main_c) (h1 : b ≠ main_call0_v0) (h2 : b ≠ main_v0)
    (h3 : b ≠ main_c_0) (h4 : b ≠ main_call1_v0) (h5 : b ≠ main_v1) :
    W4 m ρ c (Proc.devRef .tc b) = m ((c : Thread nD τ).loc b) := by
  rw [W4_of_ne m ρ c b h4 h5, W3_of_ne m ρ c b h3, W2_of_ne m ρ c b h1 h2, W1_of_ne m ρ c b h0]

/-- The padding value both pads use: the integer zero converted. -/
private theorem sitofp_zero_f32 (j : S_.Idx) : sitofp (F := Ideal) .f32 (constantI S_ 32 0#32) j = (0 : EReal) := by
  show ((((0#32 : BitVec 32).toInt : ℤ) : ℝ) : EReal) = 0
  simp

private theorem W2_v0 (c : Dev nD) : (W2 m ρ c (Proc.devRef .tc main_v0) : S256x768.Idx → EReal)
    = pad S256x768 ![0, 0] ![56, 0] ![0, 0] (m ((c : Thread nD τ).loc main_arg2) : S200x768.Idx → EReal)
        (sitofp (F := Ideal) .f32 (constantI S_ 32 0#32)) pads_S200x768_S256x768_0560_000 h_S_ := by
  dsimp only [W2, W1]
  simp only [hostOps0_1, hostOps0]
  after_results
  rfl

private theorem W4_v1 (c : Dev nD) : (W4 m ρ c (Proc.devRef .tc main_v1) : S128x256.Idx → EReal)
    = pad S128x256 ![0, 0] ![0, 56] ![0, 0] (m ((c : Thread nD τ).loc main_arg3) : S128x200.Idx → EReal)
        (sitofp (F := Ideal) .f32 (constantI S_ 32 0#32)) pads_S128x200_S128x256_000_0560 h_S_ := by
  dsimp only [W4, W3]
  simp only [hostOps0_3, hostOps0_2]
  after_results
  rfl

/-- A buffer that is no array of region 0 and that no stretch before it writes is as launched at region 0's exit. -/
private theorem W5_launch (c : Dev nD) (b : Ref sig .tc) (hw : ∀ w, Pipeline.arrRef spec0 w ≠ b) (h0 : b ≠ main_c)
    (h1 : b ≠ main_call0_v0) (h2 : b ≠ main_v0) (h3 : b ≠ main_c_0) (h4 : b ≠ main_call1_v0) (h5 : b ≠ main_v1) :
    W5 m ρ c (Proc.devRef .tc b) = m ((c : Thread nD τ).loc b) :=
  (W5_of_ne m ρ c b hw).trans (W4_launch m ρ c b h0 h1 h2 h3 h4 h5)

/-- A one-axis array reshaped to one row, read at an index. -/
private theorem row_apply {a : ℕ} (x : (⟨1, ![a]⟩ : Shape).Idx → EReal) (h : (⟨1, ![a]⟩ : Shape).ShapeCasts ⟨2, ![1, a]⟩)
    (i : (⟨2, ![1, a]⟩ : Shape).Idx) : shapeCast ⟨2, ![1, a]⟩ x h i = x (ix1 ⟨(i 1).val, (i 1).isLt⟩) := by
  conv_lhs => rw [eq_ix2 i]
  exact shapeCast_a_1a_apply x h (i 0) (i 1)

/-! ## What region 0 finds -/

theorem V4_arg0 (c : Dev nD) : V4 m ρ c main_arg0 = m ((c : Thread nD τ).loc main_arg0) := by
  exact W4_launch m ρ c main_arg0 (by decide) (by decide) (by decide) (by decide) (by decide) (by decide)

theorem V4_arg1 (c : Dev nD) : V4 m ρ c main_arg1 = m ((c : Thread nD τ).loc main_arg1) := by
  exact W4_launch m ρ c main_arg1 (by decide) (by decide) (by decide) (by decide) (by decide) (by decide)

/-- The first projection matrix with 56 zero rows appended. -/
theorem V4_v0 (c : Dev nD) : (V4 m ρ c main_v0 : S256x768.Idx → EReal)
    = fun i => if h : (i 0).val < 200 then (m ((c : Thread nD τ).loc main_arg2) : S200x768.Idx → EReal) (ix2 ⟨(i 0).val, h⟩ ⟨(i 1).val, (i 1).isLt⟩) else (0 : EReal) := by
  have e : V4 m ρ c main_v0 = W2 m ρ c (Proc.devRef .tc main_v0) := by
    show W4 m ρ c (Proc.devRef .tc main_v0) = _
    rw [W4_of_ne m ρ c main_v0 (by decide) (by decide), W3_of_ne m ρ c main_v0 (by decide)]
  rw [e, W2_v0]
  funext i
  by_cases h : (i 0).val < 200
  · rw [dif_pos h]
    exact pad_apply_of_inside _ _ _ _ _ _ _ i _ (fun a => match a with
      | ⟨0, _⟩ => by show (i 0).val = 0 + (i 0).val * (0 + 1); omega
      | ⟨1, _⟩ => by show (i 1).val = 0 + (i 1).val * (0 + 1); omega)
  · rw [dif_neg h]
    rw [pad_apply_of_not_inside _ _ _ _ _ _ _ i (0 : Fin 2) (by
      show ¬(0 ≤ (i 0).val ∧ ((i 0).val - 0) % (0 + 1) = 0 ∧ ((i 0).val - 0) / (0 + 1) < 200)
      omega)]
    exact sitofp_zero_f32 _

/-- The second projection matrix with 56 zero columns appended. -/
theorem V4_v1 (c : Dev nD) : (V4 m ρ c main_v1 : S128x256.Idx → EReal)
    = fun i => if h : (i 1).val < 200 then (m ((c : Thread nD τ).loc main_arg3) : S128x200.Idx → EReal) (ix2 ⟨(i 0).val, (i 0).isLt⟩ ⟨(i 1).val, h⟩) else (0 : EReal) := by
  show (W4 m ρ c (Proc.devRef .tc main_v1) : S128x256.Idx → EReal) = _
  rw [W4_v1]
  funext i
  by_cases h : (i 1).val < 200
  · rw [dif_pos h]
    exact pad_apply_of_inside _ _ _ _ _ _ _ i _ (fun a => match a with
      | ⟨0, _⟩ => by show (i 0).val = 0 + (i 0).val * (0 + 1); omega
      | ⟨1, _⟩ => by show (i 1).val = 0 + (i 1).val * (0 + 1); omega)
  · rw [dif_neg h]
    rw [pad_apply_of_not_inside _ _ _ _ _ _ _ i (1 : Fin 2) (by
      show ¬(0 ≤ (i 1).val ∧ ((i 1).val - 0) % (0 + 1) = 0 ∧ ((i 1).val - 0) / (0 + 1) < 200)
      omega)]
    exact sitofp_zero_f32 _

/-! ## What region 1 finds -/

/-- Region 0's output array, as its write-backs left it. -/
theorem V6_v2 (c : Dev nD) : V6 m ρ c main_v2 = (dat0 (V4 m ρ) c).arrAt 4 cfg0.N := by
  show W6 m ρ c (Proc.devRef .tc main_v2) = _
  rw [W6_of_ne m ρ c main_v2 (by decide) (by decide) (by decide) (by decide)]
  exact W5_arr m ρ c 4

theorem V6_arg4 (c : Dev nD) : V6 m ρ c main_arg4 = m ((c : Thread nD τ).loc main_arg4) := by
  show W6 m ρ c (Proc.devRef .tc main_arg4) = _
  rw [W6_of_ne m ρ c main_arg4 (by decide) (by decide) (by decide) (by decide)]
  exact W5_launch m ρ c main_arg4 (by decide) (by decide) (by decide) (by decide) (by decide) (by decide) (by decide)

theorem V6_arg8 (c : Dev nD) : V6 m ρ c main_arg8 = m ((c : Thread nD τ).loc main_arg8) := by
  show W6 m ρ c (Proc.devRef .tc main_arg8) = _
  rw [W6_of_ne m ρ c main_arg8 (by decide) (by decide) (by decide) (by decide)]
  exact W5_launch m ρ c main_arg8 (by decide) (by decide) (by decide) (by decide) (by decide) (by decide) (by decide)

theorem V6_arg10 (c : Dev nD) : V6 m ρ c main_arg10 = m ((c : Thread nD τ).loc main_arg10) := by
  show W6 m ρ c (Proc.devRef .tc main_arg10) = _
  rw [W6_of_ne m ρ c main_arg10 (by decide) (by decide) (by decide) (by decide)]
  exact W5_launch m ρ c main_arg10 (by decide) (by decide) (by decide) (by decide) (by decide) (by decide) (by decide)

/-- The first bias as a one-row matrix. -/
theorem V6_v3 (c : Dev nD) : (V6 m ρ c main_v3 : S1x1024.Idx → EReal)
    = fun i => (m ((c : Thread nD τ).loc main_arg5) : S1024.Idx → EReal) (ix1 ⟨(i 1).val, (i 1).isLt⟩) := by
  have e : (V6 m ρ c main_v3 : S1x1024.Idx → EReal)
      = shapeCast S1x1024 (m ((c : Thread nD τ).loc main_arg5) : S1024.Idx → EReal) shapeCasts_S1024_S1x1024 := by
    dsimp only [V6, W6]
    simp only [hostOps1]
    after_results
    rw [W5_launch m ρ c main_arg5 (by decide) (by decide) (by decide) (by decide) (by decide) (by decide) (by decide)]
    rfl
  rw [e]
  funext i
  exact row_apply _ _ i

/-- The normalisation's scale as a one-row matrix. -/
theorem V6_v4 (c : Dev nD) : (V6 m ρ c main_v4 : S1x1024.Idx → EReal)
    = fun i => (m ((c : Thread nD τ).loc main_arg6) : S1024.Idx → EReal) (ix1 ⟨(i 1).val, (i 1).isLt⟩) := by
  have e : (V6 m ρ c main_v4 : S1x1024.Idx → EReal)
      = shapeCast S1x1024 (m ((c : Thread nD τ).loc main_arg6) : S1024.Idx → EReal) shapeCasts_S1024_S1x1024 := by
    dsimp only [V6, W6]
    simp only [hostOps1]
    after_results
    rw [W5_launch m ρ c main_arg6 (by decide) (by decide) (by decide) (by decide) (by decide) (by decide) (by decide)]
    rfl
  rw [e]
  funext i
  exact row_apply _ _ i

/-- The normalisation's shift as a one-row matrix. -/
theorem V6_v5 (c : Dev nD) : (V6 m ρ c main_v5 : S1x1024.Idx → EReal)
    = fun i => (m ((c : Thread nD τ).loc main_arg7) : S1024.Idx → EReal) (ix1 ⟨(i 1).val, (i 1).isLt⟩) := by
  have e : (V6 m ρ c main_v5 : S1x1024.Idx → EReal)
      = shapeCast S1x1024 (m ((c : Thread nD τ).loc main_arg7) : S1024.Idx → EReal) shapeCasts_S1024_S1x1024 := by
    dsimp only [V6, W6]
    simp only [hostOps1]
    after_results
    rw [W5_launch m ρ c main_arg7 (by decide) (by decide) (by decide) (by decide) (by decide) (by decide) (by decide)]
    rfl
  rw [e]
  funext i
  exact row_apply _ _ i

/-- The second bias as a one-row matrix. -/
theorem V6_v6 (c : Dev nD) : (V6 m ρ c main_v6 : S1x128.Idx → EReal)
    = fun i => (m ((c : Thread nD τ).loc main_arg9) : S128.Idx → EReal) (ix1 ⟨(i 1).val, (i 1).isLt⟩) := by
  have e : (V6 m ρ c main_v6 : S1x128.Idx → EReal)
      = shapeCast S1x128 (m ((c : Thread nD τ).loc main_arg9) : S128.Idx → EReal) shapeCasts_S128_S1x128 := by
    dsimp only [V6, W6]
    simp only [hostOps1]
    after_results
    rw [W5_launch m ρ c main_arg9 (by decide) (by decide) (by decide) (by decide) (by decide) (by decide) (by decide)]
    rfl
  rw [e]
  funext i
  exact row_apply _ _ i

/-! ## The results at the last boundary -/

theorem W8_v7_0 (c : Dev nD) : W8 m ρ c (Proc.devRef .tc main_v7_0) = (dat1 (V6 m ρ) c).arrAt 8 cfg1.N := by
  rw [W8_of_ne m ρ c main_v7_0 (by decide) (by decide)]
  exact W7_arr m ρ c 8

theorem W8_v7_1 (c : Dev nD) : W8 m ρ c (Proc.devRef .tc main_v7_1) = (dat1 (V6 m ρ) c).arrAt 9 cfg1.N := by
  rw [W8_of_ne m ρ c main_v7_1 (by decide) (by decide)]
  exact W7_arr m ρ c 9

/-- The last product repeated along the new axis. -/
theorem W8_v9 (c : Dev nD) : (W8 m ρ c (Proc.devRef .tc main_v9) : S64x256x200.Idx → EReal)
    = fun i => ((dat1 (V6 m ρ) c).arrAt 10 cfg1.N : S64x256.Idx → EReal) (ix2 ⟨(i 0).val, (i 0).isLt⟩ ⟨(i 1).val, (i 1).isLt⟩) := by
  have e : (W8 m ρ c (Proc.devRef .tc main_v9) : S64x256x200.Idx → EReal)
      = broadcastInDim S64x256x200 ![0, 1, 2] bcast_S64x256x1_S64x256x200_0_1_2
          (broadcastInDim S64x256x1 ![0, 1] bcast_S64x256_S64x256x1_0_1
            ((dat1 (V6 m ρ) c).arrAt 10 cfg1.N : S64x256.Idx → EReal)) := by
    have h10 : W7 m ρ c (Proc.devRef .tc main_v7_2) = (dat1 (V6 m ρ) c).arrAt 10 cfg1.N := W7_arr m ρ c 10
    dsimp only [W8]
    simp only [hostOps2]
    after_results
    rw [h10]
  rw [e]
  funext i
  rw [broadcastInDim_apply _ bcast_S64x256x1_S64x256x200_0_1_2 _ i (ix3 (i 0) (i 1) (0 : Fin 1)) (fun a => match a with
    | ⟨0, _⟩ => by show (i 0).val = if (64 : Nat) = 1 then 0 else (i 0).val; rw [if_neg (by decide)]
    | ⟨1, _⟩ => by show (i 1).val = if (256 : Nat) = 1 then 0 else (i 1).val; rw [if_neg (by decide)]
    | ⟨2, _⟩ => by show (0 : Nat) = if (1 : Nat) = 1 then 0 else (i 2).val; rw [if_pos rfl])]
  exact broadcastInDim_apply _ bcast_S64x256_S64x256x1_0_1 _ (ix3 (i 0) (i 1) (0 : Fin 1)) (ix2 (i 0) (i 1)) (fun a => match a with
    | ⟨0, _⟩ => by show (i 0).val = if (64 : Nat) = 1 then 0 else (i 0).val; rw [if_neg (by decide)]
    | ⟨1, _⟩ => by show (i 1).val = if (256 : Nat) = 1 then 0 else (i 1).val; rw [if_neg (by decide)])

end Cert.KernelIdeal.Glue

end
-- ==== Proof.RefTcca.lean ====
/-
  The reference's attention stage (its first 26 operations), read at an index.

  Read stage by stage at the coordinates of one batch row `b`: the projection of a position onto an attention unit and
  its tanh; the second projection matrix times the row's class weights; their contraction over the attention units,
  which is the score of a class at a position; the maximum of the scores over the classes (taking the maximum with
  the fold's starting value once more changes nothing); the shifted exponentials, their sum over the classes and the
  softmax weights; each class's weighted sum over the positions, summed over the classes and divided by their number;
  the mean of the slab over the positions; and the two halves laid side by side. A sum that starts from the zero
  word is the plain sum, and every layout operation reads its operand at the permuted or repeated coordinates.
-/
import proofs.«428937_j74302934221523_3_alg».proof.Proof.RefRead
import proofs.«428937_j74302934221523_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Idealize.SL.Sem

section Stages

variable (x0 : (⟨S64x512x768, .f32⟩ : BufTy).Contents (Elt Ideal)) (x1 : (⟨S64x128x200, .f32⟩ : BufTy).Contents (Elt Ideal))
  (x2 : (⟨S200x768, .f32⟩ : BufTy).Contents (Elt Ideal)) (x3 : (⟨S128x200, .f32⟩ : BufTy).Contents (Elt Ideal)) (b : Fin 64)

/-- Row `b` of the slab. -/
local notation "Xr" => (fun (c : Fin 512) (s : Fin 768) => x0 (ix3 b c s))
/-- Row `b` of the class weights. -/
local notation "Ωr" => (fun (k : Fin 128) (a : Fin 200) => x1 (ix3 b k a))
/-- The first projection matrix. -/
local notation "P1" => (fun (a : Fin 200) (s : Fin 768) => x2 (ix2 a s))
/-- The second projection matrix. -/
local notation "P2" => (fun (k : Fin 128) (a : Fin 200) => x3 (ix2 k a))
/-- Row `b` of the class scores. -/
local notation "Sc" => Spec.attn (na := 200) Xr Ωr P1 P2

/-! ## The scores -/

/-- The projection of position `c` onto attention unit `a`, before its tanh. -/
private theorem v0_at (c : Fin 512) (a : Fin 200) :
    val_main_v0 (F := Ideal) x0 x2 (ix3 b c a) = ∑ s : Fin 768, x0 (ix3 b c s) * x2 (ix2 a s) := by
  rw [val_main_v0_apply]
  refine Finset.sum_congr rfl fun s _ => ?_
  have el : lidx_main_v0 (ix3 b c a) s = ix3 b c s := funext fun d => by
    match d with
    | ⟨0, _⟩ => rfl
    | ⟨1, _⟩ => rfl
    | ⟨2, _⟩ => rfl
  have er : ridx_main_v0 (ix3 b c a) s = ix2 a s := funext fun d => by
    match d with
    | ⟨0, _⟩ => rfl
    | ⟨1, _⟩ => rfl
  rw [el, er]

/-- The tanh projection, with positions and attention units exchanged. -/
private theorem v2_at (a : Fin 200) (c : Fin 512) :
    val_main_v2 (F := Ideal) x0 x2 (ix3 b a c) = Spec.tproj Xr P1 c a := by
  rw [val_main_v2_apply, val_main_v1_apply]
  have e : idx_main_v1 (ix3 b a c) = ix3 b c a := funext fun d => by
    match d with
    | ⟨0, _⟩ => rfl
    | ⟨1, _⟩ => rfl
    | ⟨2, _⟩ => rfl
  rw [e, v0_at]
  rfl

/-- The second projection matrix, repeated over the rows, times the class weights. -/
private theorem v5_at (k : Fin 128) (a : Fin 200) :
    val_main_v5 (F := Ideal) x1 x3 (ix3 b k a) = x3 (ix2 k a) * x1 (ix3 b k a) := by
  rw [val_main_v5_apply, val_main_v4_apply, val_main_v3_apply]
  have e : idx_main_v3 (idx_main_v4 (ix3 b k a)) = ix2 k a := funext fun d => by
    match d with
    | ⟨0, _⟩ => rfl
    | ⟨1, _⟩ => rfl
  rw [e]
  rfl

/-- The class scores. -/
private theorem v6_at (k : Fin 128) (c : Fin 512) :
    val_main_v6 (F := Ideal) x0 x1 x2 x3 (ix3 b k c) = Sc k c := by
  rw [val_main_v6_apply]
  unfold Spec.attn
  refine Finset.sum_congr rfl fun a _ => ?_
  have el : lidx_main_v6 (ix3 b k c) a = ix3 b k a := funext fun d => by
    match d with
    | ⟨0, _⟩ => rfl
    | ⟨1, _⟩ => rfl
    | ⟨2, _⟩ => rfl
  have er : ridx_main_v6 (ix3 b k c) a = ix3 b a c := funext fun d => by
    match d with
    | ⟨0, _⟩ => rfl
    | ⟨1, _⟩ => rfl
    | ⟨2, _⟩ => rfl
  rw [el, er, v5_at, v2_at]

/-! ## The softmax over the classes -/

/-- The index over `(b, c)` with class coordinate `k`. -/
private theorem lift_cls (h : S64x128x512.Reduces [1] S64x512) (c : Fin 512) (k : Fin 128) :
    h.lift (ix2 b c) k = ix3 b k c := by
  funext d
  match d with
  | ⟨0, _⟩ => exact Fin.ext rfl
  | ⟨1, _⟩ => exact Fin.ext rfl
  | ⟨2, _⟩ => exact Fin.ext rfl

/-- The maximum of the scores over the classes. -/
private theorem v7_at (c : Fin 512) :
    val_main_v7 (F := Ideal) x0 x1 x2 x3 (ix2 b c) = Spec.amax Sc c := by
  have hR : S64x128x512.Reduces [1] S64x512 := by decide
  unfold val_main_v7
  refine (Host.reduce_eq_fold_single FloatOps.maximumf _ _ reducesTo_S64x128x512_S64x512_d1 hR h_S_ (ix2 b c)).trans ?_
  unfold Spec.amax
  refine congrArg (fun f => (Finset.univ : Finset (Fin 128)).fold max (Ideal.ofBits .f32 0xFF800000#32) f) ?_
  funext k
  exact (congrArg (val_main_v6 (F := Ideal) x0 x1 x2 x3) (lift_cls b hR c k)).trans (v6_at x0 x1 x2 x3 b k c)

/-- Taking the maximum with the starting value once more changes nothing. -/
private theorem v9_at (c : Fin 512) :
    val_main_v9 (F := Ideal) x0 x1 x2 x3 (ix2 b c) = Spec.amax Sc c := by
  rw [val_main_v9_apply, val_main_v8_apply, v7_at]
  show max (Ideal.ofBits .f32 0xFF800000#32) (Spec.amax Sc c) = Spec.amax Sc c
  refine max_eq_right ?_
  unfold Spec.amax
  exact (Finset.le_fold_max _).mpr (Or.inl le_rfl)

/-- The maximum, repeated over the classes. -/
private theorem v11_at (k : Fin 128) (c : Fin 512) :
    val_main_v11 (F := Ideal) x0 x1 x2 x3 (ix3 b k c) = Spec.amax Sc c := by
  rw [val_main_v11_apply, val_main_v10_apply]
  have e : idx_main_v10 (idx_main_v11 (ix3 b k c)) = ix2 b c := funext fun d => by
    match d with
    | ⟨0, _⟩ => rfl
    | ⟨1, _⟩ => rfl
  rw [e, v9_at]

/-- The shifted exponentials. -/
private theorem v13_at (k : Fin 128) (c : Fin 512) :
    val_main_v13 (F := Ideal) x0 x1 x2 x3 (ix3 b k c) = Spec.ew Sc k c := by
  rw [val_main_v13_apply, val_main_v12_apply, v6_at, v11_at]
  rfl

/-- The softmax's denominator. -/
private theorem v14_at (c : Fin 512) :
    val_main_v14 (F := Ideal) x0 x1 x2 x3 (ix2 b c) = Spec.esum Sc c := by
  rw [val_main_v14_apply, val_main_cst_1_apply, Ideal.ofBits_def, Ideal.ofBits_zero_f32, zero_add]
  unfold Spec.esum
  refine Finset.sum_congr rfl fun k _ => ?_
  have e : idx_main_v14 (ix2 b c) k = ix3 b k c := funext fun d => by
    match d with
    | ⟨0, _⟩ => rfl
    | ⟨1, _⟩ => rfl
    | ⟨2, _⟩ => rfl
  rw [e, v13_at]

/-- The denominator, repeated over the classes. -/
private theorem v16_at (k : Fin 128) (c : Fin 512) :
    val_main_v16 (F := Ideal) x0 x1 x2 x3 (ix3 b k c) = Spec.esum Sc c := by
  rw [val_main_v16_apply, val_main_v15_apply]
  have e : idx_main_v15 (idx_main_v16 (ix3 b k c)) = ix2 b c := funext fun d => by
    match d with
    | ⟨0, _⟩ => rfl
    | ⟨1, _⟩ => rfl
  rw [e, v14_at]

/-- The softmax weights. -/
private theorem v17_at (k : Fin 128) (c : Fin 512) :
    val_main_v17 (F := Ideal) x0 x1 x2 x3 (ix3 b k c) = Spec.aw Sc k c := by
  rw [val_main_v17_apply, v13_at, v16_at]
  rfl

/-! ## The attention output and the mean -/

/-- Each class's weighted sum over the positions. -/
private theorem v18_at (k : Fin 128) (s : Fin 768) :
    val_main_v18 (F := Ideal) x0 x1 x2 x3 (ix3 b k s) = ∑ c : Fin 512, Spec.aw Sc k c * x0 (ix3 b c s) := by
  rw [val_main_v18_apply]
  refine Finset.sum_congr rfl fun c _ => ?_
  have el : lidx_main_v18 (ix3 b k s) c = ix3 b k c := funext fun d => by
    match d with
    | ⟨0, _⟩ => rfl
    | ⟨1, _⟩ => rfl
    | ⟨2, _⟩ => rfl
  have er : ridx_main_v18 (ix3 b k s) c = ix3 b c s := funext fun d => by
    match d with
    | ⟨0, _⟩ => rfl
    | ⟨1, _⟩ => rfl
    | ⟨2, _⟩ => rfl
  rw [el, er, v17_at]

/-- Their sum over the classes. -/
private theorem v19_at (s : Fin 768) :
    val_main_v19 (F := Ideal) x0 x1 x2 x3 (ix2 b s)
      = ∑ k : Fin 128, ∑ c : Fin 512, Spec.aw Sc k c * x0 (ix3 b c s) := by
  rw [val_main_v19_apply, val_main_cst_2_apply, Ideal.ofBits_def, Ideal.ofBits_zero_f32, zero_add]
  refine Finset.sum_congr rfl fun k _ => ?_
  have e : idx_main_v19 (ix2 b s) k = ix3 b k s := funext fun d => by
    match d with
    | ⟨0, _⟩ => rfl
    | ⟨1, _⟩ => rfl
    | ⟨2, _⟩ => rfl
  rw [e, v18_at]

/-- The class-averaged attention output, contracted first. -/
private theorem v21_at (s : Fin 768) :
    val_main_v21 (F := Ideal) x0 x1 x2 x3 (ix2 b s) = Spec.aoRef Xr Sc s := by
  rw [val_main_v21_apply, v19_at, val_main_v20_apply, val_main_cst_3_apply]
  rfl

/-- The mean of the slab over the positions. -/
private theorem v24_at (s : Fin 768) :
    val_main_v24 (F := Ideal) x0 (ix2 b s) = Spec.xmean Xr s := by
  rw [val_main_v24_apply, val_main_v22_apply, val_main_cst_4_apply, Ideal.ofBits_def, Ideal.ofBits_zero_f32, zero_add,
    val_main_v23_apply, val_main_cst_5_apply]
  unfold Spec.xmean
  refine congrArg (fun t => Ideal.div t (Ideal.ofBits .f32 0x44000000#32)) (Finset.sum_congr rfl fun c _ => ?_)
  have e : idx_main_v22 (ix2 b s) c = ix3 b c s := funext fun d => by
    match d with
    | ⟨0, _⟩ => rfl
    | ⟨1, _⟩ => rfl
    | ⟨2, _⟩ => rfl
  rw [e]

/-! ## The two halves side by side -/

/-- Read in the first half. -/
private theorem cat_fst {α : Type} (y₁ y₂ : S64x768.Idx → α) (j : Fin 1536) (h : j.val < 768) :
    concatenate S64x1536 1 [⟨S64x768, y₁⟩, ⟨S64x768, y₂⟩] concatenates_S64x768_S64x768_S64x1536_d1 (ix2 b j)
      = y₁ (ix2 b (⟨j.val, h⟩ : Fin 768)) :=
  concatenate_pair_apply_left (t := S64x1536) (s₁ := S64x768) (s₂ := S64x768) 1 y₁ y₂ _ _ rfl (ix2 b (⟨j.val, h⟩ : Fin 768)) (by
    intro a
    match a with
    | ⟨0, _⟩ => rfl
    | ⟨1, _⟩ => rfl)

/-- Read in the second half. -/
private theorem cat_snd {α : Type} (y₁ y₂ : S64x768.Idx → α) (j : Fin 1536) (h : ¬ j.val < 768) :
    concatenate S64x1536 1 [⟨S64x768, y₁⟩, ⟨S64x768, y₂⟩] concatenates_S64x768_S64x768_S64x1536_d1 (ix2 b j)
      = y₂ (ix2 b (⟨j.val - 768, by omega⟩ : Fin 768)) :=
  concatenate_pair_apply_right (t := S64x1536) (s₁ := S64x768) (s₂ := S64x768) 1 y₁ y₂ _ _ rfl rfl
    (ix2 b (⟨j.val - 768, by omega⟩ : Fin 768)) (by
      intro a ha
      match a with
      | ⟨0, _⟩ => rfl
      | ⟨1, _⟩ => exact absurd rfl ha) (by show j.val - 768 + 768 = j.val; omega)

end Stages

/-- Row `b`, column `j` of the reference's classifier input is the specification's input row (contracted first) of that
    row's slab and that row's scores over the 200 attention units. -/
theorem v25_apply (x0 : (⟨S64x512x768, .f32⟩ : BufTy).Contents (Elt Ideal)) (x1 : (⟨S64x128x200, .f32⟩ : BufTy).Contents (Elt Ideal)) (x2 : (⟨S200x768, .f32⟩ : BufTy).Contents (Elt Ideal)) (x3 : (⟨S128x200, .f32⟩ : BufTy).Contents (Elt Ideal))
    (b : Fin 64) (j : Fin 1536) :
    val_main_v25 (F := Ideal) x0 x1 x2 x3 (ix2 b j)
      = Spec.liRef (fun c s => x0 (ix3 b c s))
          (Spec.attn (na := 200) (fun c s => x0 (ix3 b c s)) (fun k a => x1 (ix3 b k a))
            (fun a s => x2 (ix2 a s)) (fun k a => x3 (ix2 k a))) j := by
  unfold val_main_v25
  by_cases h : j.val < 768
  · -- the first half: the mean over the positions
    refine (cat_fst b _ _ j h).trans ?_
    refine (v24_at x0 b ⟨j.val, h⟩).trans ?_
    unfold Spec.liRef
    rw [dif_pos h]
  · -- the second half: the class average of the contracted softmax weights
    refine (cat_snd b _ _ j h).trans ?_
    refine (v21_at x0 x1 x2 x3 b ⟨j.val - 768, by omega⟩).trans ?_
    unfold Spec.liRef
    rw [dif_neg h]

end Cert.ReferenceIdeal.RefValue

end
-- ==== Proof.RefNorm.lean ====
/-
  The reference's first affine map, batch normalisation and rectifier, read at an index over the classifier's input.
-/
import proofs.«428937_j74302934221523_3_alg».proof.Proof.RefRead
import proofs.«428937_j74302934221523_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Idealize.SL.Sem

/-! ## The stages, each read at coordinates

  Throughout, `Z b h` is the first affine map of the classifier's input: `Σ_j L[b,j]·Wt[h,j] + bt[h]`. -/

section Stages

variable (x0 : (⟨S64x512x768, .f32⟩ : BufTy).Contents (Elt Ideal)) (x1 : (⟨S64x128x200, .f32⟩ : BufTy).Contents (Elt Ideal))
  (x2 : (⟨S200x768, .f32⟩ : BufTy).Contents (Elt Ideal)) (x3 : (⟨S128x200, .f32⟩ : BufTy).Contents (Elt Ideal))
  (x4 : (⟨S1024x1536, .f32⟩ : BufTy).Contents (Elt Ideal)) (x5 x6 x7 : (⟨S1024, .f32⟩ : BufTy).Contents (Elt Ideal))

/-- The first affine map of the classifier's input, over plain coordinates. -/
private abbrev Zr : Fin 64 → Fin 1024 → EReal :=
  Spec.fc (fun b j => val_main_v25 (F := Ideal) x0 x1 x2 x3 (ix2 b j)) (fun h j => x4 (ix2 h j)) (fun h => x5 (ix1 h))

/-- The matrix product with the transposed weights plus the bias, at `(b, h)`. -/
private theorem v30_at (b : Fin 64) (h : Fin 1024) :
    val_main_v30 (F := Ideal) x0 x1 x2 x3 x4 x5 (ix2 b h) = Zr x0 x1 x2 x3 x4 x5 b h := by
  rw [val_main_v30_apply, val_main_v27_apply, val_main_v29_apply, val_main_v28_apply]
  refine congrArg₂ (· + ·) (Finset.sum_congr rfl fun k _ => ?_) ?_
  · rw [val_main_v26_apply]
    refine congrArg₂ (· * ·) (congrArg (val_main_v25 (F := Ideal) x0 x1 x2 x3) ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x5 (funext fun a => Fin.ext (by match a with | ⟨0, _⟩ => rfl))

/-- The batch mean of hidden unit `h`: the sum over the 64 rows, from the zero word, divided by the word of 64. -/
private theorem v33_at (h : Fin 1024) :
    val_main_v33 (F := Ideal) x0 x1 x2 x3 x4 x5 (ix1 h) = Spec.mu (Zr x0 x1 x2 x3 x4 x5) h := by
  rw [val_main_v33_apply, val_main_v31_apply, val_main_v32_apply]
  unfold Spec.mu
  simp only [val_main_cst_6_apply, val_main_cst_7_apply, Ideal.ofBits_def, Ideal.ofBits_zero_f32, zero_add, Ideal.hostDivf_def]
  refine congrArg (fun t => Ideal.div t _) (Finset.sum_congr rfl fun k _ => ?_)
  exact (congrArg (val_main_v30 (F := Ideal) x0 x1 x2 x3 x4 x5)
    (funext fun a => Fin.ext (by match a with | ⟨0, _⟩ => rfl | ⟨1, _⟩ => rfl))).trans (v30_at x0 x1 x2 x3 x4 x5 k h)

/-- The mean repeated over the rows (its first use). -/
private theorem v35_at (b : Fin 64) (h : Fin 1024) :
    val_main_v35 (F := Ideal) x0 x1 x2 x3 x4 x5 (ix2 b h) = Spec.mu (Zr x0 x1 x2 x3 x4 x5) h := by
  rw [val_main_v35_apply, val_main_v34_apply]
  exact (congrArg (val_main_v33 (F := Ideal) x0 x1 x2 x3 x4 x5)
    (funext fun a => Fin.ext (by match a with | ⟨0, _⟩ => rfl))).trans (v33_at x0 x1 x2 x3 x4 x5 h)

/-- The mean repeated over the rows (its second use). -/
private theorem v42_at (b : Fin 64) (h : Fin 1024) :
    val_main_v42 (F := Ideal) x0 x1 x2 x3 x4 x5 (ix2 b h) = Spec.mu (Zr x0 x1 x2 x3 x4 x5) h := by
  rw [val_main_v42_apply, val_main_v41_apply]
  exact (congrArg (val_main_v33 (F := Ideal) x0 x1 x2 x3 x4 x5)
    (funext fun a => Fin.ext (by match a with | ⟨0, _⟩ => rfl))).trans (v33_at x0 x1 x2 x3 x4 x5 h)

/-- The batch variance of hidden unit `h`: the sum of the squared deviations over the 64 rows divided by the word of 64. -/
private theorem v40_at (h : Fin 1024) :
    val_main_v40 (F := Ideal) x0 x1 x2 x3 x4 x5 (ix1 h) = Spec.var (Zr x0 x1 x2 x3 x4 x5) h := by
  rw [val_main_v40_apply, val_main_v38_apply, val_main_v39_apply]
  unfold Spec.var
  simp only [val_main_cst_8_apply, val_main_cst_9_apply, Ideal.ofBits_def, Ideal.ofBits_zero_f32, zero_add, Ideal.hostDivf_def]
  refine congrArg (fun t => Ideal.div t _) (Finset.sum_congr rfl fun k _ => ?_)
  have e : idx_main_v38 (ix1 h) k = ix2 k h := funext fun a => Fin.ext (by match a with | ⟨0, _⟩ => rfl | ⟨1, _⟩ => rfl)
  rw [e, val_main_v37_apply, val_main_v36_apply, v30_at, v35_at]
  rfl

/-- The reciprocal square root of the variance plus the epsilon word, repeated over the rows. -/
private theorem v48_at (b : Fin 64) (h : Fin 1024) :
    val_main_v48 (F := Ideal) x0 x1 x2 x3 x4 x5 (ix2 b h)
      = Ideal.rsqrt (Spec.var (Zr x0 x1 x2 x3 x4 x5) h + Ideal.ofBits .f32 0x3727C5AC#32) := by
  rw [val_main_v48_apply, val_main_v47_apply]
  have e : idx_main_v47 (idx_main_v48 (ix2 b h)) = ix1 h := funext fun a => Fin.ext (by match a with | ⟨0, _⟩ => rfl)
  rw [e, val_main_v46_apply, val_main_v45_apply, val_main_v44_apply, v40_at]
  rfl

end Stages

/-- A vector `[1024]` given a leading unit axis and repeated over the rows: the scale. -/
private theorem v51_at (x6 : (⟨S1024, .f32⟩ : BufTy).Contents (Elt Ideal)) (b : Fin 64) (h : Fin 1024) :
    val_main_v51 (F := Ideal) x6 (ix2 b h) = x6 (ix1 h) := by
  rw [val_main_v51_apply, val_main_v50_apply]
  exact congrArg x6 (funext fun a => Fin.ext (by match a with | ⟨0, _⟩ => rfl))

/-- The same for the shift. -/
private theorem v54_at (x7 : (⟨S1024, .f32⟩ : BufTy).Contents (Elt Ideal)) (b : Fin 64) (h : Fin 1024) :
    val_main_v54 (F := Ideal) x7 (ix2 b h) = x7 (ix1 h) := by
  rw [val_main_v54_apply, val_main_v53_apply]
  exact congrArg x7 (funext fun a => Fin.ext (by match a with | ⟨0, _⟩ => rfl))

/-! ## The rectified, normalised hidden activations -/

/-- The rectified, normalised hidden activations. -/
theorem v56_apply (x0 : (⟨S64x512x768, .f32⟩ : BufTy).Contents (Elt Ideal)) (x1 : (⟨S64x128x200, .f32⟩ : BufTy).Contents (Elt Ideal)) (x2 : (⟨S200x768, .f32⟩ : BufTy).Contents (Elt Ideal)) (x3 : (⟨S128x200, .f32⟩ : BufTy).Contents (Elt Ideal))
    (x4 : (⟨S1024x1536, .f32⟩ : BufTy).Contents (Elt Ideal)) (x5 x6 x7 : (⟨S1024, .f32⟩ : BufTy).Contents (Elt Ideal)) (b : Fin 64) (h : Fin 1024) :
    val_main_v56 (F := Ideal) x0 x1 x2 x3 x4 x5 x6 x7 (ix2 b h)
      = Spec.relu (Spec.fc (fun b j => val_main_v25 (F := Ideal) x0 x1 x2 x3 (ix2 b j)) (fun h j => x4 (ix2 h j)) (fun h => x5 (ix1 h)))
          (fun h => x6 (ix1 h)) (fun h => x7 (ix1 h)) b h := by
  rw [val_main_v56_apply, val_main_v55_apply, val_main_v52_apply, val_main_v49_apply, val_main_v43_apply,
    val_main_call0_v0_apply, v30_at, v42_at, v48_at, v51_at, v54_at]
  unfold Spec.relu
  simp only [val_main_call0_cst_apply, Ideal.ofBits_def, Ideal.ofBits_zero_f32, Ideal.maximumf_def, Ideal.addf_def,
    Ideal.mulf_def, Ideal.subf_def]

end Cert.ReferenceIdeal.RefValue

end
-- ==== Proof.RefHead.lean ====
/-
  The reference's second affine map with its logistic, the last product and its repetition, read at an index over the hidden activations.
-/
import proofs.«428937_j74302934221523_3_alg».proof.Proof.RefRead
import proofs.«428937_j74302934221523_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Idealize.SL.Sem

/-- The word `0x3F800000` denotes one. -/
private theorem ofBits_one : Ideal.ofBits .f32 0x3F800000#32 = 1 := by
  simp [Ideal.ofBits, Ideal.ieee, -EReal.coe_mul]; norm_num

/-- The second affine map's left operand at `(b, k)`, contracted coordinate `h`: the activation at `(b, h)`. -/
private theorem lidx58_eq (b : Fin 64) (k : Fin 128) (h : Fin 1024) : lidx_main_v58 (ix2 b k) h = ix2 b h :=
  funext fun a => match a with | ⟨0, _⟩ => rfl | ⟨1, _⟩ => rfl
/-- Its right operand, through the transpose: the weight at `(k, h)`. -/
private theorem ridx58_eq (b : Fin 64) (k : Fin 128) (h : Fin 1024) : idx_main_v57 (ridx_main_v58 (ix2 b k) h) = ix2 k h :=
  funext fun a => match a with | ⟨0, _⟩ => rfl | ⟨1, _⟩ => rfl
/-- The bias, through its two broadcasts: the entry `k`. -/
private theorem idx60_eq (b : Fin 64) (k : Fin 128) : idx_main_v59 (idx_main_v60 (ix2 b k)) = ix1 k :=
  funext fun a => match a with | ⟨0, _⟩ => rfl
/-- The last product's left operand under the two repetitions: the score at `(b, k)`. -/
private theorem lidx68_eq (b : Fin 64) (n : Fin 256) (a : Fin 200) (k : Fin 128) :
    lidx_main_v68 (idx_main_v69 (idx_main_v70 (ix3 b n a))) k = ix2 b k :=
  funext fun c => match c with | ⟨0, _⟩ => rfl | ⟨1, _⟩ => rfl
/-- Its right operand: the matrix at `(k, n)`. -/
private theorem ridx68_eq (b : Fin 64) (n : Fin 256) (a : Fin 200) (k : Fin 128) :
    ridx_main_v68 (idx_main_v69 (idx_main_v70 (ix3 b n a))) k = ix2 k n :=
  funext fun c => match c with | ⟨0, _⟩ => rfl | ⟨1, _⟩ => rfl

/-- The class scores. -/
theorem v67_apply (x0 : (⟨S64x512x768, .f32⟩ : BufTy).Contents (Elt Ideal)) (x1 : (⟨S64x128x200, .f32⟩ : BufTy).Contents (Elt Ideal)) (x2 : (⟨S200x768, .f32⟩ : BufTy).Contents (Elt Ideal)) (x3 : (⟨S128x200, .f32⟩ : BufTy).Contents (Elt Ideal))
    (x4 : (⟨S1024x1536, .f32⟩ : BufTy).Contents (Elt Ideal)) (x5 x6 x7 : (⟨S1024, .f32⟩ : BufTy).Contents (Elt Ideal)) (x8 : (⟨S128x1024, .f32⟩ : BufTy).Contents (Elt Ideal)) (x9 : (⟨S128, .f32⟩ : BufTy).Contents (Elt Ideal)) (b : Fin 64) (k : Fin 128) :
    val_main_v67 (F := Ideal) x0 x1 x2 x3 x4 x5 x6 x7 x8 x9 (ix2 b k)
      = Spec.score (fun b h => val_main_v56 (F := Ideal) x0 x1 x2 x3 x4 x5 x6 x7 (ix2 b h)) (fun k h => x8 (ix2 k h)) (fun k => x9 (ix1 k)) b k := by
  -- read the quotient, the sum with one, the exponential, the negation, the biased product, one stage at a time
  rw [val_main_v67_apply, val_main_v66_apply, val_main_cst_12_apply, val_main_v65_apply, val_main_v64_apply,
    val_main_cst_11_apply, val_main_v63_apply, val_main_v62_apply, val_main_v61_apply, val_main_v58_apply,
    val_main_v60_apply, val_main_v59_apply]
  -- the operands at the literal coordinates; the operations at the ideal values; the word for one
  simp only [val_main_v57_apply, lidx58_eq, ridx58_eq, idx60_eq, Ideal.hostDivf_def, Ideal.ofBits_def, Ideal.addf_def,
    Ideal.hostUnary_exp_def, Ideal.hostNegf_def, Ideal.negf_def, ofBits_one]
  rfl

/-- The last product, repeated along the 200 attention units. -/
theorem v70_apply (x0 : (⟨S64x512x768, .f32⟩ : BufTy).Contents (Elt Ideal)) (x1 : (⟨S64x128x200, .f32⟩ : BufTy).Contents (Elt Ideal)) (x2 : (⟨S200x768, .f32⟩ : BufTy).Contents (Elt Ideal)) (x3 : (⟨S128x200, .f32⟩ : BufTy).Contents (Elt Ideal))
    (x4 : (⟨S1024x1536, .f32⟩ : BufTy).Contents (Elt Ideal)) (x5 x6 x7 : (⟨S1024, .f32⟩ : BufTy).Contents (Elt Ideal)) (x8 : (⟨S128x1024, .f32⟩ : BufTy).Contents (Elt Ideal)) (x9 : (⟨S128, .f32⟩ : BufTy).Contents (Elt Ideal)) (x10 : (⟨S128x256, .f32⟩ : BufTy).Contents (Elt Ideal))
    (b : Fin 64) (n : Fin 256) (a : Fin 200) :
    val_main_v70 (F := Ideal) x0 x1 x2 x3 x4 x5 x6 x7 x8 x9 x10 (ix3 b n a)
      = Spec.qh (fun b k => val_main_v67 (F := Ideal) x0 x1 x2 x3 x4 x5 x6 x7 x8 x9 (ix2 b k)) (fun k n => x10 (ix2 k n)) b n := by
  -- the two repetitions read the product at `(b, n)`; the product is the sum over the classes
  rw [val_main_v70_apply, val_main_v69_apply, val_main_v68_apply]
  simp only [lidx68_eq, ridx68_eq]
  rfl

end Cert.ReferenceIdeal.RefValue

end
-- ==== Proof.Law.lean ====
/-
  The algebra that joins the two programs' attention stages.
-/
import proofs.«428937_j74302934221523_3_alg».proof.Proof.Spec
import Idealize.ShloMosaic.PureOps.Ideal
import Idealize.ShloMosaic.PureOps.Ideal.Laws

noncomputable section

namespace Cert.Spec

open Idealize.ShloMosaic

/-! ## Extended reals that are reals -/

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

private theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

private theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

private theorem real_tanh {x : EReal} (hx : ∃ r : ℝ, x = (r : EReal)) : ∃ r : ℝ, Ideal.tanh x = (r : EReal) := by
  obtain ⟨a, rfl⟩ := hx
  exact ⟨Real.tanh a, Ideal.tanh_coe a⟩

/-! ## The padded attention units -/

/-- A sum over `Fin m` whose terms vanish from `n` on is the sum of its first `n` terms. -/
private theorem sum_pad {n m : Nat} (h : n ≤ m) (f : Fin m → EReal) (hf : ∀ a : Fin m, n ≤ a.val → f a = 0) :
    ∑ a : Fin m, f a = ∑ a : Fin n, f (Fin.castLE h a) := by
  obtain ⟨d, rfl⟩ := Nat.exists_eq_add_of_le h
  rw [Fin.sum_trunc f (fun j => hf _ (by simp [Fin.natAdd]))]
  rfl

/-- Attention units 200 … 255 carry zero class weights (in `W2` and in `ωr`) and a zero projection row: the scores over
    256 padded units are the scores over the 200 real ones. -/
theorem attn_pad (xr : Fin 512 → Fin 768 → EReal) (ωr : Fin 128 → Fin 200 → EReal) (W1 : Fin 200 → Fin 768 → EReal)
    (W2 : Fin 128 → Fin 200 → EReal) :
    attn (na := 256) xr (fun k a => if h : a.val < 200 then ωr k ⟨a.val, h⟩ else 0)
        (fun a s => if h : a.val < 200 then W1 ⟨a.val, h⟩ s else 0)
        (fun k a => if h : a.val < 200 then W2 k ⟨a.val, h⟩ else 0)
      = attn (na := 200) xr ωr W1 W2 := by
  funext k c
  unfold attn
  rw [sum_pad (by norm_num : 200 ≤ 256)]
  · refine Finset.sum_congr rfl (fun a _ => ?_)
    have ha : (Fin.castLE (by norm_num : 200 ≤ 256) a).val < 200 := a.isLt
    simp only [tproj, dif_pos ha]
    rfl
  · intro a ha
    have hn : ¬ a.val < 200 := by omega
    simp only [dif_neg hn, mul_zero, zero_mul]

/-- Finite inputs give finite scores. -/
theorem attn_real {na : Nat} (xr : Fin 512 → Fin 768 → EReal) (ωr : Fin 128 → Fin na → EReal) (W1 : Fin na → Fin 768 → EReal)
    (W2 : Fin 128 → Fin na → EReal) (hx : ∀ c s, ∃ r : ℝ, xr c s = (r : EReal)) (hω : ∀ k a, ∃ r : ℝ, ωr k a = (r : EReal))
    (hW1 : ∀ a s, ∃ r : ℝ, W1 a s = (r : EReal)) (hW2 : ∀ k a, ∃ r : ℝ, W2 k a = (r : EReal)) :
    ∀ k c, ∃ r : ℝ, attn xr ωr W1 W2 k c = (r : EReal) := by
  intro k c
  unfold attn
  refine real_sum _ _ (fun a => real_mul (real_mul (hW2 k a) (hω k a)) ?_)
  unfold tproj
  exact real_tanh (real_sum _ _ (fun s => real_mul (hx c s) (hW1 a s)))

/-! ## The softmax over finite scores -/

/-- The maximum's starting word is minus infinity. -/
private theorem ofBits_ninf : Ideal.ofBits .f32 0xFF800000#32 = ⊥ := by
  simp [Ideal.ofBits, Ideal.ieee]

/-- The class count's word is the real 128. -/
private theorem ofBits_128 : Ideal.ofBits .f32 0x43000000#32 = ((128 : ℝ) : EReal) := by
  simp [Ideal.ofBits, Ideal.ieee, -EReal.coe_mul]; norm_num

/-- The fold of `max` from `⊥` over a nonempty family of reals is one of them, hence a real. -/
private theorem fold_real {ι : Type*} (s : Finset ι) (hs : s.Nonempty) (f : ι → EReal)
    (h : ∀ i, ∃ r : ℝ, f i = (r : EReal)) : ∃ r : ℝ, s.fold max ⊥ f = (r : EReal) := by
  obtain ⟨i, _, hi⟩ := Finset.exists_mem_eq_sup s hs f
  obtain ⟨r, hr⟩ := h i
  exact ⟨r, by rw [← hr, ← hi]; rfl⟩

private theorem amax_real (A : Fin 128 → Fin 512 → EReal) (hA : ∀ k c, ∃ r : ℝ, A k c = (r : EReal)) (c : Fin 512) :
    ∃ r : ℝ, amax A c = (r : EReal) := by
  unfold amax
  rw [ofBits_ninf]
  exact fold_real _ Finset.univ_nonempty _ (fun k => hA k c)

/-- A shifted exponential of finite scores is a positive real. -/
private theorem ew_pos (A : Fin 128 → Fin 512 → EReal) (hA : ∀ k c, ∃ r : ℝ, A k c = (r : EReal)) (k : Fin 128)
    (c : Fin 512) : ∃ r : ℝ, 0 < r ∧ ew A k c = (r : EReal) := by
  obtain ⟨a, ha⟩ := hA k c
  obtain ⟨m, hm⟩ := amax_real A hA c
  refine ⟨Real.exp (a - m), Real.exp_pos _, ?_⟩
  unfold ew
  rw [ha, hm, ← EReal.coe_sub, Ideal.exp_coe]

/-- The softmax's denominator is a positive real. -/
private theorem esum_pos (A : Fin 128 → Fin 512 → EReal) (hA : ∀ k c, ∃ r : ℝ, A k c = (r : EReal)) (c : Fin 512) :
    ∃ r : ℝ, 0 < r ∧ esum A c = (r : EReal) := by
  choose e he0 he using fun k => ew_pos A hA k c
  refine ⟨∑ k, e k, Finset.sum_pos (fun k _ => he0 k) Finset.univ_nonempty, ?_⟩
  unfold esum
  rw [coe_sum]
  exact Finset.sum_congr rfl (fun k _ => he k)

/-- The softmax weights are reals. -/
private theorem aw_real (A : Fin 128 → Fin 512 → EReal) (hA : ∀ k c, ∃ r : ℝ, A k c = (r : EReal)) (k : Fin 128)
    (c : Fin 512) : ∃ r : ℝ, aw A k c = (r : EReal) := by
  obtain ⟨e, _, he⟩ := ew_pos A hA k c
  obtain ⟨d, hd0, hd⟩ := esum_pos A hA c
  refine ⟨e * (1 / d), ?_⟩
  unfold aw
  rw [he, hd, Ideal.div_coe hd0.ne', ← EReal.coe_mul]

/-- Over reals the two orders of averaging agree: the average is linear. -/
private theorem ao_real (X : Fin 512 → ℝ) (W : Fin 128 → Fin 512 → ℝ) (t : ℝ) :
    ∑ c : Fin 512, X c * ((∑ k : Fin 128, W k c) * t) = (∑ k : Fin 128, ∑ c : Fin 512, W k c * X c) * t := by
  rw [Finset.sum_comm, Finset.sum_mul]
  refine Finset.sum_congr rfl (fun c _ => ?_)
  rw [← Finset.sum_mul]
  ring

/-- Over finite slabs and finite scores the two class-averaged attention outputs agree. -/
private theorem aoKer_eq_aoRef (xr : Fin 512 → Fin 768 → EReal) (A : Fin 128 → Fin 512 → EReal)
    (hx : ∀ c s, ∃ r : ℝ, xr c s = (r : EReal)) (hA : ∀ k c, ∃ r : ℝ, A k c = (r : EReal)) (s : Fin 768) :
    aoKer xr A s = aoRef xr A s := by
  choose X hX using hx
  choose W hW using fun k c => aw_real A hA k c
  unfold aoKer aoRef
  simp only [hX, hW, ofBits_128, Ideal.div_coe (by norm_num : (128 : ℝ) ≠ 0), ← coe_sum, ← EReal.coe_mul]
  rw [ao_real (fun c => X c s) W (1 / 128)]

/-- Over finite slabs and finite scores, averaging the softmax weights over the classes before contracting with the
    slab, or contracting first and averaging afterwards, is the same: the input rows agree. -/
theorem liKer_eq_liRef (xr : Fin 512 → Fin 768 → EReal) (A : Fin 128 → Fin 512 → EReal)
    (hx : ∀ c s, ∃ r : ℝ, xr c s = (r : EReal)) (hA : ∀ k c, ∃ r : ℝ, A k c = (r : EReal)) :
    liKer xr A = liRef xr A := by
  funext j
  unfold liKer liRef
  by_cases h : j.val < 768
  · simp only [dif_pos h]
  · simp only [dif_neg h]
    exact aoKer_eq_aoRef xr A hx hA _

end Cert.Spec

end
-- ==== Proof.Finite.lean ====
/-
  The precondition read back: where the finiteness predicate of the eleven inputs is all ones, the four inputs of
  the attention stage hold real numbers everywhere.
-/
import proofs.«428937_j74302934221523_3_alg».proof.Pre_finite_inputs
import proofs.«428937_j74302934221523_3_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx

variable [Cert.Pre_finite_inputs.Facts]

/-- The bit pattern of the f32 positive infinity is the top of the extended reals. -/
private theorem ofBits_inf : Ideal.ofBits .f32 0x7F800000#32 = (⊤ : EReal) := by
  simp [Ideal.ofBits, Ideal.ieee]

/-- An extended real whose absolute value `max x (-x)` lies strictly below `⊤` is a real number. -/
private theorem real_of_abs_lt_top (x : EReal) (hx : max x (-x) < ⊤) : ∃ r : ℝ, x = (r : EReal) := by
  induction x using EReal.rec with
  | bot => simp at hx
  | coe r => exact ⟨r, rfl⟩
  | top => simp at hx

/-- The result shape of a total reduction has exactly one index. -/
private instance : Subsingleton S_.Idx := ⟨fun a b => funext fun d => d.elim0⟩

/-- One input's printed test `all (|x| < +∞)`: where its bit is one, every entry of `x` is a real number. -/
private theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1) :
    ∀ i, ∃ r : ℝ, x i = (r : EReal) := by
  intro i
  have hi := Host.reduce_andi_all _ _ hr hu ix0 e i
  -- at the entry the test reads `cmp (<) (max (x i) (-(x i))) (+∞)`
  have hi' : Ideal.cmp .olt (max (x i) (-(x i))) (Ideal.ofBits .f32 0x7F800000#32) = 1#1 := hi
  rw [ofBits_inf] at hi'
  unfold Ideal.cmp at hi'
  apply real_of_abs_lt_top
  by_contra hn
  simp [hn] at hi'

/-- Every entry of the slab, of the class weights and of the two projection matrices is a real number. -/
theorem real_of_pre (a0 : FVec Ideal S64x512x768 .f32) (a1 : FVec Ideal S64x128x200 .f32) (a2 : FVec Ideal S200x768 .f32)
    (a3 : FVec Ideal S128x200 .f32) (a4 : FVec Ideal S1024x1536 .f32) (a5 a6 a7 : FVec Ideal S1024 .f32)
    (a8 : FVec Ideal S128x1024 .f32) (a9 : FVec Ideal S128 .f32) (a10 : FVec Ideal S128x256 .f32)
    (h : fn (F := Ideal) a0 a1 a2 a3 a4 a5 a6 a7 a8 a9 a10 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [fn, fn_part1, fn_part2, fn_part3] at h0
  -- the eleven tests are joined by `and` in a left-nested chain: peel it from the outside in
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3⟩

end Cert.Pre_finite_inputs.Finite

end
-- ==== Proof.Bridge.lean ====
/-
  The two programs compute the same three arrays.

  The kernel program: region 0 leaves the classifier's input (row by row the specification's input row with the softmax
  weights averaged over the classes first, over the projection matrices padded by zeros to 256 attention units);
  region 1 leaves the hidden activations, the class scores and the last product of that input; the host repeats the
  last product along a new axis. The reference computes the same chain over the unpadded matrices, contracting with
  the slab before averaging over the classes. The zero padding adds only zero terms to the scores; and since the
  inputs are finite, the softmax weights are real numbers, so averaging them before or after the contraction is
  the same by distributivity. Everything after the classifier's input is the same function on both sides.
-/
import proofs.«428937_j74302934221523_3_alg».proof.Proof.KernelRun
import proofs.«428937_j74302934221523_3_alg».proof.Proof.Region0
import proofs.«428937_j74302934221523_3_alg».proof.Proof.Region1
import proofs.«428937_j74302934221523_3_alg».proof.Proof.Glue
import proofs.«428937_j74302934221523_3_alg».proof.Proof.RefRun
import proofs.«428937_j74302934221523_3_alg».proof.Proof.RefRead
import proofs.«428937_j74302934221523_3_alg».proof.Proof.RefTcca
import proofs.«428937_j74302934221523_3_alg».proof.Proof.RefNorm
import proofs.«428937_j74302934221523_3_alg».proof.Proof.RefHead
import proofs.«428937_j74302934221523_3_alg».proof.Proof.Law
import proofs.«428937_j74302934221523_3_alg».proof.Proof.Finite
import proofs.«428937_j74302934221523_3_alg».proof.Proof.Spec
import proofs.«428937_j74302934221523_3_alg».proof.Defs
import proofs.«428937_j74302934221523_3_alg».proof.Proof.Gen.Pre_finite_inputs
import Idealize.ShloMosaic.Lib.ValueIdx

set_option maxRecDepth 16384

noncomputable section

namespace Cert.Proof.Bridge

open Idealize.ShloMosaic Idealize.ShloMosaic.ValueIdx Idealize.ShloMosaic.TcCoe Idealize.SL.Sem
open Cert.KernelIdeal (S64x512x768 S64x128x200 S200x768 S128x200 S1024x1536 S1024 S128x1024 S128 S128x256 S256x768 S64x1536 S1x1024 S1x128 S64x128 S64x1024 S64x256 S64x256x200)

/-! ## The layout steps of the kernel program's host side, as functions -/

/-- 56 zero rows appended. -/
def pad1 (W1 : FVec Ideal S200x768 .f32) : FVec Ideal S256x768 .f32 :=
  fun i => if h : (i 0).val < 200 then W1 (ix2 ⟨(i 0).val, h⟩ ⟨(i 1).val, (i 1).isLt⟩) else (0 : EReal)

/-- 56 zero columns appended. -/
def pad2 (W2 : FVec Ideal S128x200 .f32) : FVec Ideal S128x256 .f32 :=
  fun i => if h : (i 1).val < 200 then W2 (ix2 ⟨(i 0).val, (i 0).isLt⟩ ⟨(i 1).val, h⟩) else (0 : EReal)

/-- A vector of 1024 as a one-row matrix. -/
def row1024 (v : FVec Ideal S1024 .f32) : FVec Ideal S1x1024 .f32 := fun i => v (ix1 ⟨(i 1).val, (i 1).isLt⟩)

/-- A vector of 128 as a one-row matrix. -/
def row128 (v : FVec Ideal S128 .f32) : FVec Ideal S1x128 .f32 := fun i => v (ix1 ⟨(i 1).val, (i 1).isLt⟩)

/-- A matrix repeated along a new last axis of 200. -/
def rep200 (q : FVec Ideal S64x256 .f32) : FVec Ideal S64x256x200 .f32 :=
  fun i => q (ix2 ⟨(i 0).val, (i 0).isLt⟩ ⟨(i 1).val, (i 1).isLt⟩)

/-! ## The three results as functions of the eleven arguments -/

section Values

variable (X : FVec Ideal S64x512x768 .f32) (Ω : FVec Ideal S64x128x200 .f32) (W1 : FVec Ideal S200x768 .f32)
  (W2 : FVec Ideal S128x200 .f32) (Wt : FVec Ideal S1024x1536 .f32) (bt ga be : FVec Ideal S1024 .f32)
  (Wl : FVec Ideal S128x1024 .f32) (bl : FVec Ideal S128 .f32) (Gh : FVec Ideal S128x256 .f32)

/-- The classifier's input. -/
def li : FVec Ideal S64x1536 .f32 := Cert.KernelIdeal.Region0.G X Ω (pad1 W1) (pad2 W2)

/-- The hidden activations. -/
def hid : FVec Ideal S64x1024 .f32 :=
  Cert.KernelIdeal.Region1.Relu (li X Ω W1 W2) Wt (row1024 bt) (row1024 ga) (row1024 be)

/-- The class scores. -/
def sco : FVec Ideal S64x128 .f32 := Cert.KernelIdeal.Region1.Score (hid X Ω W1 W2 Wt bt ga be) Wl (row128 bl)

/-- The last product, repeated. -/
def nxt : FVec Ideal S64x256x200 .f32 :=
  rep200 (Cert.KernelIdeal.Region1.Q (sco X Ω W1 W2 Wt bt ga be Wl bl) Gh)

/-! ## The reference's stages are these functions -/

variable (hX : ∀ i, ∃ r : ℝ, X i = (r : EReal)) (hΩ : ∀ i, ∃ r : ℝ, Ω i = (r : EReal))
  (hW1 : ∀ i, ∃ r : ℝ, W1 i = (r : EReal)) (hW2 : ∀ i, ∃ r : ℝ, W2 i = (r : EReal))

include hX hΩ hW1 hW2 in
/-- Row by row the two programs' classifier inputs agree: the padded attention units add zero terms to the scores, and
    over real softmax weights the class average commutes with the contraction. -/
theorem li_eq (b : Fin 64) (j : Fin 1536) :
    li X Ω W1 W2 (ix2 b j) = Cert.ReferenceIdeal.ReadP.val_main_v25 (F := Ideal) X Ω W1 W2 (ix2 b j) := by
  rw [Cert.ReferenceIdeal.RefValue.v25_apply]
  show Cert.KernelIdeal.Region0.Grow X Ω (pad1 W1) (pad2 W2) b j = _
  unfold Cert.KernelIdeal.Region0.Grow
  have hp := Cert.Spec.attn_pad (fun c s => X (ix3 b c s)) (fun k a => Ω (ix3 b k a)) (fun a s => W1 (ix2 a s)) (fun k a => W2 (ix2 k a))
  have hp' : Cert.Spec.attn (na := 256) (fun c s => X (ix3 b c s))
      (fun k a => if h : a.val < 200 then Ω (ix3 b k ⟨a.val, h⟩) else 0)
      (fun a s => pad1 W1 (ix2 a s)) (fun k a => pad2 W2 (ix2 k a))
      = Cert.Spec.attn (na := 200) (fun c s => X (ix3 b c s)) (fun k a => Ω (ix3 b k a)) (fun a s => W1 (ix2 a s)) (fun k a => W2 (ix2 k a)) := hp
  rw [hp']
  have hA := Cert.Spec.attn_real (na := 200) (fun c s => X (ix3 b c s)) (fun k a => Ω (ix3 b k a)) (fun a s => W1 (ix2 a s)) (fun k a => W2 (ix2 k a))
    (fun c s => hX _) (fun k a => hΩ _) (fun a s => hW1 _) (fun k a => hW2 _)
  rw [Cert.Spec.liKer_eq_liRef _ _ (fun c s => hX _) hA]

include hX hΩ hW1 hW2 in
theorem ref_hid : Cert.ReferenceIdeal.ReadP.val_main_v56 (F := Ideal) X Ω W1 W2 Wt bt ga be = hid X Ω W1 W2 Wt bt ga be := by
  refine funext fun (i : S64x1024.Idx) => ?_
  obtain ⟨b, h, rfl⟩ : ∃ (b : Fin 64) (h : Fin 1024), i = ix2 b h := ⟨i 0, i 1, eq_ix2 i⟩
  rw [Cert.ReferenceIdeal.RefValue.v56_apply]
  have e : (fun (b : Fin 64) (j : Fin 1536) => Cert.ReferenceIdeal.ReadP.val_main_v25 (F := Ideal) X Ω W1 W2 (ix2 b j))
      = (fun b j => li X Ω W1 W2 (ix2 b j)) := funext fun b => funext fun j => (li_eq X Ω W1 W2 hX hΩ hW1 hW2 b j).symm
  rw [e]
  rfl

include hX hΩ hW1 hW2 in
theorem ref_sco : Cert.ReferenceIdeal.ReadP.val_main_v67 (F := Ideal) X Ω W1 W2 Wt bt ga be Wl bl = sco X Ω W1 W2 Wt bt ga be Wl bl := by
  refine funext fun (i : S64x128.Idx) => ?_
  obtain ⟨b, k, rfl⟩ : ∃ (b : Fin 64) (k : Fin 128), i = ix2 b k := ⟨i 0, i 1, eq_ix2 i⟩
  rw [Cert.ReferenceIdeal.RefValue.v67_apply, ref_hid X Ω W1 W2 Wt bt ga be hX hΩ hW1 hW2]
  rfl

include hX hΩ hW1 hW2 in
theorem ref_nxt : Cert.ReferenceIdeal.ReadP.val_main_v70 (F := Ideal) X Ω W1 W2 Wt bt ga be Wl bl Gh = nxt X Ω W1 W2 Wt bt ga be Wl bl Gh := by
  refine funext fun (i : S64x256x200.Idx) => ?_
  obtain ⟨b, n, a, rfl⟩ : ∃ (b : Fin 64) (n : Fin 256) (a : Fin 200), i = ix3 b n a := ⟨i 0, i 1, i 2, eq_ix3 i⟩
  rw [Cert.ReferenceIdeal.RefValue.v70_apply, ref_sco X Ω W1 W2 Wt bt ga be Wl bl hX hΩ hW1 hW2]
  rfl

end Values

/-! ## The kernel program's results at the last boundary are these functions -/

section Kernel

open Cert.KernelIdeal Cert.KernelIdeal.Gen

variable (m : (ℓ : Loc nD τ sig) → Buf (Elt Ideal) ℓ) (ρ : Dev nD → PrngReg)

theorem kernel_li (c : Dev nD) : (dat0 (V4 m ρ) c).arrAt 4 cfg0.N
    = li (m ((c.tc : Thread nD τ).loc main_arg0)) (m ((c.tc : Thread nD τ).loc main_arg1)) (m ((c.tc : Thread nD τ).loc main_arg2)) (m ((c.tc : Thread nD τ).loc main_arg3)) := by
  rw [Region0.final (V4 m ρ) c, Glue.V4_arg0 m ρ c, Glue.V4_arg1 m ρ c, Glue.V4_v0 m ρ c, Glue.V4_v1 m ρ c]
  rfl

theorem kernel_hid (c : Dev nD) : (dat1 (V6 m ρ) c).arrAt 9 cfg1.N
    = hid (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  rw [Region1.final9 (V6 m ρ) c, Glue.V6_v2 m ρ c, kernel_li m ρ c, Glue.V6_arg4 m ρ c, Glue.V6_v3 m ρ c, Glue.V6_v4 m ρ c, Glue.V6_v5 m ρ c]
  rfl

theorem kernel_sco (c : Dev nD) : (dat1 (V6 m ρ) c).arrAt 8 cfg1.N
    = sco (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  rw [Region1.final8 (V6 m ρ) c, Glue.V6_v2 m ρ c, kernel_li m ρ c, Glue.V6_arg4 m ρ c, Glue.V6_v3 m ρ c, Glue.V6_v4 m ρ c, Glue.V6_v5 m ρ c,
    Glue.V6_arg8 m ρ c, Glue.V6_v6 m ρ c]
  rfl

theorem kernel_q (c : Dev nD) : (dat1 (V6 m ρ) c).arrAt 10 cfg1.N
    = Region1.Q (sco (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))) (m ((c.tc : Thread nD τ).loc main_arg10)) := by
  rw [Region1.final10 (V6 m ρ) c, Glue.V6_v2 m ρ c, kernel_li m ρ c, Glue.V6_arg4 m ρ c, Glue.V6_v3 m ρ c, Glue.V6_v4 m ρ c, Glue.V6_v5 m ρ c,
    Glue.V6_arg8 m ρ c, Glue.V6_v6 m ρ c, Glue.V6_arg10 m ρ c]
  rfl

end Kernel

/-! ## The claim -/

/-- From memories agreeing on the arguments both programs end with the class scores, the hidden activations and
    the repeated last product of the arguments. -/
theorem algebraic : Cert.algebraic_KernelIdeal_ReferenceIdeal := by
  intro m ρ m' ρ' hpre hagree
  refine ⟨fun c => sco (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => hid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => nxt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.GenRun.run (F := Ideal) m ρ)
    refine ⟨(h c).1.trans ?_, (h c).2.1.trans ?_, (h c).2.2.1.trans ?_, (h c).2.2.2⟩
    · exact (Cert.KernelIdeal.Glue.W8_v7_0 m ρ c).trans (kernel_sco m ρ c)
    · exact (Cert.KernelIdeal.Glue.W8_v7_1 m ρ c).trans (kernel_hid m ρ c)
    · refine (Cert.KernelIdeal.Glue.W8_v9 m ρ c).trans ?_
      rw [kernel_q m ρ c]
      rfl
  · refine (θ_run Cert.ReferenceIdeal.defs _ _).mono (fun r h c => ?_) (Cert.ReferenceIdeal.ValueP.run (F := Ideal) m' ρ')
    obtain ⟨a0, a1, a2, a3, a4, a5, a6, a7, a8, a9, a10⟩ := hagree c
    obtain ⟨hX, hΩ, hW1, hW2⟩ := Cert.Pre_finite_inputs.Finite.real_of_pre _ _ _ _ _ _ _ _ _ _ _ (hpre c)
    refine ⟨(h c).1.trans ?_, (h c).2.1.trans ?_, (h c).2.2.1.trans ?_, (h c).2.2.2⟩
    · rw [Cert.ReferenceIdeal.ReadP.val_main_v67_eq, a0, a1, a2, a3, a4, a5, a6, a7, a8, a9]
      exact ref_sco _ _ _ _ _ _ _ _ _ _ hX hΩ hW1 hW2
    · rw [Cert.ReferenceIdeal.ReadP.val_main_v56_eq, a0, a1, a2, a3, a4, a5, a6, a7]
      exact ref_hid _ _ _ _ _ _ _ _ hX hΩ hW1 hW2
    · rw [Cert.ReferenceIdeal.ReadP.val_main_v70_eq, a0, a1, a2, a3, a4, a5, a6, a7, a8, a9, a10]
      exact ref_nxt _ _ _ _ _ _ _ _ _ _ _ hX hΩ hW1 hW2

end Cert.Proof.Bridge

end
-- ==== Proof.lean ====
/- The proof of `Cert.Claim`: the three frames, the (empty) idealization ledger and the equivalence over the reals.

   The word-level kernel program and its idealization run by their generated frame certificates; the reference's run is
   its generated run module. The equivalence (Proof/Bridge.lean): both programs end with the class
   scores, the rectified batch-normalised hidden activations and the repeated last product of one chain
   — attention scores over the class axis, their softmax, the class-averaged attention output beside the slab's
   mean, an affine map, batch normalisation with a rectifier, a second affine map with a logistic, a last matrix
   product — which the kernel program computes over zero-padded projection matrices and with the class average taken
   before the contraction with the slab, equal over finite inputs by distributivity. -/
import proofs.«428937_j74302934221523_3_alg».proof.Defs
import proofs.«428937_j74302934221523_3_alg».proof.Proof.Gen.Kernel
import proofs.«428937_j74302934221523_3_alg».proof.Proof.Gen.Kernel.Skeleton
import proofs.«428937_j74302934221523_3_alg».proof.Proof.Gen.Kernel.Launch
import proofs.«428937_j74302934221523_3_alg».proof.Proof.Gen.Kernel.Points
import proofs.«428937_j74302934221523_3_alg».proof.Proof.Gen.Kernel.Frame
import proofs.«428937_j74302934221523_3_alg».proof.Proof.Gen.KernelIdeal
import proofs.«428937_j74302934221523_3_alg».proof.Proof.Gen.KernelIdeal.Skeleton
import proofs.«428937_j74302934221523_3_alg».proof.Proof.Gen.KernelIdeal.Launch
import proofs.«428937_j74302934221523_3_alg».proof.Proof.Gen.KernelIdeal.Points
import proofs.«428937_j74302934221523_3_alg».proof.Proof.Gen.KernelIdeal.Frame
import proofs.«428937_j74302934221523_3_alg».proof.Proof.Gen.ReferenceIdeal
import proofs.«428937_j74302934221523_3_alg».proof.Proof.Gen.Pre_finite_inputs
import proofs.«428937_j74302934221523_3_alg».proof.Proof.Bridge
import proofs.«428937_j74302934221523_3_alg».proof.Proof.RefRun
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.ValueP.run (F := Ideal) m ρ),
  trivial,
  Cert.Proof.Bridge.algebraic⟩

end Cert.Proof

end
